-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S64x64 .f32) (main_arg10 : FVec F S64 .f32) (main_arg11 : FVec F S64x64 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  main_v48

def fn_part1 {F : FTy → Type} [FloatOps F] (main_arg6 : FVec F S64x64 .f32) (main_arg7 : FVec F S64 .f32) (main_arg8 : FVec F S64x64 .f32) (main_arg9 : FVec F S64x64 .f32) (main_arg10 : FVec F S64 .f32) (main_arg11 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_v33

def fn {F : FTy → Type} [FloatOps F] (main_arg0 : FVec F S100000x64 .f32) (main_arg1 : IVec S2x1600000 32) (main_arg2 : IVec S100000 32) (main_arg3 : FVec F S64x64 .f32) (main_arg4 : FVec F S64 .f32) (main_arg5 : FVec F S64x64 .f32) (main_arg6 : FVec F S64x64 .f32) (main_arg7 : FVec F S64 .f32) (main_arg8 : FVec F S64x64 .f32) (main_arg9 : FVec F S64x64 .f32) (main_arg10 : FVec F S64 .f32) (main_arg11 : FVec F S64x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩
abbrev S10000x64 : Shape := ⟨2, ![10000, 64]⟩
abbrev S10000 : Shape := ⟨1, ![10000]⟩
abbrev S10000x1 : Shape := ⟨2, ![10000, 1]⟩
abbrev S64x10000 : Shape := ⟨2, ![64, 10000]⟩

abbrev nBuf : Space → Nat
  | .hbm => 82
  | .vmem => 33
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .f32⟩
  | .hbm, ⟨17, _⟩ => ⟨S1600000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x64, .f32⟩
  | .hbm, ⟨38, _⟩ => ⟨S_, .f32⟩
  | .hbm, ⟨39, _⟩ => ⟨S100000x64, .f32⟩
  | .hbm, ⟨40, _⟩ => ⟨S1600000x1, .i32⟩
  | .hbm, ⟨41, _⟩ => ⟨S100000x64, .f32⟩
  | .hbm, ⟨42, _⟩ => ⟨S100000x64, .f32⟩
  | .hbm, ⟨43, _⟩ => ⟨S100000x64, .f32⟩
  | .hbm, ⟨44, _⟩ => ⟨S1x64, .f32⟩
  | .hbm, ⟨45, _⟩ => ⟨S100000x64, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x64, .f32⟩
  | .hbm, ⟨55, _⟩ => ⟨S_, .f32⟩
  | .hbm, ⟨56, _⟩ => ⟨S100000x64, .f32⟩
  | .hbm, ⟨57, _⟩ => ⟨S1600000x1, .i32⟩
  | .hbm, ⟨58, _⟩ => ⟨S100000x64, .f32⟩
  | .hbm, ⟨59, _⟩ => ⟨S100000x64, .f32⟩
  | .hbm, ⟨60, _⟩ => ⟨S100000x64, .f32⟩
  | .hbm, ⟨61, _⟩ => ⟨S1x64, .f32⟩
  | .hbm, ⟨62, _⟩ => ⟨S100000x64, .f32⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S1600000x64, .f32⟩
  | .hbm, ⟨72, _⟩ => ⟨S_, .f32⟩
  | .hbm, ⟨73, _⟩ => ⟨S100000x64, .f32⟩
  | .hbm, ⟨74, _⟩ => ⟨S1600000x1, .i32⟩
  | .hbm, ⟨75, _⟩ => ⟨S100000x64, .f32⟩
  | .hbm, ⟨76, _⟩ => ⟨S100000x64, .f32⟩
  | .hbm, ⟨77, _⟩ => ⟨S100000x64, .f32⟩
  | .hbm, ⟨78, _⟩ => ⟨S1x64, .f32⟩
  | .hbm, ⟨79, _⟩ => ⟨S100000x64, .f32⟩
  | .hbm, ⟨80, _⟩ => ⟨S100000x1, .i32⟩
  | .hbm, ⟨81, _⟩ => ⟨S64x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x64, .f32⟩
  | .local _ .vmem, ⟨23, _⟩ => ⟨S1x64, .f32⟩
  | .local _ .vmem, ⟨24, _⟩ => ⟨S64x64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x1, .i32⟩
  | .local _ .vmem, ⟨30, _⟩ => ⟨S10000x1, .i32⟩
  | .local _ .vmem, ⟨31, _⟩ => ⟨S64x64, .f32⟩
  | .local _ .vmem, ⟨32, _⟩ => ⟨S64x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c : Ref sig .tc := ⟨.hbm, 29, rfl⟩
abbrev main_v13 : Ref sig .tc := ⟨.hbm, 30, rfl⟩
abbrev main_v14 : Ref sig .tc := ⟨.hbm, 31, rfl⟩
abbrev main_c_3 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_c_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_c_8 : Ref sig .tc := ⟨.hbm, 63, rfl⟩
abbrev main_v41 : Ref sig .tc := ⟨.hbm, 64, rfl⟩
abbrev main_v42 : Ref sig .tc := ⟨.hbm, 65, rfl⟩
abbrev main_c_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_10 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def k3_cond2 (i : grid3.Coords) : BitVec 1 :=
  let arg0 : BitVec 32 := BitVec.ofNat 32 (i 0).val
  let c9_i32 : BitVec 32 := 9#32
  let v19 : BitVec 1 := Scalar.cmpi .eq arg0 c9_i32
  let v20 : BitVec 32 := Scalar.extui v19
  let c0_i32_8 : BitVec 32 := 0#32
  let v21 : BitVec 1 := Scalar.cmpi .ne v20 c0_i32_8
  v21

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  transposes_S64x64_p1_0_S64x64 : S64x64.Transposes [1, 0] S64x64
  broadcasts_S1x64_S10000x64 : S1x64.Broadcasts S10000x64
  reduces_S10000x64_S10000 : S10000x64.Reduces [1] S10000
  shapeCasts_S10000_S10000x1 : S10000.ShapeCasts S10000x1
  broadcasts_S10000x1_S10000x64 : S10000x1.Broadcasts S10000x64
  shapeCasts_S100000_S100000x1 : S100000.ShapeCasts S100000x1
  shapeCasts_S64x64_S64x64 : S64x64.ShapeCasts S64x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  iota_S10000x64_d1_w32 : S10000x64.Iotas .tc 32 [1]
  natLt_1_32 : 1 < 32
  transposes_S10000x64_p1_0_S64x10000 : S10000x64.Transposes [1, 0] S64x10000
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  dot_S64x10000_S10000x64_S64x64_1_0_0_1_n_n_wf : DotDims.WF S64x10000 S10000x64 S64x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S100000x64.size a
  hwx2_5 : ∀ i : grid2.Coords, EltTy.bits .f32 = 32 ∨ (Rect.block (s := S100000x64) S10000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S100000x1.size a
  hwx3_1 : ∀ i : grid3.Coords, EltTy.bits .i32 = 32 ∨ (Rect.block (s := S100000x1) S10000x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S64x10000_S10000x64_S64x64_1_0_0_1_n_n : DotDims S64x10000 S10000x64 S64x64 where
  lhsContracting := [1]
  rhsContracting := [0]
  lhsNonContracting := [0]
  rhsNonContracting := [1]
  lhsBatch := []
  rhsBatch := []
  wf := dot_S64x10000_S10000x64_S64x64_1_0_0_1_n_n_wf

abbrev win0_0 : Pipeline.Window sig grid0 :=
  Pipeline.Window.ofSpec (Memref.whole main_v24) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v52) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v54) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v56) S64x64.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩

abbrev nBuf : Space → Nat
  | .hbm => 158
  | .vmem => 0
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S64x64, .f32⟩
  | 4 => ⟨S64, .f32⟩
  | 5 => ⟨S64x64, .f32⟩
  | 6 => ⟨S64x64, .f32⟩
  | 7 => ⟨S64, .f32⟩
  | 8 => ⟨S64x64, .f32⟩
  | 9 => ⟨S64x64, .f32⟩
  | 10 => ⟨S64, .f32⟩
  | 11 => ⟨S64x64, .f32⟩
  | 12 => ⟨S1x1600000, .i32⟩
  | 13 => ⟨S1600000, .i32⟩
  | 14 => ⟨S1x1600000, .i32⟩
  | 15 => ⟨S1600000, .i32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S1600000x64, .f32⟩
  | 25 => ⟨S_, .f32⟩
  | 26 => ⟨S100000x64, .f32⟩
  | 27 => ⟨S1600000x1, .i32⟩
  | 28 => ⟨S100000x64, .f32⟩
  | 29 => ⟨S_, .f32⟩
  | 30 => ⟨S1600000, .f32⟩
  | 31 => ⟨S_, .f32⟩
  | 32 => ⟨S100000, .f32⟩
  | 33 => ⟨S1600000x1, .i32⟩
  | 34 => ⟨S100000, .f32⟩
  | 35 => ⟨S_, .f32⟩
  | 36 => ⟨S100000, .f32⟩
  | 37 => ⟨S100000, .f32⟩
  | 38 => ⟨S100000x1, .f32⟩
  | 39 => ⟨S100000x64, .f32⟩
  | 40 => ⟨S100000x64, .f32⟩
  | 41 => ⟨S64x64, .f32⟩
  | 42 => ⟨S100000x64, .f32⟩
  | 43 => ⟨S1x64, .f32⟩
  | 44 => ⟨S100000x64, .f32⟩
  | 45 => ⟨S100000x64, .f32⟩
  | 46 => ⟨S64x64, .f32⟩
  | 47 => ⟨S100000x64, .f32⟩
  | 48 => ⟨S100000x64, .f32⟩
  | 49 => ⟨S100000x64, .f32⟩
  | 50 => ⟨S_, .f32⟩
  | 51 => ⟨S100000, .f32⟩
  | 52 => ⟨S100000x1, .f32⟩
  | 53 => ⟨S100000x1, .f32⟩
  | 54 => ⟨S_, .f32⟩
  | 55 => ⟨S100000x1, .f32⟩
  | 56 => ⟨S100000x1, .f32⟩
  | 57 => ⟨S100000x64, .f32⟩
  | 58 => ⟨S100000x64, .f32⟩
  | 59 => ⟨S_, .f32⟩
  | 60 => ⟨S100000x64, .f32⟩
  | 61 => ⟨S100000x64, .f32⟩
  | 62 => ⟨S_, .i32⟩
  | 63 => ⟨S1600000, .i32⟩
  | 64 => ⟨S1600000, .i1⟩
  | 65 => ⟨S_, .i32⟩
  | 66 => ⟨S1600000, .i32⟩
  | 67 => ⟨S1600000, .i32⟩
  | 68 => ⟨S1600000, .i32⟩
  | 69 => ⟨S1600000x1, .i32⟩
  | 70 => ⟨S1600000x64, .f32⟩
  | 71 => ⟨S_, .f32⟩
  | 72 => ⟨S100000x64, .f32⟩
  | 73 => ⟨S1600000x1, .i32⟩
  | 74 => ⟨S100000x64, .f32⟩
  | 75 => ⟨S_, .f32⟩
  | 76 => ⟨S1600000, .f32⟩
  | 77 => ⟨S_, .f32⟩
  | 78 => ⟨S100000, .f32⟩
  | 79 => ⟨S1600000x1, .i32⟩
  | 80 => ⟨S100000, .f32⟩
  | 81 => ⟨S_, .f32⟩
  | 82 => ⟨S100000, .f32⟩
  | 83 => ⟨S100000, .f32⟩
  | 84 => ⟨S100000x1, .f32⟩
  | 85 => ⟨S100000x64, .f32⟩
  | 86 => ⟨S100000x64, .f32⟩
  | 87 => ⟨S64x64, .f32⟩
  | 88 => ⟨S100000x64, .f32⟩
  | 89 => ⟨S1x64, .f32⟩
  | 90 => ⟨S100000x64, .f32⟩
  | 91 => ⟨S100000x64, .f32⟩
  | 92 => ⟨S64x64, .f32⟩
  | 93 => ⟨S100000x64, .f32⟩
  | 94 => ⟨S100000x64, .f32⟩
  | 95 => ⟨S100000x64, .f32⟩
  | 96 => ⟨S_, .f32⟩
  | 97 => ⟨S100000, .f32⟩
  | 98 => ⟨S100000x1, .f32⟩
  | 99 => ⟨S100000x1, .f32⟩
  | 100 => ⟨S_, .f32⟩
  | 101 => ⟨S100000x1, .f32⟩
  | 102 => ⟨S100000x1, .f32⟩
  | 103 => ⟨S100000x64, .f32⟩
  | 104 => ⟨S100000x64, .f32⟩
  | 105 => ⟨S_, .f32⟩
  | 106 => ⟨S100000x64, .f32⟩
  | 107 => ⟨S100000x64, .f32⟩
  | 108 => ⟨S_, .i32⟩
  | 109 => ⟨S1600000, .i32⟩
  | 110 => ⟨S1600000, .i1⟩
  | 111 => ⟨S_, .i32⟩
  | 112 => ⟨S1600000, .i32⟩
  | 113 => ⟨S1600000, .i32⟩
  | 114 => ⟨S1600000, .i32⟩
  | 115 => ⟨S1600000x1, .i32⟩
  | 116 => ⟨S1600000x64, .f32⟩
  | 117 => ⟨S_, .f32⟩
  | 118 => ⟨S100000x64, .f32⟩
  | 119 => ⟨S1600000x1, .i32⟩
  | 120 => ⟨S100000x64, .f32⟩
  | 121 => ⟨S_, .f32⟩
  | 122 => ⟨S1600000, .f32⟩
  | 123 => ⟨S_, .f32⟩
  | 124 => ⟨S100000, .f32⟩
  | 125 => ⟨S1600000x1, .i32⟩
  | 126 => ⟨S100000, .f32⟩
  | 127 => ⟨S_, .f32⟩
  | _ => ⟨S100000x64, .f32⟩

abbrev hbmTy0_1 (i : Nat) : BufTy := match i % 128 with
  | 0 => ⟨S100000, .f32⟩
  | 1 => ⟨S100000, .f32⟩
  | 2 => ⟨S100000x1, .f32⟩
  | 3 => ⟨S100000x64, .f32⟩
  | 4 => ⟨S100000x64, .f32⟩
  | 5 => ⟨S64x64, .f32⟩
  | 6 => ⟨S100000x64, .f32⟩
  | 7 => ⟨S1x64, .f32⟩
  | 8 => ⟨S100000x64, .f32⟩
  | 9 => ⟨S100000x64, .f32⟩
  | 10 => ⟨S64x64, .f32⟩
  | 11 => ⟨S100000x64, .f32⟩
  | 12 => ⟨S100000x64, .f32⟩
  | 13 => ⟨S100000x64, .f32⟩
  | 14 => ⟨S_, .f32⟩
  | 15 => ⟨S100000, .f32⟩
  | 16 => ⟨S100000x1, .f32⟩
  | 17 => ⟨S100000x1, .f32⟩
  | 18 => ⟨S_, .f32⟩
  | 19 => ⟨S100000x1, .f32⟩
  | 20 => ⟨S100000x1, .f32⟩
  | 21 => ⟨S100000x64, .f32⟩
  | 22 => ⟨S100000x64, .f32⟩
  | 23 => ⟨S_, .f32⟩
  | 24 => ⟨S100000x64, .f32⟩
  | 25 => ⟨S100000x64, .f32⟩
  | 26 => ⟨S_, .f32⟩
  | 27 => ⟨S64x64, .f32⟩
  | 28 => ⟨S100000x1, .i32⟩
  | 29 => ⟨S64x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_call0_cst : Ref sig .tc := ⟨.hbm, 59, rfl⟩
abbrev main_call0_v0 : Ref sig .tc := ⟨.hbm, 60, rfl⟩
abbrev main_v39 : Ref sig .tc := ⟨.hbm, 61, rfl⟩
abbrev main_c_6 : Ref sig .tc := ⟨.hbm, 62, rfl⟩
abbrev main_v40 : Ref sig .tc := ⟨.hbm, 63, rfl⟩
abbrev main_v41 : Ref sig .tc := ⟨.hbm, 64, rfl⟩
abbrev main_c_7 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_8 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_9 : Ref sig .tc := ⟨.hbm, 75, rfl⟩
abbrev main_v50 : Ref sig .tc := ⟨.hbm, 76, rfl⟩
abbrev main_cst_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_11 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_12 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_13 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_call1_cst : Ref sig .tc := ⟨.hbm, 105, rfl⟩
abbrev main_call1_v0 : Ref sig .tc := ⟨.hbm, 106, rfl⟩
abbrev main_v75 : Ref sig .tc := ⟨.hbm, 107, rfl⟩
abbrev main_c_14 : Ref sig .tc := ⟨.hbm, 108, rfl⟩
abbrev main_v76 : Ref sig .tc := ⟨.hbm, 109, rfl⟩
abbrev main_v77 : Ref sig .tc := ⟨.hbm, 110, rfl⟩
abbrev main_c_15 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_16 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_17 : Ref sig .tc := ⟨.hbm, 121, rfl⟩
abbrev main_v86 : Ref sig .tc := ⟨.hbm, 122, rfl⟩
abbrev main_cst_18 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_19 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_cst_20 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_cst_21 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_call2_cst : Ref sig .tc := ⟨.hbm, 151, rfl⟩
abbrev main_call2_v0 : Ref sig .tc := ⟨.hbm, 152, rfl⟩
abbrev main_v111 : Ref sig .tc := ⟨.hbm, 153, rfl⟩
abbrev main_cst_22 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S_S100000x1 : S_.BroadcastsInDim S100000x1 (![] : Fin 0 → Fin S100000x1.rank)
  bcast_S_S64x64 : S_.BroadcastsInDim S64x64 (![] : Fin 0 → Fin S64x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  scatter_S64x64_S100000x1_S100000x64_1_0_0_1_wf : ScatterDims.WF S64x64 S100000x1 S100000x64 [1] [0] [0] 1

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf

class Facts : Prop extends Facts₀ where

variable [Facts]
-- ==== Proof.BitsSageRegion0.lean ====
/-
  Region 0 (the first SAGE layer's dense part) of the idealized kernel's @main, at any float instance and at any contents
  V of the core's buffers when the region is entered: a window's block at a grid point, what the body leaves in the output
  window's buffer (one whole-block store of the payload of the five loaded blocks), the pipeline's proof data and the body's
  obligation at every point.
-/
import proofs.«418230_j2070174236742_2_alg».proof.Proof.Gen.Kernel.Launch
import proofs.«418230_j2070174236742_2_alg».proof.Proof.Gen.Kernel.Skeleton
import proofs.«418230_j2070174236742_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Sage0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at grid point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body loads and stores through. -/
abbrev rRows0 : Rect S10000x64 := Rect.unit (s := S10000x64) ![0, 0] S10000x64.size inb_S10000x64_S10000x64_0_0
abbrev rMat0 : Rect S64x64 := Rect.unit (s := S64x64) ![0, 0] S64x64.size inb_S64x64_S64x64_0_0
abbrev rBias0 : Rect S1x64 := Rect.unit (s := S1x64) ![0, 0] S1x64.size inb_S1x64_S1x64_0_0

/-- What the body leaves in the output window's buffer, from the five input blocks: its one store. -/
def out0_5 (x0 x1 : Vec F S10000x64 .f32) (x2 : Vec F S64x64 .f32) (x3 : Vec F S1x64 .f32) (x4 : Vec F S64x64 .f32) : Vec F S10000x64 .f32 :=
  View.canon [⟨rRows0, k0_pay1 (View.ld x0 rRows0) (View.ld x1 rRows0) (View.ld x2 rMat0) (View.ld x3 rBias0) (View.ld x4 rMat0)⟩]

/-- Input window 0's current staging buffer holds its block at every point, fetched there or not, for any proof data
    whose array is V's and whose body leaves the block in place: unfetched, the block index has not moved, so the
    previous point's block is this point's; the window is uncut and never idle. -/
theorem beforeOf0_0 {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof data
    whose array is V's and whose body leaves the block in place: unfetched, the block index has not moved, so the
    previous point's block is this point's; the window is uncut and never idle. -/
theorem beforeOf0_1 {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof data
    whose array is V's and whose body leaves the block in place: unfetched, the block index has not moved, so the
    previous point's block is this point's; the window is uncut and never idle. -/
theorem beforeOf0_2 {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof data
    whose array is V's and whose body leaves the block in place: unfetched, the block index has not moved, so the
    previous point's block is this point's; the window is uncut and never idle. -/
theorem beforeOf0_3 {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof data
    whose array is V's and whose body leaves the block in place: unfetched, the block index has not moved, so the
    previous point's block is this point's; the window is uncut and never idle. -/
theorem beforeOf0_4 {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The one store is through the whole-buffer rectangle, so it covers the output buffer. -/
theorem cover0_5 (p : Vec F S10000x64 .f32) (y : S10000x64.Idx) :
    ∃ pc ∈ ([⟨rRows0, p⟩] : List (View.Piece (Elt F) S10000x64 .f32)), y ∈ pc.1.set :=
  View.cover_of_tiled [⟨rRows0, p⟩] S10000x64.size (by rfl) y

set_option maxHeartbeats 1000000 in
/-- The kernel body on whole staging memrefs, the five inputs' at read contents and the output's at anything, runs to
    the continuation holding the inputs' as they were and the output's at out0_5 of them: five whole-buffer loads, a
    load of the output buffer whose value is unused, and one whole-buffer store of the payload, which read back is the
    canon of that one piece. -/
theorem sound_kernel0 (c : Dev nD) (E : Set ℕ) (i : grid0.Coords)
    (a1 : Memref sig .tc .vmem S10000x64 .f32) (ha1 : a1.IsWhole) (a2 : Memref sig .tc .vmem S10000x64 .f32) (ha2 : a2.IsWhole)
    (a3 : Memref sig .tc .vmem S64x64 .f32) (ha3 : a3.IsWhole) (a4 : Memref sig .tc .vmem S1x64 .f32) (ha4 : a4.IsWhole)
    (a5 : Memref sig .tc .vmem S64x64 .f32) (ha5 : a5.IsWhole) (a6 : Memref sig .tc .vmem S10000x64 .f32) (ha6 : a6.IsWhole)
    (u1 u2 : Vec F S10000x64 .f32) (u3 : Vec F S64x64 .f32) (u4 : Vec F S1x64 .f32) (u5 : Vec F S64x64 .f32) (K : PUnit → sProp 𝕄) :
    iprop(owns (c : Thread nD τ) a1 fullShare u1 ∗ owns (c : Thread nD τ) a2 fullShare u2 ∗ owns (c : Thread nD τ) a3 fullShare u3
        ∗ owns (c : Thread nD τ) a4 fullShare u4 ∗ owns (c : Thread nD τ) a5 fullShare u5 ∗ (∃ d, owns (c : Thread nD τ) a6 fullShare d)
        ∗ (iprop(owns (c : Thread nD τ) a1 fullShare u1 ∗ owns (c : Thread nD τ) a2 fullShare u2 ∗ owns (c : Thread nD τ) a3 fullShare u3
            ∗ owns (c : Thread nD τ) a4 fullShare u4 ∗ owns (c : Thread nD τ) a5 fullShare u5
            ∗ owns (c : Thread nD τ) a6 fullShare (out0_5 u1 u2 u3 u4 u5)) -∗ K ⟨⟩))
      ⊢ wp frame (wpE (defs₀ (F := F)) Variants.none c none) E (cc0__sage_dense_kernel i a1 ha1 a2 ha2 a3 ha3 a4 ha4 a5 ha5 a6 ha6) K := by
  simp only [cc0__sage_dense_kernel_eq_skeleton]; unfold cc0__sage_dense_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_5 _)

/-- The proof data of pipeline 0 on core c: arrays as entered; each input's buffer at its block, the output's at out0_5 of them. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t =
    out0_5 (iblk0 V c 0 t) (iblk0 V c 1 t) (iblk0 V c 2 t) (iblk0 V c 3 t) (iblk0 V c 4 t) := by dsimp only [dat0]

/-- Each input's current staging buffer holds its block at every point, fetched there or not. -/
theorem before0_0 (c : Dev nD) (t : Fin cfg0.N) (d) : (dat0 V c).before 0 t d = iblk0 V c 0 t :=
  beforeOf0_0 V (dat0 V c) (A_eq0 V c 0) (after0_0 V c) t d
theorem before0_1 (c : Dev nD) (t : Fin cfg0.N) (d) : (dat0 V c).before 1 t d = iblk0 V c 1 t :=
  beforeOf0_1 V (dat0 V c) (A_eq0 V c 1) (after0_1 V c) t d
theorem before0_2 (c : Dev nD) (t : Fin cfg0.N) (d) : (dat0 V c).before 2 t d = iblk0 V c 2 t :=
  beforeOf0_2 V (dat0 V c) (A_eq0 V c 2) (after0_2 V c) t d
theorem before0_3 (c : Dev nD) (t : Fin cfg0.N) (d) : (dat0 V c).before 3 t d = iblk0 V c 3 t :=
  beforeOf0_3 V (dat0 V c) (A_eq0 V c 3) (after0_3 V c) t d
theorem before0_4 (c : Dev nD) (t : Fin cfg0.N) (d) : (dat0 V c).before 4 t d = iblk0 V c 4 t :=
  beforeOf0_4 V (dat0 V c) (A_eq0 V c 4) (after0_4 V c) t d

/-- What the body is called with at point t: the invariant, what the core owes, and each window's current buffer, the
    inputs' at what they hold before the body and the output's at some contents, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns: the invariant and the owed amount at the next point, each buffer at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H1]; · iexact H1
  isplitl [H2]; · iexact H2
  isplitl [H3]; · iexact H3
  isplitl [H4]; · iexact H4
  isplitl [H5]; · iexact H5
  isplitl [H6]; · iexists _; iexact H6
  iintro ⟨H1, H2, H3, H4, H5, H6⟩
  isplitl [HΦ]; · iexact HΦ
  isplitl [Ho]; · iexact Ho
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.Kernel.Sage0

end
-- ==== Proof.BitsSageRegion1.lean ====
/-
  Region 1 (the first SAGE layer's dense part) of the idealized kernel's @main, at any float instance and at any contents
  V of the core's buffers when the region is entered: a window's block at a grid point, what the body leaves in the output
  window's buffer (one whole-block store of the payload of the five loaded blocks), the pipeline's proof data and the body's
  obligation at every point.
-/
import proofs.«418230_j2070174236742_2_alg».proof.Proof.Gen.Kernel.Launch
import proofs.«418230_j2070174236742_2_alg».proof.Proof.Gen.Kernel.Skeleton
import proofs.«418230_j2070174236742_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Sage1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at grid point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-buffer rectangles the body loads and stores through. -/
abbrev rRows1 : Rect S10000x64 := Rect.unit (s := S10000x64) ![0, 0] S10000x64.size inb_S10000x64_S10000x64_0_0
abbrev rMat1 : Rect S64x64 := Rect.unit (s := S64x64) ![0, 0] S64x64.size inb_S64x64_S64x64_0_0
abbrev rBias1 : Rect S1x64 := Rect.unit (s := S1x64) ![0, 0] S1x64.size inb_S1x64_S1x64_0_0

/-- What the body leaves in the output window's buffer, from the five input blocks: its one store. -/
def out1_5 (x0 x1 : Vec F S10000x64 .f32) (x2 : Vec F S64x64 .f32) (x3 : Vec F S1x64 .f32) (x4 : Vec F S64x64 .f32) : Vec F S10000x64 .f32 :=
  View.canon [⟨rRows1, k1_pay1 (View.ld x0 rRows1) (View.ld x1 rRows1) (View.ld x2 rMat1) (View.ld x3 rBias1) (View.ld x4 rMat1)⟩]

/-- Input window 0's current staging buffer holds its block at every point, fetched there or not, for any proof data
    whose array is V's and whose body leaves the block in place: unfetched, the block index has not moved, so the
    previous point's block is this point's; the window is uncut and never idle. -/
theorem beforeOf0_0 {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is V's and whose body leaves the block in place: unfetched, the block index has not moved, so the
    previous point's block is this point's; the window is uncut and never idle. -/
theorem beforeOf0_1 {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is V's and whose body leaves the block in place: unfetched, the block index has not moved, so the
    previous point's block is this point's; the window is uncut and never idle. -/
theorem beforeOf0_2 {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data
    whose array is V's and whose body leaves the block in place: unfetched, the block index has not moved, so the
    previous point's block is this point's; the window is uncut and never idle. -/
theorem beforeOf0_3 {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof data
    whose array is V's and whose body leaves the block in place: unfetched, the block index has not moved, so the
    previous point's block is this point's; the window is uncut and never idle. -/
theorem beforeOf0_4 {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The one store is through the whole-buffer rectangle, so it covers the output buffer. -/
theorem cover1_5 (p : Vec F S10000x64 .f32) (y : S10000x64.Idx) :
    ∃ pc ∈ ([⟨rRows1, p⟩] : List (View.Piece (Elt F) S10000x64 .f32)), y ∈ pc.1.set :=
  View.cover_of_tiled [⟨rRows1, p⟩] S10000x64.size (by rfl) y

set_option maxHeartbeats 1000000 in
/-- The kernel body on whole staging memrefs, the five inputs' at read contents and the output's at anything, runs to
    the continuation holding the inputs' as they were and the output's at out1_5 of them: five whole-buffer loads, a
    load of the output buffer whose value is unused, and one whole-buffer store of the payload, which read back is the
    canon of that one piece. -/
theorem sound_kernel1 (c : Dev nD) (E : Set ℕ) (i : grid1.Coords)
    (a1 : Memref sig .tc .vmem S10000x64 .f32) (ha1 : a1.IsWhole) (a2 : Memref sig .tc .vmem S10000x64 .f32) (ha2 : a2.IsWhole)
    (a3 : Memref sig .tc .vmem S64x64 .f32) (ha3 : a3.IsWhole) (a4 : Memref sig .tc .vmem S1x64 .f32) (ha4 : a4.IsWhole)
    (a5 : Memref sig .tc .vmem S64x64 .f32) (ha5 : a5.IsWhole) (a6 : Memref sig .tc .vmem S10000x64 .f32) (ha6 : a6.IsWhole)
    (u1 u2 : Vec F S10000x64 .f32) (u3 : Vec F S64x64 .f32) (u4 : Vec F S1x64 .f32) (u5 : Vec F S64x64 .f32) (K : PUnit → sProp 𝕄) :
    iprop(owns (c : Thread nD τ) a1 fullShare u1 ∗ owns (c : Thread nD τ) a2 fullShare u2 ∗ owns (c : Thread nD τ) a3 fullShare u3
        ∗ owns (c : Thread nD τ) a4 fullShare u4 ∗ owns (c : Thread nD τ) a5 fullShare u5 ∗ (∃ d, owns (c : Thread nD τ) a6 fullShare d)
        ∗ (iprop(owns (c : Thread nD τ) a1 fullShare u1 ∗ owns (c : Thread nD τ) a2 fullShare u2 ∗ owns (c : Thread nD τ) a3 fullShare u3
            ∗ owns (c : Thread nD τ) a4 fullShare u4 ∗ owns (c : Thread nD τ) a5 fullShare u5
            ∗ owns (c : Thread nD τ) a6 fullShare (out1_5 u1 u2 u3 u4 u5)) -∗ K ⟨⟩))
      ⊢ wp frame (wpE (defs₀ (F := F)) Variants.none c none) E (cc1__sage_dense_kernel i a1 ha1 a2 ha2 a3 ha3 a4 ha4 a5 ha5 a6 ha6) K := by
  simp only [cc1__sage_dense_kernel_eq_skeleton]; unfold cc1__sage_dense_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_5 _)

/-- The proof data of pipeline 1 on core c: arrays as entered; each input's buffer at its block, the output's at out1_5 of them. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t =
    out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  beforeOf0_0 V (dat1 V c) (A_eq1 V c 0) (after1_0 V c) t d
theorem before1_1 (c : Dev nD) (t : Fin cfg1.N) (d) : (dat1 V c).before 1 t d = iblk1 V c 1 t :=
  beforeOf0_1 V (dat1 V c) (A_eq1 V c 1) (after1_1 V c) t d
theorem before1_2 (c : Dev nD) (t : Fin cfg1.N) (d) : (dat1 V c).before 2 t d = iblk1 V c 2 t :=
  beforeOf0_2 V (dat1 V c) (A_eq1 V c 2) (after1_2 V c) t d
theorem before1_3 (c : Dev nD) (t : Fin cfg1.N) (d) : (dat1 V c).before 3 t d = iblk1 V c 3 t :=
  beforeOf0_3 V (dat1 V c) (A_eq1 V c 3) (after1_3 V c) t d
theorem before1_4 (c : Dev nD) (t : Fin cfg1.N) (d) : (dat1 V c).before 4 t d = iblk1 V c 4 t :=
  beforeOf0_4 V (dat1 V c) (A_eq1 V c 4) (after1_4 V c) t d

/-- What the body is called with at point t: the invariant, what the core owes, and each window's current buffer, the
    inputs' at what they hold before the body and the output's at some contents, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns: the invariant and the owed amount at the next point, each buffer at what the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H1]; · iexact H1
  isplitl [H2]; · iexact H2
  isplitl [H3]; · iexact H3
  isplitl [H4]; · iexact H4
  isplitl [H5]; · iexact H5
  isplitl [H6]; · iexists _; iexact H6
  iintro ⟨H1, H2, H3, H4, H5, H6⟩
  isplitl [HΦ]; · iexact HΦ
  isplitl [Ho]; · iexact Ho
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.Kernel.Sage1

end
-- ==== Proof.BitsSageRegion2.lean ====
/-
  Region 2 (the first SAGE layer's dense part) of the idealized kernel's @main, at any float instance and at any contents
  V of the core's buffers when the region is entered: a window's block at a grid point, what the body leaves in the output
  window's buffer (one whole-block store of the payload of the five loaded blocks), the pipeline's proof data and the body's
  obligation at every point.
-/
import proofs.«418230_j2070174236742_2_alg».proof.Proof.Gen.Kernel.Launch
import proofs.«418230_j2070174236742_2_alg».proof.Proof.Gen.Kernel.Skeleton
import proofs.«418230_j2070174236742_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Sage2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at grid point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole-buffer rectangles the body loads and stores through. -/
abbrev rRows2 : Rect S10000x64 := Rect.unit (s := S10000x64) ![0, 0] S10000x64.size inb_S10000x64_S10000x64_0_0
abbrev rMat2 : Rect S64x64 := Rect.unit (s := S64x64) ![0, 0] S64x64.size inb_S64x64_S64x64_0_0
abbrev rBias2 : Rect S1x64 := Rect.unit (s := S1x64) ![0, 0] S1x64.size inb_S1x64_S1x64_0_0

/-- What the body leaves in the output window's buffer, from the five input blocks: its one store. -/
def out2_5 (x0 x1 : Vec F S10000x64 .f32) (x2 : Vec F S64x64 .f32) (x3 : Vec F S1x64 .f32) (x4 : Vec F S64x64 .f32) : Vec F S10000x64 .f32 :=
  View.canon [⟨rRows2, k2_pay1 (View.ld x0 rRows2) (View.ld x1 rRows2) (View.ld x2 rMat2) (View.ld x3 rBias2) (View.ld x4 rMat2)⟩]

/-- Input window 0's current staging buffer holds its block at every point, fetched there or not, for any proof data
    whose array is V's and whose body leaves the block in place: unfetched, the block index has not moved, so the
    previous point's block is this point's; the window is uncut and never idle. -/
theorem beforeOf0_0 {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof data
    whose array is V's and whose body leaves the block in place: unfetched, the block index has not moved, so the
    previous point's block is this point's; the window is uncut and never idle. -/
theorem beforeOf0_1 {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof data
    whose array is V's and whose body leaves the block in place: unfetched, the block index has not moved, so the
    previous point's block is this point's; the window is uncut and never idle. -/
theorem beforeOf0_2 {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof data
    whose array is V's and whose body leaves the block in place: unfetched, the block index has not moved, so the
    previous point's block is this point's; the window is uncut and never idle. -/
theorem beforeOf0_3 {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof data
    whose array is V's and whose body leaves the block in place: unfetched, the block index has not moved, so the
    previous point's block is this point's; the window is uncut and never idle. -/
theorem beforeOf0_4 {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The one store is through the whole-buffer rectangle, so it covers the output buffer. -/
theorem cover2_5 (p : Vec F S10000x64 .f32) (y : S10000x64.Idx) :
    ∃ pc ∈ ([⟨rRows2, p⟩] : List (View.Piece (Elt F) S10000x64 .f32)), y ∈ pc.1.set :=
  View.cover_of_tiled [⟨rRows2, p⟩] S10000x64.size (by rfl) y

set_option maxHeartbeats 1000000 in
/-- The kernel body on whole staging memrefs, the five inputs' at read contents and the output's at anything, runs to
    the continuation holding the inputs' as they were and the output's at out2_5 of them: five whole-buffer loads, a
    load of the output buffer whose value is unused, and one whole-buffer store of the payload, which read back is the
    canon of that one piece. -/
theorem sound_kernel2 (c : Dev nD) (E : Set ℕ) (i : grid2.Coords)
    (a1 : Memref sig .tc .vmem S10000x64 .f32) (ha1 : a1.IsWhole) (a2 : Memref sig .tc .vmem S10000x64 .f32) (ha2 : a2.IsWhole)
    (a3 : Memref sig .tc .vmem S64x64 .f32) (ha3 : a3.IsWhole) (a4 : Memref sig .tc .vmem S1x64 .f32) (ha4 : a4.IsWhole)
    (a5 : Memref sig .tc .vmem S64x64 .f32) (ha5 : a5.IsWhole) (a6 : Memref sig .tc .vmem S10000x64 .f32) (ha6 : a6.IsWhole)
    (u1 u2 : Vec F S10000x64 .f32) (u3 : Vec F S64x64 .f32) (u4 : Vec F S1x64 .f32) (u5 : Vec F S64x64 .f32) (K : PUnit → sProp 𝕄) :
    iprop(owns (c : Thread nD τ) a1 fullShare u1 ∗ owns (c : Thread nD τ) a2 fullShare u2 ∗ owns (c : Thread nD τ) a3 fullShare u3
        ∗ owns (c : Thread nD τ) a4 fullShare u4 ∗ owns (c : Thread nD τ) a5 fullShare u5 ∗ (∃ d, owns (c : Thread nD τ) a6 fullShare d)
        ∗ (iprop(owns (c : Thread nD τ) a1 fullShare u1 ∗ owns (c : Thread nD τ) a2 fullShare u2 ∗ owns (c : Thread nD τ) a3 fullShare u3
            ∗ owns (c : Thread nD τ) a4 fullShare u4 ∗ owns (c : Thread nD τ) a5 fullShare u5
            ∗ owns (c : Thread nD τ) a6 fullShare (out2_5 u1 u2 u3 u4 u5)) -∗ K ⟨⟩))
      ⊢ wp frame (wpE (defs₀ (F := F)) Variants.none c none) E (cc2__sage_dense_kernel i a1 ha1 a2 ha2 a3 ha3 a4 ha4 a5 ha5 a6 ha6) K := by
  simp only [cc2__sage_dense_kernel_eq_skeleton]; unfold cc2__sage_dense_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_5 _)

/-- The proof data of pipeline 2 on core c: arrays as entered; each input's buffer at its block, the output's at out2_5 of them. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t =
    out2_5 (iblk2 V c 0 t) (iblk2 V c 1 t) (iblk2 V c 2 t) (iblk2 V c 3 t) (iblk2 V c 4 t) := by dsimp only [dat2]

/-- Each input's current staging buffer holds its block at every point, fetched there or not. -/
theorem before2_0 (c : Dev nD) (t : Fin cfg2.N) (d) : (dat2 V c).before 0 t d = iblk2 V c 0 t :=
  beforeOf0_0 V (dat2 V c) (A_eq2 V c 0) (after2_0 V c) t d
theorem before2_1 (c : Dev nD) (t : Fin cfg2.N) (d) : (dat2 V c).before 1 t d = iblk2 V c 1 t :=
  beforeOf0_1 V (dat2 V c) (A_eq2 V c 1) (after2_1 V c) t d
theorem before2_2 (c : Dev nD) (t : Fin cfg2.N) (d) : (dat2 V c).before 2 t d = iblk2 V c 2 t :=
  beforeOf0_2 V (dat2 V c) (A_eq2 V c 2) (after2_2 V c) t d
theorem before2_3 (c : Dev nD) (t : Fin cfg2.N) (d) : (dat2 V c).before 3 t d = iblk2 V c 3 t :=
  beforeOf0_3 V (dat2 V c) (A_eq2 V c 3) (after2_3 V c) t d
theorem before2_4 (c : Dev nD) (t : Fin cfg2.N) (d) : (dat2 V c).before 4 t d = iblk2 V c 4 t :=
  beforeOf0_4 V (dat2 V c) (A_eq2 V c 4) (after2_4 V c) t d

/-- What the body is called with at point t: the invariant, what the core owes, and each window's current buffer, the
    inputs' at what they hold before the body and the output's at some contents, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns: the invariant and the owed amount at the next point, each buffer at what the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so the body's triple applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H1]; · iexact H1
  isplitl [H2]; · iexact H2
  isplitl [H3]; · iexact H3
  isplitl [H4]; · iexact H4
  isplitl [H5]; · iexact H5
  isplitl [H6]; · iexists _; iexact H6
  iintro ⟨H1, H2, H3, H4, H5, H6⟩
  isplitl [HΦ]; · iexact HΦ
  isplitl [Ho]; · iexact Ho
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end

end Cert.Kernel.Sage2

end
-- ==== Proof.BitsReadoutRegion.lean ====
/-
  Region 3 (the readout: a one-hot matmul accumulated over the ten row tiles in a scratch the kernel keeps between grid
  points, copied to the output block at the last point) of the idealized kernel's @main, at any float instance and at any
  contents V of the core's buffers when the region is entered.
-/
import proofs.«418230_j2070174236742_2_alg».proof.Proof.Gen.Kernel.Launch
import proofs.«418230_j2070174236742_2_alg».proof.Proof.Gen.Kernel.Skeleton
import proofs.«418230_j2070174236742_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Readout

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

/-! ## The two conditionals of the body, in closed form over the ten grid points -/

/-- The first conditional of the body (the reset of the scratch): the grid coordinate is 0. -/
abbrev isFirst (i : grid3.Coords) : Prop :=
  (Scalar.cmpi .ne (Scalar.extui (Scalar.cmpi .eq (BitVec.ofNat 32 (i 0).val) 0#32)) 0#32) = 1#1
/-- It holds at point 0 only. -/
theorem isFirst_iff : ∀ t : Fin cfg3.N, isFirst (grid3.coords t) ↔ t.val % 10 = 0 :=
  (by decide +kernel : ∀ t : Fin grid3.N, isFirst (grid3.coords t) ↔ t.val % 10 = 0)

/-- The second conditional (the copy of the scratch to the output block): the grid coordinate is 9. -/
abbrev isLast (i : grid3.Coords) : Prop := k3_cond2 i = 1#1
/-- It holds at point 9 only. -/
theorem isLast_iff : ∀ t : Fin cfg3.N, isLast (grid3.coords t) ↔ t.val % 10 = 9 :=
  (by decide +kernel : ∀ t : Fin grid3.N, isLast (grid3.coords t) ↔ t.val % 10 = 9)

/-! ## Where the windows are idle -/

/-- The two input windows are never idle. -/
theorem live_tile : ∀ t : Fin cfg3.N, cfg3.idle 0 (grid3.coords t) = false := by decide +kernel
theorem live_ids : ∀ t : Fin cfg3.N, cfg3.idle 1 (grid3.coords t) = false := by decide +kernel
/-- Away from the last point the output window is idle (the body stores nothing into its buffer) -/
theorem idle_out : ∀ t : Fin cfg3.N, ¬isLast (grid3.coords t) → cfg3.idle 2 (grid3.coords t) = true := by decide +kernel
/-- and its block is not written back there; -/
theorem noFlush_out : ∀ t : Fin cfg3.N, ¬isLast (grid3.coords t) → (cfg3.win 2).flush t = false := by decide +kernel
/-- at the last point it is live. -/
theorem live_out : ∀ t : Fin cfg3.N, isLast (grid3.coords t) → cfg3.idle 2 (grid3.coords t) = false := by decide +kernel

/-! ## The memrefs the body is called with -/

/-- Each window's current staging memref at point `t`, as the pipeline passes it, and its wholeness. -/
abbrev mTile (t : Fin cfg3.N) : Memref sig .tc .vmem S10000x64 .f32 := win3_0.stage (cfg3.slots t 0)
abbrev hTile (t : Fin cfg3.N) : (mTile t).IsWhole := hstage3_0 ((cfg3.slots t 0).cast nbuf3_0)
abbrev mIds (t : Fin cfg3.N) : Memref sig .tc .vmem S10000x1 .i32 := win3_1.stage (cfg3.slots t 1)
abbrev hIds (t : Fin cfg3.N) : (mIds t).IsWhole := hstage3_1 ((cfg3.slots t 1).cast nbuf3_1)
abbrev mOut (t : Fin cfg3.N) : Memref sig .tc .vmem S64x64 .f32 := win3_2.stage (cfg3.slots t 2)
abbrev hOut (t : Fin cfg3.N) : (mOut t).IsWhole := hstage3_2 ((cfg3.slots t 2).cast nbuf3_2)
/-- The scratch: a whole scoped buffer of the kernel's own, passed beside the windows. -/
abbrev mAcc : Memref sig .tc .vmem S64x64 .f32 := Memref.whole cc3_scratch0
/-- The scratch and the output window's one staging buffer as views: what they hold is stated through them. -/
abbrev vAcc : View sig .tc .vmem S64x64 .f32 := mAcc.view
abbrev vOut : View sig .tc .vmem S64x64 .f32 := (Memref.whole cc3_stg2_0 : Memref sig .tc .vmem S64x64 .f32).view

/-- The other scoped buffers of the core (the other calls' staging buffers and scratch), each at some contents: carried
    through the region unopened. -/
abbrev restScoped (c : Dev nD) : sProp 𝕄 :=
  Pipeline.scopedRestBut (Ix := Unit) (Name := ℕ) (U := UR sig nD τ) (Lvl := ℕ) (Val := Elt F) spec3 c [cc3_scratch0]

/-- The class's invariant with the scratch as a memref owned at some contents: the scratch, the other scoped buffers,
    the generator register. -/
theorem PhiA_split (c : Dev nD) :
    (Pipeline.ΦA spec3 c : sProp 𝕄)
      = iprop(iprop(iprop(∃ d, owns (c : Thread nD τ) mAcc fullShare d) ∗ restScoped c) ∗ (∃ r, prngReg c r)) := by
  unfold Pipeline.ΦA; rw [scopedRest3_split]; simp only [mAcc, owns_whole]; try rfl

/-! ## The body's run, case by case -/

set_option maxHeartbeats 1000000 in
/-- THE FIRST POINT (reset, no copy): on whole memrefs — the two inputs' at their blocks, the output's at contents handed
    back untouched, the scratch at anything — the body runs to the continuation holding the inputs' as they were and the
    scratch with its stores written, as pieces (last first): the pieces are what the run finds. -/
noncomputable def runFirst (c : Dev nD) (i : grid3.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S64x64 .f32) (harg4 : arg4.IsWhole) (hc0 : isFirst i) (hc1 : ¬isLast i)
    (x0 : Vec F S10000x64 .f32) (x1 : Vec F S10000x1 .i32) :
    Σ' (LO : List (View.Piece (Elt F) S64x64 .f32)), { LA : List (View.Piece (Elt F) S64x64 .f32) //
      ∀ (xo : Vec F S64x64 .f32) (E : Set ℕ) (K : PUnit → sProp 𝕄),
        iprop(owns (c : Thread nD τ) arg1 fullShare x0 ∗ owns (c : Thread nD τ) arg2 fullShare x1 ∗ owns (c : Thread nD τ) arg3 fullShare xo ∗ (∃ d, owns (c : Thread nD τ) arg4 fullShare d)
            ∗ (iprop(owns (c : Thread nD τ) arg1 fullShare x0 ∗ owns (c : Thread nD τ) arg2 fullShare x1 ∗ owns (c : Thread nD τ) arg3 fullShare xo ∗ (∃ f, arg4.view.loc (c : Thread nD τ) ↦[arg4.view.set]{fullShare} arg4.view.writes (Elt F) f LA)) -∗ K ⟨⟩))
          ⊢ wp frame (wpE (defs₀ (F := F)) Variants.none c none) E (cc3__readout_kernel i arg1 harg1 arg2 harg2 arg3 harg3 arg4 harg4) K } := by
  refine ⟨[], ?_, fun xo E K => ?run⟩
  case run =>
    simp only [cc3__readout_kernel_eq_skeleton]; unfold cc3__readout_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- A MIDDLE POINT (no reset, no copy): the scratch comes at what the point before left; the body adds this tile's
    product to it and leaves the output's buffer untouched. -/
noncomputable def runMid (c : Dev nD) (i : grid3.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S64x64 .f32) (harg4 : arg4.IsWhole) (hc0 : ¬isFirst i) (hc1 : ¬isLast i)
    (x0 : Vec F S10000x64 .f32) (x1 : Vec F S10000x1 .i32) (xa : Vec F S64x64 .f32) :
    Σ' (LO : List (View.Piece (Elt F) S64x64 .f32)), { LA : List (View.Piece (Elt F) S64x64 .f32) //
      ∀ (xo : Vec F S64x64 .f32) (E : Set ℕ) (K : PUnit → sProp 𝕄),
        iprop(owns (c : Thread nD τ) arg1 fullShare x0 ∗ owns (c : Thread nD τ) arg2 fullShare x1 ∗ owns (c : Thread nD τ) arg3 fullShare xo ∗ owns (c : Thread nD τ) arg4 fullShare xa
            ∗ (iprop(owns (c : Thread nD τ) arg1 fullShare x0 ∗ owns (c : Thread nD τ) arg2 fullShare x1 ∗ owns (c : Thread nD τ) arg3 fullShare xo ∗ (∃ f, arg4.view.loc (c : Thread nD τ) ↦[arg4.view.set]{fullShare} arg4.view.writes (Elt F) f LA)) -∗ K ⟨⟩))
          ⊢ wp frame (wpE (defs₀ (F := F)) Variants.none c none) E (cc3__readout_kernel i arg1 harg1 arg2 harg2 arg3 harg3 arg4 harg4) K } := by
  refine ⟨[], ?_, fun xo E K => ?run⟩
  case run =>
    simp only [cc3__readout_kernel_eq_skeleton]; unfold cc3__readout_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- THE LAST POINT (no reset, copy): the scratch comes at what the point before left; the body adds this tile's product
    to it and stores the sum into the output's buffer, which comes at anything. -/
noncomputable def runLast (c : Dev nD) (i : grid3.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S64x64 .f32) (harg4 : arg4.IsWhole) (hc0 : ¬isFirst i) (hc1 : isLast i)
    (x0 : Vec F S10000x64 .f32) (x1 : Vec F S10000x1 .i32) (xa : Vec F S64x64 .f32) :
    Σ' (LO : List (View.Piece (Elt F) S64x64 .f32)), { LA : List (View.Piece (Elt F) S64x64 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xa
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f LO) ∗ (∃ f, arg4.view.loc (c : Thread nD τ) ↦[arg4.view.set]{fullShare} arg4.view.writes (Elt F) f LA)) -∗ K ⟨⟩))
          ⊢ wp frame (wpE (defs₀ (F := F)) Variants.none c none) E (cc3__readout_kernel i arg1 harg1 arg2 harg2 arg3 harg3 arg4 harg4) K } := by
  refine ⟨?_, ?_, fun E K => ?run⟩
  case run =>
    simp only [cc3__readout_kernel_eq_skeleton]; unfold cc3__readout_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

/-! ## What each case leaves, at a grid point -/

/-- The first point stores nothing into the output's buffer: no pieces, a placeholder nothing consults (the window is
    idle there and not written back). -/
def outFirst (c : Dev nD) (t : Fin cfg3.N) (h0 : isFirst (grid3.coords t)) (h1 : ¬isLast (grid3.coords t))
    (x0 : Vec F S10000x64 .f32) (x1 : Vec F S10000x1 .i32) : Vec F S64x64 .f32 :=
  vOut.read (Elt F) (vOut.writes (Elt F) vOut.junk (runFirst c (grid3.coords t) (mTile t) (hTile t) (mIds t) (hIds t) (mOut t) (hOut t) mAcc (Memref.isWhole_whole _) h0 h1 x0 x1).1)

/-- The first point's pieces for the scratch cover it (two whole stores). -/
theorem accFirst_cover (c : Dev nD) (t : Fin cfg3.N) (h0 : isFirst (grid3.coords t)) (h1 : ¬isLast (grid3.coords t))
    (x0 : Vec F S10000x64 .f32) (x1 : Vec F S10000x1 .i32) (y : S64x64.Idx) :
    ∃ pc ∈ (runFirst c (grid3.coords t) (mTile t) (hTile t) (mIds t) (hIds t) (mOut t) (hOut t) mAcc (Memref.isWhole_whole _) h0 h1 x0 x1).2.1, y ∈ pc.1.set :=
  View.cover_of_tiledL (runFirst c (grid3.coords t) (mTile t) (hTile t) (mIds t) (hIds t) (mOut t) (hOut t) mAcc (Memref.isWhole_whole _) h0 h1 x0 x1).2.1 S64x64.size (by sl_kernel_rfl) y

/-- What the first point leaves in the scratch: its pieces read back. -/
def accFirst (c : Dev nD) (t : Fin cfg3.N) (h0 : isFirst (grid3.coords t)) (h1 : ¬isLast (grid3.coords t))
    (x0 : Vec F S10000x64 .f32) (x1 : Vec F S10000x1 .i32) : Vec F S64x64 .f32 :=
  vAcc.read (Elt F) (vAcc.writes (Elt F) vAcc.junk (runFirst c (grid3.coords t) (mTile t) (hTile t) (mIds t) (hIds t) (mOut t) (hOut t) mAcc (Memref.isWhole_whole _) h0 h1 x0 x1).2.1)

/-- A middle point stores nothing into the output's buffer either. -/
def outMid (c : Dev nD) (t : Fin cfg3.N) (h0 : ¬isFirst (grid3.coords t)) (h1 : ¬isLast (grid3.coords t))
    (x0 : Vec F S10000x64 .f32) (x1 : Vec F S10000x1 .i32) (xa : Vec F S64x64 .f32) : Vec F S64x64 .f32 :=
  vOut.read (Elt F) (vOut.writes (Elt F) vOut.junk (runMid c (grid3.coords t) (mTile t) (hTile t) (mIds t) (hIds t) (mOut t) (hOut t) mAcc (Memref.isWhole_whole _) h0 h1 x0 x1 xa).1)

/-- A middle point's piece for the scratch covers it (one whole store). -/
theorem accMid_cover (c : Dev nD) (t : Fin cfg3.N) (h0 : ¬isFirst (grid3.coords t)) (h1 : ¬isLast (grid3.coords t))
    (x0 : Vec F S10000x64 .f32) (x1 : Vec F S10000x1 .i32) (xa : Vec F S64x64 .f32) (y : S64x64.Idx) :
    ∃ pc ∈ (runMid c (grid3.coords t) (mTile t) (hTile t) (mIds t) (hIds t) (mOut t) (hOut t) mAcc (Memref.isWhole_whole _) h0 h1 x0 x1 xa).2.1, y ∈ pc.1.set :=
  View.cover_of_tiledL (runMid c (grid3.coords t) (mTile t) (hTile t) (mIds t) (hIds t) (mOut t) (hOut t) mAcc (Memref.isWhole_whole _) h0 h1 x0 x1 xa).2.1 S64x64.size (by sl_kernel_rfl) y

/-- What a middle point leaves in the scratch. -/
def accMid (c : Dev nD) (t : Fin cfg3.N) (h0 : ¬isFirst (grid3.coords t)) (h1 : ¬isLast (grid3.coords t))
    (x0 : Vec F S10000x64 .f32) (x1 : Vec F S10000x1 .i32) (xa : Vec F S64x64 .f32) : Vec F S64x64 .f32 :=
  vAcc.read (Elt F) (vAcc.writes (Elt F) vAcc.junk (runMid c (grid3.coords t) (mTile t) (hTile t) (mIds t) (hIds t) (mOut t) (hOut t) mAcc (Memref.isWhole_whole _) h0 h1 x0 x1 xa).2.1)

/-- The last point's piece for the output's buffer covers it (one whole store). -/
theorem outLast_cover (c : Dev nD) (t : Fin cfg3.N) (h0 : ¬isFirst (grid3.coords t)) (h1 : isLast (grid3.coords t))
    (x0 : Vec F S10000x64 .f32) (x1 : Vec F S10000x1 .i32) (xa : Vec F S64x64 .f32) (y : S64x64.Idx) :
    ∃ pc ∈ (runLast c (grid3.coords t) (mTile t) (hTile t) (mIds t) (hIds t) (mOut t) (hOut t) mAcc (Memref.isWhole_whole _) h0 h1 x0 x1 xa).1, y ∈ pc.1.set :=
  View.cover_of_tiledL (runLast c (grid3.coords t) (mTile t) (hTile t) (mIds t) (hIds t) (mOut t) (hOut t) mAcc (Memref.isWhole_whole _) h0 h1 x0 x1 xa).1 S64x64.size (by sl_kernel_rfl) y

/-- What the last point leaves in the output's buffer. -/
def outLast (c : Dev nD) (t : Fin cfg3.N) (h0 : ¬isFirst (grid3.coords t)) (h1 : isLast (grid3.coords t))
    (x0 : Vec F S10000x64 .f32) (x1 : Vec F S10000x1 .i32) (xa : Vec F S64x64 .f32) : Vec F S64x64 .f32 :=
  vOut.read (Elt F) (vOut.writes (Elt F) vOut.junk (runLast c (grid3.coords t) (mTile t) (hTile t) (mIds t) (hIds t) (mOut t) (hOut t) mAcc (Memref.isWhole_whole _) h0 h1 x0 x1 xa).1)

/-- The last point's piece for the scratch covers it. -/
theorem accLast_cover (c : Dev nD) (t : Fin cfg3.N) (h0 : ¬isFirst (grid3.coords t)) (h1 : isLast (grid3.coords t))
    (x0 : Vec F S10000x64 .f32) (x1 : Vec F S10000x1 .i32) (xa : Vec F S64x64 .f32) (y : S64x64.Idx) :
    ∃ pc ∈ (runLast c (grid3.coords t) (mTile t) (hTile t) (mIds t) (hIds t) (mOut t) (hOut t) mAcc (Memref.isWhole_whole _) h0 h1 x0 x1 xa).2.1, y ∈ pc.1.set :=
  View.cover_of_tiledL (runLast c (grid3.coords t) (mTile t) (hTile t) (mIds t) (hIds t) (mOut t) (hOut t) mAcc (Memref.isWhole_whole _) h0 h1 x0 x1 xa).2.1 S64x64.size (by sl_kernel_rfl) y

/-- What the last point leaves in the scratch. -/
def accLast (c : Dev nD) (t : Fin cfg3.N) (h0 : ¬isFirst (grid3.coords t)) (h1 : isLast (grid3.coords t))
    (x0 : Vec F S10000x64 .f32) (x1 : Vec F S10000x1 .i32) (xa : Vec F S64x64 .f32) : Vec F S64x64 .f32 :=
  vAcc.read (Elt F) (vAcc.writes (Elt F) vAcc.junk (runLast c (grid3.coords t) (mTile t) (hTile t) (mIds t) (hIds t) (mOut t) (hOut t) mAcc (Memref.isWhole_whole _) h0 h1 x0 x1 xa).2.1)

/-! ## The cases' contents as values -/

theorem zeros2 : (![0, 0] : Fin 2 → Nat) = fun _ => 0 := funext fun a => by fin_cases a <;> rfl

/-- A middle point leaves in the scratch the payload of its one whole store: this tile's product added to what the
    scratch held (every load reads a whole buffer). -/
theorem accMid_eq (c : Dev nD) (t : Fin cfg3.N) (h0 : ¬isFirst (grid3.coords t)) (h1 : ¬isLast (grid3.coords t))
    (x0 : Vec F S10000x64 .f32) (x1 : Vec F S10000x1 .i32) (xa : Vec F S64x64 .f32) :
    accMid c t h0 h1 x0 x1 xa = k3_pay2 x0 x1 xa := by
  unfold accMid
  rw [View.read_writes_eq_canon _ _ _ (accMid_cover c t h0 h1 x0 x1 xa)]
  unfold runMid
  dsimp only
  sl_unfold_words
  rw [View.canon_unit_zero (S := S64x64) zeros2]
  simp only [View.readAt_eq_ld, Memref.IsWhole.read_unread, View.ld_unit_zero (S := S10000x64) zeros2,
    View.ld_unit_zero (S := S10000x1) zeros2, View.ld_unit_zero (S := S64x64) zeros2]
  exact congrArg (k3_pay2 x0 x1) (Memref.IsWhole.read_unread (Memref.isWhole_whole cc3_scratch0) xa)

/-- The first point stores the zero fill, reads it back, and leaves this tile's product added to it: the later of its
    two whole stores is what the scratch ends holding. -/
theorem accFirst_eq (c : Dev nD) (t : Fin cfg3.N) (h0 : isFirst (grid3.coords t)) (h1 : ¬isLast (grid3.coords t))
    (x0 : Vec F S10000x64 .f32) (x1 : Vec F S10000x1 .i32) :
    accFirst c t h0 h1 x0 x1 = k3_pay2 x0 x1 (k3_pay1 (F := F)) := by
  unfold accFirst
  rw [View.read_writes_eq_canon _ _ _ (accFirst_cover c t h0 h1 x0 x1)]
  unfold runFirst
  dsimp only
  sl_unfold_words
  rw [View.canon_cons_unit_zero (S := S64x64) zeros2, View.readCov_unit_zero (S := S64x64) _ zeros2]
  simp only [View.readAt_eq_ld, Memref.IsWhole.read_unread, View.ld_unit_zero (S := S10000x64) zeros2,
    View.ld_unit_zero (S := S10000x1) zeros2]

/-- The last point leaves in the scratch what a middle point does, -/
theorem accLast_eq (c : Dev nD) (t : Fin cfg3.N) (h0 : ¬isFirst (grid3.coords t)) (h1 : isLast (grid3.coords t))
    (x0 : Vec F S10000x64 .f32) (x1 : Vec F S10000x1 .i32) (xa : Vec F S64x64 .f32) :
    accLast c t h0 h1 x0 x1 xa = k3_pay2 x0 x1 xa := by
  unfold accLast
  rw [View.read_writes_eq_canon _ _ _ (accLast_cover c t h0 h1 x0 x1 xa)]
  unfold runLast
  dsimp only
  sl_unfold_words
  rw [View.canon_unit_zero (S := S64x64) zeros2]
  simp only [View.readAt_eq_ld, Memref.IsWhole.read_unread, View.ld_unit_zero (S := S10000x64) zeros2,
    View.ld_unit_zero (S := S10000x1) zeros2, View.ld_unit_zero (S := S64x64) zeros2]
  exact congrArg (k3_pay2 x0 x1) (Memref.IsWhole.read_unread (Memref.isWhole_whole cc3_scratch0) xa)

/-- and stores into the output's buffer what it reads back from the scratch: the same value. -/
theorem outLast_eq (c : Dev nD) (t : Fin cfg3.N) (h0 : ¬isFirst (grid3.coords t)) (h1 : isLast (grid3.coords t))
    (x0 : Vec F S10000x64 .f32) (x1 : Vec F S10000x1 .i32) (xa : Vec F S64x64 .f32) :
    outLast c t h0 h1 x0 x1 xa = k3_pay2 x0 x1 xa := by
  unfold outLast
  rw [View.read_writes_eq_canon _ _ _ (outLast_cover c t h0 h1 x0 x1 xa)]
  unfold runLast
  dsimp only
  sl_unfold_words
  rw [View.canon_unit_zero (S := S64x64) zeros2, View.readCov_unit_zero (S := S64x64) _ zeros2]
  simp only [View.readAt_eq_ld, Memref.IsWhole.read_unread, View.ld_unit_zero (S := S10000x64) zeros2,
    View.ld_unit_zero (S := S10000x1) zeros2, View.ld_unit_zero (S := S64x64) zeros2]
  exact congrArg (k3_pay2 x0 x1) (Memref.IsWhole.read_unread (Memref.isWhole_whole cc3_scratch0) xa)

section
variable (V : (c : Dev nD) → (b : Ref sig .tc) → Buf (Elt F) ((c : Thread nD τ).loc b))

/-- Window w's block at grid point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- THE ACCUMULATOR: what the scratch holds after grid point n. The first point resets it to zero and adds the tile's
    one-hot product; every later point adds its tile's product to what the point before left. -/
def accum3 (c : Dev nD) : (n : ℕ) → n < cfg3.N → Vec F S64x64 .f32
  | 0, hn => k3_pay2 (iblk3 V c 0 ⟨0, hn⟩) (iblk3 V c 1 ⟨0, hn⟩) (k3_pay1 (F := F))
  | n + 1, hn => k3_pay2 (iblk3 V c 0 ⟨n + 1, hn⟩) (iblk3 V c 1 ⟨n + 1, hn⟩) (accum3 c n (Nat.lt_of_succ_lt hn))

/-- No point after the first resets the scratch. -/
theorem not_first_succ (n : ℕ) (hn : n + 1 < cfg3.N) : ¬isFirst (grid3.coords ⟨n + 1, hn⟩) := fun h => by
  have h' := (isFirst_iff ⟨n + 1, hn⟩).mp h
  have hN : n + 1 < 10 := lt_of_lt_of_eq hn (show cfg3.N = 10 from N_3)
  dsimp only at h'; omega

/-- What the output window's buffer and the scratch hold after the body at position n (output first, scratch second):
    the case the closed forms select at n, run at the point's memrefs and input blocks, the scratch coming at what this
    leaves at n - 1. -/
def outsAt3 (c : Dev nD) : (n : ℕ) → n < cfg3.N → Vec F S64x64 .f32 × Vec F S64x64 .f32
  | 0, hn =>
    (outFirst c ⟨0, hn⟩ ((isFirst_iff ⟨0, hn⟩).mpr (Nat.zero_mod _)) (fun h => (fun h => by (try dsimp only at h); omega) ((isLast_iff ⟨0, hn⟩).mp h)) (iblk3 V c 0 ⟨0, hn⟩) (iblk3 V c 1 ⟨0, hn⟩),
     accFirst c ⟨0, hn⟩ ((isFirst_iff ⟨0, hn⟩).mpr (Nat.zero_mod _)) (fun h => (fun h => by (try dsimp only at h); omega) ((isLast_iff ⟨0, hn⟩).mp h)) (iblk3 V c 0 ⟨0, hn⟩) (iblk3 V c 1 ⟨0, hn⟩))
  | n + 1, hn =>
    if h1 : (n + 1) % 10 = 9 then
      (outLast c ⟨n + 1, hn⟩ (not_first_succ n hn) ((isLast_iff ⟨n + 1, hn⟩).mpr h1) (iblk3 V c 0 ⟨n + 1, hn⟩) (iblk3 V c 1 ⟨n + 1, hn⟩) (outsAt3 c n (Nat.lt_of_succ_lt hn)).2,
       accLast c ⟨n + 1, hn⟩ (not_first_succ n hn) ((isLast_iff ⟨n + 1, hn⟩).mpr h1) (iblk3 V c 0 ⟨n + 1, hn⟩) (iblk3 V c 1 ⟨n + 1, hn⟩) (outsAt3 c n (Nat.lt_of_succ_lt hn)).2)
    else
      (outMid c ⟨n + 1, hn⟩ (not_first_succ n hn) (fun h => h1 ((isLast_iff ⟨n + 1, hn⟩).mp h)) (iblk3 V c 0 ⟨n + 1, hn⟩) (iblk3 V c 1 ⟨n + 1, hn⟩) (outsAt3 c n (Nat.lt_of_succ_lt hn)).2,
       accMid c ⟨n + 1, hn⟩ (not_first_succ n hn) (fun h => h1 ((isLast_iff ⟨n + 1, hn⟩).mp h)) (iblk3 V c 0 ⟨n + 1, hn⟩) (iblk3 V c 1 ⟨n + 1, hn⟩) (outsAt3 c n (Nat.lt_of_succ_lt hn)).2)

/-- outsAt3 at the first point. -/
theorem outsAt3_first (c : Dev nD) (t : Fin cfg3.N) (h0 : t.val % 10 = 0) (h1 : ¬t.val % 10 = 9) :
    outsAt3 V c t.val t.isLt =
      (outFirst c t ((isFirst_iff t).mpr h0) (fun h => h1 ((isLast_iff t).mp h)) (iblk3 V c 0 t) (iblk3 V c 1 t),
       accFirst c t ((isFirst_iff t).mpr h0) (fun h => h1 ((isLast_iff t).mp h)) (iblk3 V c 0 t) (iblk3 V c 1 t)) := by
  obtain ⟨n, hn⟩ := t
  cases n with
  | zero => exact rfl
  | succ n => exfalso; have hN : n + 1 < 10 := lt_of_lt_of_eq hn (show cfg3.N = 10 from N_3); dsimp only at h0; omega

/-- outsAt3 at a middle point: that case's contents, over what the point before left in the scratch. -/
theorem outsAt3_mid (c : Dev nD) (t : Fin cfg3.N) (h0 : ¬t.val % 10 = 0) (h1 : ¬t.val % 10 = 9) :
    outsAt3 V c t.val t.isLt =
      (outMid c t (fun h => h0 ((isFirst_iff t).mp h)) (fun h => h1 ((isLast_iff t).mp h)) (iblk3 V c 0 t) (iblk3 V c 1 t) (outsAt3 V c (t.val - 1) (Nat.lt_of_le_of_lt (Nat.sub_le _ _) t.isLt)).2,
       accMid c t (fun h => h0 ((isFirst_iff t).mp h)) (fun h => h1 ((isLast_iff t).mp h)) (iblk3 V c 0 t) (iblk3 V c 1 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h1).trans rfl

/-- outsAt3 at the last point. -/
theorem outsAt3_last (c : Dev nD) (t : Fin cfg3.N) (h0 : ¬t.val % 10 = 0) (h1 : t.val % 10 = 9) :
    outsAt3 V c t.val t.isLt =
      (outLast c t (fun h => h0 ((isFirst_iff t).mp h)) ((isLast_iff t).mpr h1) (iblk3 V c 0 t) (iblk3 V c 1 t) (outsAt3 V c (t.val - 1) (Nat.lt_of_le_of_lt (Nat.sub_le _ _) t.isLt)).2,
       accLast c t (fun h => h0 ((isFirst_iff t).mp h)) ((isLast_iff t).mpr h1) (iblk3 V c 0 t) (iblk3 V c 1 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_pos h1).trans rfl

/-- The region invariant before position n: the class's before the first point, afterwards the scratch at what the
    point before left, the other scoped buffers at anything, the generator register at some state. -/
def PhiS3 (c : Dev nD) : (n : ℕ) → n ≤ cfg3.N → sProp 𝕄
  | 0, _ => Pipeline.ΦA spec3 c
  | n + 1, hn => iprop(iprop(owns (c : Thread nD τ) mAcc fullShare ((outsAt3 V c n hn).2) ∗ restScoped c) ∗ (∃ r, prngReg c r))

theorem PhiS3_zero (c : Dev nD) (n : ℕ) (h : n ≤ cfg3.N) (hz : n = 0) : PhiS3 V c n h = Pipeline.ΦA spec3 c := by
  subst hz; rfl

/-- After point n (before point n + 1): the scratch at that point's contents. -/
theorem PhiS3_succ (c : Dev nD) (n : ℕ) (hn : n < cfg3.N) :
    PhiS3 V c (n + 1) hn = iprop(iprop(owns (c : Thread nD τ) mAcc fullShare ((outsAt3 V c n hn).2) ∗ restScoped c) ∗ (∃ r, prngReg c r)) := rfl

/-- Before a point that is not the first: the scratch at what the point before left. -/
theorem PhiS3_pos (c : Dev nD) (n : ℕ) (h : n ≤ cfg3.N) (hz : n ≠ 0) :
    PhiS3 V c n h = iprop(iprop(owns (c : Thread nD τ) mAcc fullShare ((outsAt3 V c (n - 1) (by omega)).2) ∗ restScoped c) ∗ (∃ r, prngReg c r)) := by
  cases n with
  | zero => exact absurd rfl hz
  | succ n => rfl

/-- The proof data of pipeline 3 on core c. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

/-- The invariant at a point's start, restated at the point's number. -/
theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_tile (c : Dev nD) (t : Fin cfg3.N) : (dat3 V c).after 0 t = iblk3 V c 0 t := by dsimp only [dat3]
theorem after3_ids (c : Dev nD) (t : Fin cfg3.N) : (dat3 V c).after 1 t = iblk3 V c 1 t := by dsimp only [dat3]
theorem after3_out (c : Dev nD) (t : Fin cfg3.N) : (dat3 V c).after 2 t = (outsAt3 V c t.val t.isLt).1 := by dsimp only [dat3]

/-- Each input's current staging buffer holds its block at every point, fetched there or not. -/
theorem before3_tile (c : Dev nD) (t : Fin cfg3.N) (d) : (dat3 V c).before 0 t d = iblk3 V c 0 t :=
  ((dat3 V c).before_in_eq_fetched 0 rfl (fun _ => rfl) (fun _ _ _ => rfl)
      (fun t => by rw [after3_tile]; unfold Dat.blockOf iblk3; rw [A_eq3]; try rfl) t d).trans
    (by unfold Dat.fetched Dat.blockOf iblk3; rw [A_eq3]; try rfl)
theorem before3_ids (c : Dev nD) (t : Fin cfg3.N) (d) : (dat3 V c).before 1 t d = iblk3 V c 1 t :=
  ((dat3 V c).before_in_eq_fetched 1 rfl (fun _ => rfl) (fun _ _ _ => rfl)
      (fun t => by rw [after3_ids]; unfold Dat.blockOf iblk3; rw [A_eq3]; try rfl) t d).trans
    (by unfold Dat.fetched Dat.blockOf iblk3; rw [A_eq3]; try rfl)

/-! ## The body obligation, at a generic point -/

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (mTile t) fullShare ((dat3 V c).before 0 t d))
    ∗ (∃ d, owns (c : Thread nD τ) (mIds t) fullShare ((dat3 V c).before 1 t d))
    ∗ (∃ d, owns (c : Thread nD τ) (mOut t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at any point. The inputs' memrefs hold their blocks; the closed forms say which of the three cases the
    point is in; the invariant hands the body the scratch (at anything at the first point, at what the point before left
    afterwards) and takes it back at this point's contents, the other scoped buffers and the generator register passing
    through untouched; away from the last point the output's buffer is handed back as it came; the core owes nothing. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_tile, before3_ids]
  rw [show (dat3 V c).owesAt () t.succ = (dat3 V c).owesAt () t.castSucc from rfl]
  rw [show (dat3 V c).Φ t.succ = PhiS3 V c (t.val + 1) t.isLt from rfl, PhiS3_succ]
  have hN : t.val < 10 := lt_of_lt_of_eq t.isLt (show cfg3.N = 10 from N_3)
  rw [show (dat3 V c).leavesExact 0 t = owns (c : Thread nD τ) (mTile t) fullShare ((dat3 V c).after 0 t) from by
    unfold Dat.leavesExact; rw [live_tile t], after3_tile]
  rw [show (dat3 V c).leavesExact 1 t = owns (c : Thread nD τ) (mIds t) fullShare ((dat3 V c).after 1 t) from by
    unfold Dat.leavesExact; rw [live_ids t], after3_ids]
  by_cases h1 : t.val % 10 = 9
  · have h0 : ¬t.val % 10 = 0 := by omega
    have hz : t.val ≠ 0 := by omega
    rw [show (dat3 V c).leavesExact 2 t = owns (c : Thread nD τ) (mOut t) fullShare ((dat3 V c).after 2 t) from by
      unfold Dat.leavesExact; rw [live_out t ((isLast_iff t).mpr h1)], after3_out]
    rw [outsAt3_last V c t h0 h1]
    unfold outLast accLast; (try dsimp only)
    rw [PhiS3_castSucc V c t, PhiS3_pos V c _ _ hz]
    iintro ⟨⟨⟨HS0, HR⟩, Hg⟩, Ho, ⟨%d0, H0⟩, ⟨%d1, H1⟩, ⟨%d2, H2⟩⟩
    iapply ((runLast c (grid3.coords t) _ _ _ _ _ _ _ _ (fun h => h0 ((isFirst_iff t).mp h)) ((isLast_iff t).mpr h1) (iblk3 V c 0 t) (iblk3 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (accLast_cover c _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (outLast_cover c _ _ _ _ _ _)
  · have hnl : ¬isLast (grid3.coords t) := fun h => h1 ((isLast_iff t).mp h)
    rw [Dat.leavesExact_idle (dat3 V c) 2 t (idle_out t hnl) (noFlush_out t hnl)]
    by_cases h0 : t.val % 10 = 0
    · have hz : t.val = 0 := by omega
      rw [outsAt3_first V c t h0 h1]
      unfold accFirst; (try dsimp only)
      rw [PhiS3_castSucc V c t, PhiS3_zero V c _ _ hz, PhiA_split]
      iintro ⟨⟨⟨HS0, HR⟩, Hg⟩, Ho, ⟨%d0, H0⟩, ⟨%d1, H1⟩, ⟨%d2, H2⟩⟩
      iapply ((runFirst c (grid3.coords t) _ _ _ _ _ _ _ _ ((isFirst_iff t).mpr h0) hnl (iblk3 V c 0 t) (iblk3 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (accFirst_cover c _ _ _ _ _)
          iexact HR
        iexact Hg
      isplitl [Ho]; · iexact Ho
      isplitl [H0]; · iexact H0
      isplitl [H1]; · iexact H1
      iexists _; iexact H2
    · have hz : t.val ≠ 0 := by omega
      rw [outsAt3_mid V c t h0 h1]
      unfold accMid; (try dsimp only)
      rw [PhiS3_castSucc V c t, PhiS3_pos V c _ _ hz]
      iintro ⟨⟨⟨HS0, HR⟩, Hg⟩, Ho, ⟨%d0, H0⟩, ⟨%d1, H1⟩, ⟨%d2, H2⟩⟩
      iapply ((runMid c (grid3.coords t) _ _ _ _ _ _ _ _ (fun h => h0 ((isFirst_iff t).mp h)) hnl (iblk3 V c 0 t) (iblk3 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (accMid_cover c _ _ _ _ _ _)
          iexact HR
        iexact Hg
      isplitl [Ho]; · iexact Ho
      isplitl [H0]; · iexact H0
      isplitl [H1]; · iexact H1
      iexists _; iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- The class's invariant (every scoped buffer no window stages at anything, the generator register) opens the region. -/
theorem hin3 (c : Dev nD) : (Pipeline.ΦA spec3 c : sProp 𝕄) ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the class's back: what the scratch holds is forgotten. -/
theorem Phi3_forget (c : Dev nD) (t : Fin (cfg3.N + 1)) (ht : t.val ≠ 0) : (dat3 V c).Φ t ⊢ (Pipeline.ΦA spec3 c : sProp 𝕄) := by
  rw [show (dat3 V c).Φ t = PhiS3 V c t.val (Nat.le_of_lt_succ t.isLt) from rfl, PhiS3_pos V c _ _ ht, PhiA_split]
  iintro ⟨⟨HS0, HR⟩, Hg⟩
  isplitl [HS0 HR]
  · isplitl [HS0]
    · iexists _; iexact HS0
    iexact HR
  iexact Hg

/-- and is what the last point gives back. -/
theorem hout3 (c : Dev nD) : (dat3 V c).Φ (Fin.last cfg3.N) ⊢ (Pipeline.ΦA spec3 c : sProp 𝕄) :=
  Phi3_forget V c _ (by rw [Fin.val_last]; have : cfg3.N = 10 := N_3; omega)

/-! ## The value: the scratch is the accumulator, and the output array ends holding it -/

/-- What the scratch holds after point n is the accumulator there: by induction on the point, through the cases. -/
theorem scratch_eq_accum (c : Dev nD) : ∀ (n : ℕ) (hn : n < cfg3.N), (outsAt3 V c n hn).2 = accum3 V c n hn
  | 0, hn => by
    rw [outsAt3_first V c ⟨0, hn⟩ (Nat.zero_mod _) (by dsimp only; omega)]
    dsimp only
    exact accFirst_eq c ⟨0, hn⟩ _ _ (iblk3 V c 0 ⟨0, hn⟩) (iblk3 V c 1 ⟨0, hn⟩)
  | n + 1, hn => by
    have hN : cfg3.N = 10 := N_3
    have h0 : ¬(⟨n + 1, hn⟩ : Fin cfg3.N).val % 10 = 0 := by dsimp only; omega
    by_cases h1 : (⟨n + 1, hn⟩ : Fin cfg3.N).val % 10 = 9
    · rw [outsAt3_last V c ⟨n + 1, hn⟩ h0 h1]
      dsimp only
      refine (accLast_eq c ⟨n + 1, hn⟩ _ _ (iblk3 V c 0 ⟨n + 1, hn⟩) (iblk3 V c 1 ⟨n + 1, hn⟩) _).trans ?_
      exact congrArg (k3_pay2 (iblk3 V c 0 ⟨n + 1, hn⟩) (iblk3 V c 1 ⟨n + 1, hn⟩)) (scratch_eq_accum c n (Nat.lt_of_succ_lt hn))
    · rw [outsAt3_mid V c ⟨n + 1, hn⟩ h0 h1]
      dsimp only
      refine (accMid_eq c ⟨n + 1, hn⟩ _ _ (iblk3 V c 0 ⟨n + 1, hn⟩) (iblk3 V c 1 ⟨n + 1, hn⟩) _).trans ?_
      exact congrArg (k3_pay2 (iblk3 V c 0 ⟨n + 1, hn⟩) (iblk3 V c 1 ⟨n + 1, hn⟩)) (scratch_eq_accum c n (Nat.lt_of_succ_lt hn))

/-- At the last point the output's buffer is left at the accumulator too (it is stored from the scratch). -/
theorem out_eq_accum (c : Dev nD) : ∀ (n : ℕ) (hn : n < cfg3.N), n % 10 = 9 → (outsAt3 V c n hn).1 = accum3 V c n hn
  | 0, _, h => absurd h (by decide)
  | n + 1, hn, h1 => by
    have hN : cfg3.N = 10 := N_3
    have h0 : ¬(⟨n + 1, hn⟩ : Fin cfg3.N).val % 10 = 0 := by dsimp only; omega
    rw [outsAt3_last V c ⟨n + 1, hn⟩ h0 h1]
    dsimp only
    refine (outLast_eq c ⟨n + 1, hn⟩ _ _ (iblk3 V c 0 ⟨n + 1, hn⟩) (iblk3 V c 1 ⟨n + 1, hn⟩) _).trans ?_
    exact congrArg (k3_pay2 (iblk3 V c 0 ⟨n + 1, hn⟩) (iblk3 V c 1 ⟨n + 1, hn⟩)) (scratch_eq_accum V c n (Nat.lt_of_succ_lt hn))

/-- The one write-back, at point 9, writes the accumulator: the output window's block is its whole 64x64 array. -/
theorem flushed_out (c : Dev nD) (t : Fin cfg3.N) (hf : (cfg3.win 2).flush t = true) :
    (dat3 V c).flushed 2 t = ((cfg3.win 2).blk t).view.read (Elt F) (accum3 V c 9 (by decide)) := by
  have hN : cfg3.N = 10 := N_3
  have h9 : t.val = 9 := by have := (flush3_2 t).mp hf; have := t.isLt; omega
  obtain rfl : t = t3_9 := Fin.ext h9
  show (cfg3.win 2).cut (grid3.coords t3_9) ((dat3 V c).after 2 t3_9) = _
  rw [after3_out, out_eq_accum V c _ _ (by decide)]
  have hz' : (fun a => win3_2.index t3_9 a * main_v56.ty.shape.size a) = fun _ => 0 := funext fun a => by fin_cases a <;> decide
  exact (Memref.read_access_unit_zero (Elt F) main_v56 hz' (fun a => by rw [congrFun hz' a]; simp) (accum3 V c 9 (by decide))).symm

/-- THE VALUE of the region: after the run its output array holds the accumulator as the last grid point left it
    (the output window's one block is written back once, at the last point, from the scratch). -/
theorem arr3_2 (c : Dev nD) : (dat3 V c).arrAt 2 cfg3.N = accum3 V c 9 (by decide) :=
  (dat3 V c).arrAt_eq_of_cover 2 (accum3 V c 9 (by decide)) (flushed_out V c) fun i =>
    ⟨t3_9, (flush3_2 t3_9).mpr rfl, by
      show i ∈ ((View.whole main_v56).slice (win3_2.rect t3_9)).set
      rw [View.set_slice_whole, Rect.mem_set_unit]
      intro a
      have hr : (i 0 : Nat) < 64 := (i 0).isLt
      have hc : (i 1 : Nat) < 64 := (i 1).isLt
      match a with
      | ⟨0, _⟩ =>
        show win3_2.index t3_9 0 * win3_2.size 0 ≤ (i 0 : Nat) ∧ (i 0 : Nat) < win3_2.index t3_9 0 * win3_2.size 0 + win3_2.xsize (grid3.coords t3_9) 0
        rw [show win3_2.index t3_9 0 * win3_2.size 0 = 0 from by decide +kernel, show win3_2.xsize (grid3.coords t3_9) 0 = 64 from by decide +kernel]; omega
      | ⟨1, _⟩ =>
        show win3_2.index t3_9 1 * win3_2.size 1 ≤ (i 1 : Nat) ∧ (i 1 : Nat) < win3_2.index t3_9 1 * win3_2.size 1 + win3_2.xsize (grid3.coords t3_9) 1
        rw [show win3_2.index t3_9 1 * win3_2.size 1 = 0 from by decide +kernel, show win3_2.xsize (grid3.coords t3_9) 1 = 64 from by decide +kernel]; omega⟩

end

end Cert.Kernel.Readout

end
-- ==== Proof.BitsMainRun.lean ====
/-
  THE RUN of the idealized kernel's @main, at any float instance: a stretch of host operations, the first layer's region,
  a stretch, the second layer's region, a stretch, the third layer's region, a reshape of the batch ids, the readout's
  region. Between two items every unscoped buffer of the core is held at named contents: the launch memory, then
  each host stretch applied, then each region's output array replaced by what its write-backs leave. Every weakly fair
  execution terminates, and at the end every unscoped buffer holds the last of these contents: the arguments are as
  launched (no stretch writes one, no region's output is one), and the result is the readout region's output array.
-/
import proofs.«418230_j2070174236742_2_alg».proof.Proof.Gen.Kernel.Launch
import proofs.«418230_j2070174236742_2_alg».proof.Proof.Gen.Kernel.Skeleton
import proofs.«418230_j2070174236742_2_alg».proof.Proof.Gen.Kernel.Points
import proofs.«418230_j2070174236742_2_alg».proof.Proof.Gen.Kernel.Regions
import proofs.«418230_j2070174236742_2_alg».proof.Proof.BitsSageRegion0
import proofs.«418230_j2070174236742_2_alg».proof.Proof.BitsSageRegion1
import proofs.«418230_j2070174236742_2_alg».proof.Proof.BitsSageRegion2
import proofs.«418230_j2070174236742_2_alg».proof.Proof.BitsReadoutRegion
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

open Cert.Kernel.Sage0 Cert.Kernel.Sage1 Cert.Kernel.Sage2 Cert.Kernel.Readout

variable (m : (ℓ : Loc nD τ sig) → Buf (Elt F) ℓ) (ρ : Dev nD → PrngReg)

/-! ## The buffers' contents between items -/

/-- Core c's buffers at launch. -/
abbrev W0 : Dev nD → Valuation τ sig (Elt F) := fun c b => m (c, b)
/-- After the first host stretch (the degrees, their reciprocals, the first neighbour mean, the bias as a row). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- After region 0: its output array at what the pipeline's write-backs leave, every other buffer as the region found it. -/
def W2 (c : Dev nD) : Valuation τ sig (Elt F) :=
  Function.update (W1 m c) (Proc.devRef .tc main_v26)
    (show Buf (Elt F) ((c : Thread nD τ).loc main_v26) from (dat0 (V1 m) c).arrAt 5 cfg0.N)
abbrev V2 : (c : Dev nD) → (b : Ref sig .tc) → Buf (Elt F) ((c : Thread nD τ).loc b) := fun c b => W2 m c b
theorem W2_out (c : Dev nD) : W2 m c main_v26 = (dat0 (V1 m) c).arrAt 5 cfg0.N := by
  unfold W2; exact Function.update_self ..
theorem W2_keep (c : Dev nD) (r : Ref sig .tc) (h : r ≠ main_v26) : W2 m c r = W1 m c r := by
  unfold W2; exact Function.update_of_ne (StableHlo.devRef_ne_of_ne h) _ _
/-- At the region's exit each of its arrays holds what the pipeline leaves: an input's array is as entered, the output's
    is the write-backs' fold. -/
theorem hF0 (c : Dev nD) : ∀ w : Fin cfg0.W, (dat0 (V1 m) c).arrAt w cfg0.N = V2 m c (Pipeline.arrRef spec0 w)
  | ⟨0, _⟩ => (((dat0 (V1 m) c).arrAt_in 0 rfl _).trans (A_eq0 (V1 m) c 0)).trans (W2_keep m c main_v24 (by decide)).symm
  | ⟨1, _⟩ => (((dat0 (V1 m) c).arrAt_in 1 rfl _).trans (A_eq0 (V1 m) c 1)).trans (W2_keep m c main_arg0 (by decide)).symm
  | ⟨2, _⟩ => (((dat0 (V1 m) c).arrAt_in 2 rfl _).trans (A_eq0 (V1 m) c 2)).trans (W2_keep m c main_arg3 (by decide)).symm
  | ⟨3, _⟩ => (((dat0 (V1 m) c).arrAt_in 3 rfl _).trans (A_eq0 (V1 m) c 3)).trans (W2_keep m c main_v25 (by decide)).symm
  | ⟨4, _⟩ => (((dat0 (V1 m) c).arrAt_in 4 rfl _).trans (A_eq0 (V1 m) c 4)).trans (W2_keep m c main_arg5 (by decide)).symm
  | ⟨5, _⟩ => (W2_out m c).symm
/-- Every buffer that is no array of the region is as entered. -/
theorem hrest0 (c : Dev nD) : ∀ b, b ∉ Finset.univ.image (Pipeline.arrRef spec0) → V2 m c b = V1 m c b :=
  fun b hb => W2_keep m c b fun e => hb (Finset.mem_image.mpr ⟨5, Finset.mem_univ _, e.symm⟩)

/-- After the second host stretch (the second neighbour mean). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b

/-- After region 1: its output array at what the pipeline's write-backs leave, every other buffer as the region found it. -/
def W4 (c : Dev nD) : Valuation τ sig (Elt F) :=
  Function.update (W3 m c) (Proc.devRef .tc main_v40)
    (show Buf (Elt F) ((c : Thread nD τ).loc main_v40) from (dat1 (V3 m) c).arrAt 5 cfg1.N)
abbrev V4 : (c : Dev nD) → (b : Ref sig .tc) → Buf (Elt F) ((c : Thread nD τ).loc b) := fun c b => W4 m c b
theorem W4_out (c : Dev nD) : W4 m c main_v40 = (dat1 (V3 m) c).arrAt 5 cfg1.N := by
  unfold W4; exact Function.update_self ..
theorem W4_keep (c : Dev nD) (r : Ref sig .tc) (h : r ≠ main_v40) : W4 m c r = W3 m c r := by
  unfold W4; exact Function.update_of_ne (StableHlo.devRef_ne_of_ne h) _ _
/-- At the region's exit each of its arrays holds what the pipeline leaves: an input's array is as entered, the output's
    is the write-backs' fold. -/
theorem hF1 (c : Dev nD) : ∀ w : Fin cfg1.W, (dat1 (V3 m) c).arrAt w cfg1.N = V4 m c (Pipeline.arrRef spec1 w)
  | ⟨0, _⟩ => (((dat1 (V3 m) c).arrAt_in 0 rfl _).trans (A_eq1 (V3 m) c 0)).trans (W4_keep m c main_v38 (by decide)).symm
  | ⟨1, _⟩ => (((dat1 (V3 m) c).arrAt_in 1 rfl _).trans (A_eq1 (V3 m) c 1)).trans (W4_keep m c main_v26 (by decide)).symm
  | ⟨2, _⟩ => (((dat1 (V3 m) c).arrAt_in 2 rfl _).trans (A_eq1 (V3 m) c 2)).trans (W4_keep m c main_arg6 (by decide)).symm
  | ⟨3, _⟩ => (((dat1 (V3 m) c).arrAt_in 3 rfl _).trans (A_eq1 (V3 m) c 3)).trans (W4_keep m c main_v39 (by decide)).symm
  | ⟨4, _⟩ => (((dat1 (V3 m) c).arrAt_in 4 rfl _).trans (A_eq1 (V3 m) c 4)).trans (W4_keep m c main_arg8 (by decide)).symm
  | ⟨5, _⟩ => (W4_out m c).symm
/-- Every buffer that is no array of the region is as entered. -/
theorem hrest1 (c : Dev nD) : ∀ b, b ∉ Finset.univ.image (Pipeline.arrRef spec1) → V4 m c b = V3 m c b :=
  fun b hb => W4_keep m c b fun e => hb (Finset.mem_image.mpr ⟨5, Finset.mem_univ _, e.symm⟩)

/-- After the third host stretch (the third neighbour mean). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b

/-- After region 2: its output array at what the pipeline's write-backs leave, every other buffer as the region found it. -/
def W6 (c : Dev nD) : Valuation τ sig (Elt F) :=
  Function.update (W5 m c) (Proc.devRef .tc main_v54)
    (show Buf (Elt F) ((c : Thread nD τ).loc main_v54) from (dat2 (V5 m) c).arrAt 5 cfg2.N)
abbrev V6 : (c : Dev nD) → (b : Ref sig .tc) → Buf (Elt F) ((c : Thread nD τ).loc b) := fun c b => W6 m c b
theorem W6_out (c : Dev nD) : W6 m c main_v54 = (dat2 (V5 m) c).arrAt 5 cfg2.N := by
  unfold W6; exact Function.update_self ..
theorem W6_keep (c : Dev nD) (r : Ref sig .tc) (h : r ≠ main_v54) : W6 m c r = W5 m c r := by
  unfold W6; exact Function.update_of_ne (StableHlo.devRef_ne_of_ne h) _ _
/-- At the region's exit each of its arrays holds what the pipeline leaves: an input's array is as entered, the output's
    is the write-backs' fold. -/
theorem hF2 (c : Dev nD) : ∀ w : Fin cfg2.W, (dat2 (V5 m) c).arrAt w cfg2.N = V6 m c (Pipeline.arrRef spec2 w)
  | ⟨0, _⟩ => (((dat2 (V5 m) c).arrAt_in 0 rfl _).trans (A_eq2 (V5 m) c 0)).trans (W6_keep m c main_v52 (by decide)).symm
  | ⟨1, _⟩ => (((dat2 (V5 m) c).arrAt_in 1 rfl _).trans (A_eq2 (V5 m) c 1)).trans (W6_keep m c main_v40 (by decide)).symm
  | ⟨2, _⟩ => (((dat2 (V5 m) c).arrAt_in 2 rfl _).trans (A_eq2 (V5 m) c 2)).trans (W6_keep m c main_arg9 (by decide)).symm
  | ⟨3, _⟩ => (((dat2 (V5 m) c).arrAt_in 3 rfl _).trans (A_eq2 (V5 m) c 3)).trans (W6_keep m c main_v53 (by decide)).symm
  | ⟨4, _⟩ => (((dat2 (V5 m) c).arrAt_in 4 rfl _).trans (A_eq2 (V5 m) c 4)).trans (W6_keep m c main_arg11 (by decide)).symm
  | ⟨5, _⟩ => (W6_out m c).symm
/-- Every buffer that is no array of the region is as entered. -/
theorem hrest2 (c : Dev nD) : ∀ b, b ∉ Finset.univ.image (Pipeline.arrRef spec2) → V6 m c b = V5 m c b :=
  fun b hb => W6_keep m c b fun e => hb (Finset.mem_image.mpr ⟨5, Finset.mem_univ _, e.symm⟩)

/-- After the last host stretch (the batch ids as a column). -/
abbrev W7 : Dev nD → Valuation τ sig (Elt F) := fun c => StableHlo.after hostOps3 (W6 m c)
abbrev V7 : (c : Dev nD) → (b : Ref sig .tc) → Buf (Elt F) ((c : Thread nD τ).loc b) := fun c b => W7 m c b

/-- After region 3: its output array at what the pipeline's write-backs leave, every other buffer as the region found it. -/
def W8 (c : Dev nD) : Valuation τ sig (Elt F) :=
  Function.update (W7 m c) (Proc.devRef .tc main_v56)
    (show Buf (Elt F) ((c : Thread nD τ).loc main_v56) from (dat3 (V7 m) c).arrAt 2 cfg3.N)
abbrev V8 : (c : Dev nD) → (b : Ref sig .tc) → Buf (Elt F) ((c : Thread nD τ).loc b) := fun c b => W8 m c b
theorem W8_out (c : Dev nD) : W8 m c main_v56 = (dat3 (V7 m) c).arrAt 2 cfg3.N := by
  unfold W8; exact Function.update_self ..
theorem W8_keep (c : Dev nD) (r : Ref sig .tc) (h : r ≠ main_v56) : W8 m c r = W7 m c r := by
  unfold W8; exact Function.update_of_ne (StableHlo.devRef_ne_of_ne h) _ _
/-- At the region's exit each of its arrays holds what the pipeline leaves: an input's array is as entered, the output's
    is the write-backs' fold. -/
theorem hF3 (c : Dev nD) : ∀ w : Fin cfg3.W, (dat3 (V7 m) c).arrAt w cfg3.N = V8 m c (Pipeline.arrRef spec3 w)
  | ⟨0, _⟩ => (((dat3 (V7 m) c).arrAt_in 0 rfl _).trans (A_eq3 (V7 m) c 0)).trans (W8_keep m c main_v54 (by decide)).symm
  | ⟨1, _⟩ => (((dat3 (V7 m) c).arrAt_in 1 rfl _).trans (A_eq3 (V7 m) c 1)).trans (W8_keep m c main_v55 (by decide)).symm
  | ⟨2, _⟩ => (W8_out m c).symm
/-- Every buffer that is no array of the region is as entered. -/
theorem hrest3 (c : Dev nD) : ∀ b, b ∉ Finset.univ.image (Pipeline.arrRef spec3) → V8 m c b = V7 m c b :=
  fun b hb => W8_keep m c b fun e => hb (Finset.mem_image.mpr ⟨2, Finset.mem_univ _, e.symm⟩)

/-! ## A buffer no item writes ends as launched -/

theorem W8_of (c : Dev nD) (r : Ref sig .tc) (h0 : r ∉ hostOps0_W) (h1 : r ∉ hostOps1_W) (h2 : r ∉ hostOps2_W) (h3 : r ∉ hostOps3_W)
    (e0 : r ≠ main_v26) (e1 : r ≠ main_v40) (e2 : r ≠ main_v54) (e3 : r ≠ main_v56) :
    W8 m c r = m ((c : Thread nD τ).loc r) :=
  calc W8 m c r
    _ = W7 m c r := W8_keep m c r e3
    _ = W6 m c r := StableHlo.after_of_writes_sub hostOps3 _ hostOps3_writes h3
    _ = W5 m c r := W6_keep m c r e2
    _ = W4 m c r := StableHlo.after_of_writes_sub hostOps2 _ hostOps2_writes h2
    _ = W3 m c r := W4_keep m c r e1
    _ = W2 m c r := StableHlo.after_of_writes_sub hostOps1 _ hostOps1_writes h1
    _ = W1 m c r := W2_keep m c r e0
    _ = W0 m c r := StableHlo.after_of_writes_sub hostOps0 _ hostOps0_writes h0
    _ = m ((c : Thread nD τ).loc r) := rfl

/-! ## The proof data family and the thread state -/

/-- No kernel call has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)
/-- A host stretch as a segment, from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes. -/
abbrev Tₙ (c : Dev nD) : sProp 𝕄 := iprop(StableHlo.held (c : Thread nD τ) (Pipeline.ucRefs τ sig) (W8 m c) ∗ ∃ r, prngReg c r)

/-! ## The regions as segments -/

set_option backward.isDefEq.respectTransparency.types false in
/-- Region 0 over the thread state: entered with every unscoped buffer at the contents before it, left with them at the
    contents after it; its arrays are split out of the unscoped buffers and put back at their exit contents; the
    generator register goes into the region's invariant and comes back; nothing is owed; the kernel has no semaphore
    of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with them at the
    contents after it; its arrays are split out of the unscoped buffers and put back at their exit contents; the
    generator register goes into the region's invariant and comes back; nothing is owed; the kernel has no semaphore
    of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the contents before it, left with them at the
    contents after it; its arrays are split out of the unscoped buffers and put back at their exit contents; the
    generator register goes into the region's invariant and comes back; nothing is owed; the kernel has no semaphore
    of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at the contents before it, left with them at the
    contents after it; its arrays are split out of the unscoped buffers and put back at their exit contents; the
    generator register goes into the region's invariant and comes back; nothing is owed; the kernel has no semaphore
    of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show _ ⊢ (Pipeline.ΦA spec3 c : sProp 𝕄) from by
      unfold Pipeline.ΦA
      iintro ⟨Hp, -, Hr⟩
      isplitl [Hr]; · iexact Hr
      iexact Hp).trans (hin3 (V7 m) c)
  hout c := (hout3 (V7 m) c).trans (show (Pipeline.ΦA spec3 c : sProp 𝕄) ⊢ _ from by
      rw [Pipeline.ownSems0_none]; unfold Pipeline.ΦA
      iintro ⟨Hr, Hp⟩
      isplitl [Hp]; · iexact Hp
      isplitr; · iempintro
      iexact Hr)
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V7 m c) (V8 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m) ]
/-- @main IS the run of the segments. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and in
    every final state each unscoped buffer of each core holds the last contents named above. -/
theorem run_main : θ_run defs (onTc (τ := τ) (main (F := F))) ⟨m, fun _ => 0, ρ⟩ (fun r => ∀ c : Dev nD,
      ∀ b : Ref sig .tc, ¬ (Proc.devRef .tc b : DevRef τ sig).isScoped → r.2.mem ((c.tc : Thread nD τ).loc b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c b hb => h c _ (mem_uc b hb))

/-! ## The arguments end as launched -/

theorem W8_main_arg0 (c : Dev nD) : W8 m c main_arg0 = m ((c : Thread nD τ).loc main_arg0) :=
  W8_of m c main_arg0 (by decide) (by decide) (by decide) (by decide) (by decide) (by decide) (by decide) (by decide)
theorem W8_main_arg1 (c : Dev nD) : W8 m c main_arg1 = m ((c : Thread nD τ).loc main_arg1) :=
  W8_of m c main_arg1 (by decide) (by decide) (by decide) (by decide) (by decide) (by decide) (by decide) (by decide)
theorem W8_main_arg2 (c : Dev nD) : W8 m c main_arg2 = m ((c : Thread nD τ).loc main_arg2) :=
  W8_of m c main_arg2 (by decide) (by decide) (by decide) (by decide) (by decide) (by decide) (by decide) (by decide)
theorem W8_main_arg3 (c : Dev nD) : W8 m c main_arg3 = m ((c : Thread nD τ).loc main_arg3) :=
  W8_of m c main_arg3 (by decide) (by decide) (by decide) (by decide) (by decide) (by decide) (by decide) (by decide)
theorem W8_main_arg4 (c : Dev nD) : W8 m c main_arg4 = m ((c : Thread nD τ).loc main_arg4) :=
  W8_of m c main_arg4 (by decide) (by decide) (by decide) (by decide) (by decide) (by decide) (by decide) (by decide)
theorem W8_main_arg5 (c : Dev nD) : W8 m c main_arg5 = m ((c : Thread nD τ).loc main_arg5) :=
  W8_of m c main_arg5 (by decide) (by decide) (by decide) (by decide) (by decide) (by decide) (by decide) (by decide)
theorem W8_main_arg6 (c : Dev nD) : W8 m c main_arg6 = m ((c : Thread nD τ).loc main_arg6) :=
  W8_of m c main_arg6 (by decide) (by decide) (by decide) (by decide) (by decide) (by decide) (by decide) (by decide)
theorem W8_main_arg7 (c : Dev nD) : W8 m c main_arg7 = m ((c : Thread nD τ).loc main_arg7) :=
  W8_of m c main_arg7 (by decide) (by decide) (by decide) (by decide) (by decide) (by decide) (by decide) (by decide)
theorem W8_main_arg8 (c : Dev nD) : W8 m c main_arg8 = m ((c : Thread nD τ).loc main_arg8) :=
  W8_of m c main_arg8 (by decide) (by decide) (by decide) (by decide) (by decide) (by decide) (by decide) (by decide)
theorem W8_main_arg9 (c : Dev nD) : W8 m c main_arg9 = m ((c : Thread nD τ).loc main_arg9) :=
  W8_of m c main_arg9 (by decide) (by decide) (by decide) (by decide) (by decide) (by decide) (by decide) (by decide)
theorem W8_main_arg10 (c : Dev nD) : W8 m c main_arg10 = m ((c : Thread nD τ).loc main_arg10) :=
  W8_of m c main_arg10 (by decide) (by decide) (by decide) (by decide) (by decide) (by decide) (by decide) (by decide)
theorem W8_main_arg11 (c : Dev nD) : W8 m c main_arg11 = m ((c : Thread nD τ).loc main_arg11) :=
  W8_of m c main_arg11 (by decide) (by decide) (by decide) (by decide) (by decide) (by decide) (by decide) (by decide)

/-- THE FRAME: every weakly fair execution terminates, nothing faulting, and every argument array ends as launched. -/
theorem frame_run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c main_arg0 (by decide)).trans (W8_main_arg0 m c),
      (h c main_arg1 (by decide)).trans (W8_main_arg1 m c),
      (h c main_arg2 (by decide)).trans (W8_main_arg2 m c),
      (h c main_arg3 (by decide)).trans (W8_main_arg3 m c),
      (h c main_arg4 (by decide)).trans (W8_main_arg4 m c),
      (h c main_arg5 (by decide)).trans (W8_main_arg5 m c),
      (h c main_arg6 (by decide)).trans (W8_main_arg6 m c),
      (h c main_arg7 (by decide)).trans (W8_main_arg7 m c),
      (h c main_arg8 (by decide)).trans (W8_main_arg8 m c),
      (h c main_arg9 (by decide)).trans (W8_main_arg9 m c),
      (h c main_arg10 (by decide)).trans (W8_main_arg10 m c),
      (h c main_arg11 (by decide)).trans (W8_main_arg11 m c)⟩) (run_main m ρ)

/-- THE VALUE: beside the frame, the result buffer ends at the last contents named for it. -/
theorem value_run : θ_run defs (onTc (τ := τ) (main (F := F))) ⟨m, fun _ => 0, ρ⟩ (fun r => ∀ c : Dev nD,
      r.2.mem ((c.tc : Thread nD τ).loc main_v56) = W8 m c main_v56
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨h c main_v56 (by decide),
      (h c main_arg0 (by decide)).trans (W8_main_arg0 m c),
      (h c main_arg1 (by decide)).trans (W8_main_arg1 m c),
      (h c main_arg2 (by decide)).trans (W8_main_arg2 m c),
      (h c main_arg3 (by decide)).trans (W8_main_arg3 m c),
      (h c main_arg4 (by decide)).trans (W8_main_arg4 m c),
      (h c main_arg5 (by decide)).trans (W8_main_arg5 m c),
      (h c main_arg6 (by decide)).trans (W8_main_arg6 m c),
      (h c main_arg7 (by decide)).trans (W8_main_arg7 m c),
      (h c main_arg8 (by decide)).trans (W8_main_arg8 m c),
      (h c main_arg9 (by decide)).trans (W8_main_arg9 m c),
      (h c main_arg10 (by decide)).trans (W8_main_arg10 m c),
      (h c main_arg11 (by decide)).trans (W8_main_arg11 m c)⟩) (run_main m ρ)

end Cert.Kernel.Run

end
-- ==== Proof.SageRegion0.lean ====
/-
  Region 0 (the first SAGE layer's dense part) of the idealized kernel's @main, at any float instance and at any contents
  V of the core's buffers when the region is entered: a window's block at a grid point, what the body leaves in the output
  window's buffer (one whole-block store of the payload of the five loaded blocks), the pipeline's proof data and the body's
  obligation at every point.
-/
import proofs.«418230_j2070174236742_2_alg».proof.Proof.Gen.KernelIdeal.Launch
import proofs.«418230_j2070174236742_2_alg».proof.Proof.Gen.KernelIdeal.Skeleton
import proofs.«418230_j2070174236742_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Sage0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at grid point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body loads and stores through. -/
abbrev rRows0 : Rect S10000x64 := Rect.unit (s := S10000x64) ![0, 0] S10000x64.size inb_S10000x64_S10000x64_0_0
abbrev rMat0 : Rect S64x64 := Rect.unit (s := S64x64) ![0, 0] S64x64.size inb_S64x64_S64x64_0_0
abbrev rBias0 : Rect S1x64 := Rect.unit (s := S1x64) ![0, 0] S1x64.size inb_S1x64_S1x64_0_0

/-- What the body leaves in the output window's buffer, from the five input blocks: its one store. -/
def out0_5 (x0 x1 : Vec F S10000x64 .f32) (x2 : Vec F S64x64 .f32) (x3 : Vec F S1x64 .f32) (x4 : Vec F S64x64 .f32) : Vec F S10000x64 .f32 :=
  View.canon [⟨rRows0, k0_pay1 (View.ld x0 rRows0) (View.ld x1 rRows0) (View.ld x2 rMat0) (View.ld x3 rBias0) (View.ld x4 rMat0)⟩]

/-- Input window 0's current staging buffer holds its block at every point, fetched there or not, for any proof data
    whose array is V's and whose body leaves the block in place: unfetched, the block index has not moved, so the
    previous point's block is this point's; the window is uncut and never idle. -/
theorem beforeOf0_0 {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof data
    whose array is V's and whose body leaves the block in place: unfetched, the block index has not moved, so the
    previous point's block is this point's; the window is uncut and never idle. -/
theorem beforeOf0_1 {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof data
    whose array is V's and whose body leaves the block in place: unfetched, the block index has not moved, so the
    previous point's block is this point's; the window is uncut and never idle. -/
theorem beforeOf0_2 {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof data
    whose array is V's and whose body leaves the block in place: unfetched, the block index has not moved, so the
    previous point's block is this point's; the window is uncut and never idle. -/
theorem beforeOf0_3 {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof data
    whose array is V's and whose body leaves the block in place: unfetched, the block index has not moved, so the
    previous point's block is this point's; the window is uncut and never idle. -/
theorem beforeOf0_4 {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The one store is through the whole-buffer rectangle, so it covers the output buffer. -/
theorem cover0_5 (p : Vec F S10000x64 .f32) (y : S10000x64.Idx) :
    ∃ pc ∈ ([⟨rRows0, p⟩] : List (View.Piece (Elt F) S10000x64 .f32)), y ∈ pc.1.set :=
  View.cover_of_tiled [⟨rRows0, p⟩] S10000x64.size (by rfl) y

set_option maxHeartbeats 1000000 in
/-- The kernel body on whole staging memrefs, the five inputs' at read contents and the output's at anything, runs to
    the continuation holding the inputs' as they were and the output's at out0_5 of them: five whole-buffer loads, a
    load of the output buffer whose value is unused, and one whole-buffer store of the payload, which read back is the
    canon of that one piece. -/
theorem sound_kernel0 (c : Dev nD) (E : Set ℕ) (i : grid0.Coords)
    (a1 : Memref sig .tc .vmem S10000x64 .f32) (ha1 : a1.IsWhole) (a2 : Memref sig .tc .vmem S10000x64 .f32) (ha2 : a2.IsWhole)
    (a3 : Memref sig .tc .vmem S64x64 .f32) (ha3 : a3.IsWhole) (a4 : Memref sig .tc .vmem S1x64 .f32) (ha4 : a4.IsWhole)
    (a5 : Memref sig .tc .vmem S64x64 .f32) (ha5 : a5.IsWhole) (a6 : Memref sig .tc .vmem S10000x64 .f32) (ha6 : a6.IsWhole)
    (u1 u2 : Vec F S10000x64 .f32) (u3 : Vec F S64x64 .f32) (u4 : Vec F S1x64 .f32) (u5 : Vec F S64x64 .f32) (K : PUnit → sProp 𝕄) :
    iprop(owns (c : Thread nD τ) a1 fullShare u1 ∗ owns (c : Thread nD τ) a2 fullShare u2 ∗ owns (c : Thread nD τ) a3 fullShare u3
        ∗ owns (c : Thread nD τ) a4 fullShare u4 ∗ owns (c : Thread nD τ) a5 fullShare u5 ∗ (∃ d, owns (c : Thread nD τ) a6 fullShare d)
        ∗ (iprop(owns (c : Thread nD τ) a1 fullShare u1 ∗ owns (c : Thread nD τ) a2 fullShare u2 ∗ owns (c : Thread nD τ) a3 fullShare u3
            ∗ owns (c : Thread nD τ) a4 fullShare u4 ∗ owns (c : Thread nD τ) a5 fullShare u5
            ∗ owns (c : Thread nD τ) a6 fullShare (out0_5 u1 u2 u3 u4 u5)) -∗ K ⟨⟩))
      ⊢ wp frame (wpE (defs₀ (F := F)) Variants.none c none) E (cc0__sage_dense_kernel i a1 ha1 a2 ha2 a3 ha3 a4 ha4 a5 ha5 a6 ha6) K := by
  simp only [cc0__sage_dense_kernel_eq_skeleton]; unfold cc0__sage_dense_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_5 _)

/-- The proof data of pipeline 0 on core c: arrays as entered; each input's buffer at its block, the output's at out0_5 of them. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t =
    out0_5 (iblk0 V c 0 t) (iblk0 V c 1 t) (iblk0 V c 2 t) (iblk0 V c 3 t) (iblk0 V c 4 t) := by dsimp only [dat0]

/-- Each input's current staging buffer holds its block at every point, fetched there or not. -/
theorem before0_0 (c : Dev nD) (t : Fin cfg0.N) (d) : (dat0 V c).before 0 t d = iblk0 V c 0 t :=
  beforeOf0_0 V (dat0 V c) (A_eq0 V c 0) (after0_0 V c) t d
theorem before0_1 (c : Dev nD) (t : Fin cfg0.N) (d) : (dat0 V c).before 1 t d = iblk0 V c 1 t :=
  beforeOf0_1 V (dat0 V c) (A_eq0 V c 1) (after0_1 V c) t d
theorem before0_2 (c : Dev nD) (t : Fin cfg0.N) (d) : (dat0 V c).before 2 t d = iblk0 V c 2 t :=
  beforeOf0_2 V (dat0 V c) (A_eq0 V c 2) (after0_2 V c) t d
theorem before0_3 (c : Dev nD) (t : Fin cfg0.N) (d) : (dat0 V c).before 3 t d = iblk0 V c 3 t :=
  beforeOf0_3 V (dat0 V c) (A_eq0 V c 3) (after0_3 V c) t d
theorem before0_4 (c : Dev nD) (t : Fin cfg0.N) (d) : (dat0 V c).before 4 t d = iblk0 V c 4 t :=
  beforeOf0_4 V (dat0 V c) (A_eq0 V c 4) (after0_4 V c) t d

/-- What the body is called with at point t: the invariant, what the core owes, and each window's current buffer, the
    inputs' at what they hold before the body and the output's at some contents, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns: the invariant and the owed amount at the next point, each buffer at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H1]; · iexact H1
  isplitl [H2]; · iexact H2
  isplitl [H3]; · iexact H3
  isplitl [H4]; · iexact H4
  isplitl [H5]; · iexact H5
  isplitl [H6]; · iexists _; iexact H6
  iintro ⟨H1, H2, H3, H4, H5, H6⟩
  isplitl [HΦ]; · iexact HΦ
  isplitl [Ho]; · iexact Ho
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Sage0

end
-- ==== Proof.SageRegion1.lean ====
/-
  Region 1 (the first SAGE layer's dense part) of the idealized kernel's @main, at any float instance and at any contents
  V of the core's buffers when the region is entered: a window's block at a grid point, what the body leaves in the output
  window's buffer (one whole-block store of the payload of the five loaded blocks), the pipeline's proof data and the body's
  obligation at every point.
-/
import proofs.«418230_j2070174236742_2_alg».proof.Proof.Gen.KernelIdeal.Launch
import proofs.«418230_j2070174236742_2_alg».proof.Proof.Gen.KernelIdeal.Skeleton
import proofs.«418230_j2070174236742_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Sage1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at grid point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-buffer rectangles the body loads and stores through. -/
abbrev rRows1 : Rect S10000x64 := Rect.unit (s := S10000x64) ![0, 0] S10000x64.size inb_S10000x64_S10000x64_0_0
abbrev rMat1 : Rect S64x64 := Rect.unit (s := S64x64) ![0, 0] S64x64.size inb_S64x64_S64x64_0_0
abbrev rBias1 : Rect S1x64 := Rect.unit (s := S1x64) ![0, 0] S1x64.size inb_S1x64_S1x64_0_0

/-- What the body leaves in the output window's buffer, from the five input blocks: its one store. -/
def out1_5 (x0 x1 : Vec F S10000x64 .f32) (x2 : Vec F S64x64 .f32) (x3 : Vec F S1x64 .f32) (x4 : Vec F S64x64 .f32) : Vec F S10000x64 .f32 :=
  View.canon [⟨rRows1, k1_pay1 (View.ld x0 rRows1) (View.ld x1 rRows1) (View.ld x2 rMat1) (View.ld x3 rBias1) (View.ld x4 rMat1)⟩]

/-- Input window 0's current staging buffer holds its block at every point, fetched there or not, for any proof data
    whose array is V's and whose body leaves the block in place: unfetched, the block index has not moved, so the
    previous point's block is this point's; the window is uncut and never idle. -/
theorem beforeOf0_0 {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is V's and whose body leaves the block in place: unfetched, the block index has not moved, so the
    previous point's block is this point's; the window is uncut and never idle. -/
theorem beforeOf0_1 {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is V's and whose body leaves the block in place: unfetched, the block index has not moved, so the
    previous point's block is this point's; the window is uncut and never idle. -/
theorem beforeOf0_2 {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data
    whose array is V's and whose body leaves the block in place: unfetched, the block index has not moved, so the
    previous point's block is this point's; the window is uncut and never idle. -/
theorem beforeOf0_3 {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof data
    whose array is V's and whose body leaves the block in place: unfetched, the block index has not moved, so the
    previous point's block is this point's; the window is uncut and never idle. -/
theorem beforeOf0_4 {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The one store is through the whole-buffer rectangle, so it covers the output buffer. -/
theorem cover1_5 (p : Vec F S10000x64 .f32) (y : S10000x64.Idx) :
    ∃ pc ∈ ([⟨rRows1, p⟩] : List (View.Piece (Elt F) S10000x64 .f32)), y ∈ pc.1.set :=
  View.cover_of_tiled [⟨rRows1, p⟩] S10000x64.size (by rfl) y

set_option maxHeartbeats 1000000 in
/-- The kernel body on whole staging memrefs, the five inputs' at read contents and the output's at anything, runs to
    the continuation holding the inputs' as they were and the output's at out1_5 of them: five whole-buffer loads, a
    load of the output buffer whose value is unused, and one whole-buffer store of the payload, which read back is the
    canon of that one piece. -/
theorem sound_kernel1 (c : Dev nD) (E : Set ℕ) (i : grid1.Coords)
    (a1 : Memref sig .tc .vmem S10000x64 .f32) (ha1 : a1.IsWhole) (a2 : Memref sig .tc .vmem S10000x64 .f32) (ha2 : a2.IsWhole)
    (a3 : Memref sig .tc .vmem S64x64 .f32) (ha3 : a3.IsWhole) (a4 : Memref sig .tc .vmem S1x64 .f32) (ha4 : a4.IsWhole)
    (a5 : Memref sig .tc .vmem S64x64 .f32) (ha5 : a5.IsWhole) (a6 : Memref sig .tc .vmem S10000x64 .f32) (ha6 : a6.IsWhole)
    (u1 u2 : Vec F S10000x64 .f32) (u3 : Vec F S64x64 .f32) (u4 : Vec F S1x64 .f32) (u5 : Vec F S64x64 .f32) (K : PUnit → sProp 𝕄) :
    iprop(owns (c : Thread nD τ) a1 fullShare u1 ∗ owns (c : Thread nD τ) a2 fullShare u2 ∗ owns (c : Thread nD τ) a3 fullShare u3
        ∗ owns (c : Thread nD τ) a4 fullShare u4 ∗ owns (c : Thread nD τ) a5 fullShare u5 ∗ (∃ d, owns (c : Thread nD τ) a6 fullShare d)
        ∗ (iprop(owns (c : Thread nD τ) a1 fullShare u1 ∗ owns (c : Thread nD τ) a2 fullShare u2 ∗ owns (c : Thread nD τ) a3 fullShare u3
            ∗ owns (c : Thread nD τ) a4 fullShare u4 ∗ owns (c : Thread nD τ) a5 fullShare u5
            ∗ owns (c : Thread nD τ) a6 fullShare (out1_5 u1 u2 u3 u4 u5)) -∗ K ⟨⟩))
      ⊢ wp frame (wpE (defs₀ (F := F)) Variants.none c none) E (cc1__sage_dense_kernel i a1 ha1 a2 ha2 a3 ha3 a4 ha4 a5 ha5 a6 ha6) K := by
  simp only [cc1__sage_dense_kernel_eq_skeleton]; unfold cc1__sage_dense_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_5 _)

/-- The proof data of pipeline 1 on core c: arrays as entered; each input's buffer at its block, the output's at out1_5 of them. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t =
    out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  beforeOf0_0 V (dat1 V c) (A_eq1 V c 0) (after1_0 V c) t d
theorem before1_1 (c : Dev nD) (t : Fin cfg1.N) (d) : (dat1 V c).before 1 t d = iblk1 V c 1 t :=
  beforeOf0_1 V (dat1 V c) (A_eq1 V c 1) (after1_1 V c) t d
theorem before1_2 (c : Dev nD) (t : Fin cfg1.N) (d) : (dat1 V c).before 2 t d = iblk1 V c 2 t :=
  beforeOf0_2 V (dat1 V c) (A_eq1 V c 2) (after1_2 V c) t d
theorem before1_3 (c : Dev nD) (t : Fin cfg1.N) (d) : (dat1 V c).before 3 t d = iblk1 V c 3 t :=
  beforeOf0_3 V (dat1 V c) (A_eq1 V c 3) (after1_3 V c) t d
theorem before1_4 (c : Dev nD) (t : Fin cfg1.N) (d) : (dat1 V c).before 4 t d = iblk1 V c 4 t :=
  beforeOf0_4 V (dat1 V c) (A_eq1 V c 4) (after1_4 V c) t d

/-- What the body is called with at point t: the invariant, what the core owes, and each window's current buffer, the
    inputs' at what they hold before the body and the output's at some contents, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns: the invariant and the owed amount at the next point, each buffer at what the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H1]; · iexact H1
  isplitl [H2]; · iexact H2
  isplitl [H3]; · iexact H3
  isplitl [H4]; · iexact H4
  isplitl [H5]; · iexact H5
  isplitl [H6]; · iexists _; iexact H6
  iintro ⟨H1, H2, H3, H4, H5, H6⟩
  isplitl [HΦ]; · iexact HΦ
  isplitl [Ho]; · iexact Ho
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Sage1

end
-- ==== Proof.SageRegion2.lean ====
/-
  Region 2 (the first SAGE layer's dense part) of the idealized kernel's @main, at any float instance and at any contents
  V of the core's buffers when the region is entered: a window's block at a grid point, what the body leaves in the output
  window's buffer (one whole-block store of the payload of the five loaded blocks), the pipeline's proof data and the body's
  obligation at every point.
-/
import proofs.«418230_j2070174236742_2_alg».proof.Proof.Gen.KernelIdeal.Launch
import proofs.«418230_j2070174236742_2_alg».proof.Proof.Gen.KernelIdeal.Skeleton
import proofs.«418230_j2070174236742_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Sage2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at grid point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole-buffer rectangles the body loads and stores through. -/
abbrev rRows2 : Rect S10000x64 := Rect.unit (s := S10000x64) ![0, 0] S10000x64.size inb_S10000x64_S10000x64_0_0
abbrev rMat2 : Rect S64x64 := Rect.unit (s := S64x64) ![0, 0] S64x64.size inb_S64x64_S64x64_0_0
abbrev rBias2 : Rect S1x64 := Rect.unit (s := S1x64) ![0, 0] S1x64.size inb_S1x64_S1x64_0_0

/-- What the body leaves in the output window's buffer, from the five input blocks: its one store. -/
def out2_5 (x0 x1 : Vec F S10000x64 .f32) (x2 : Vec F S64x64 .f32) (x3 : Vec F S1x64 .f32) (x4 : Vec F S64x64 .f32) : Vec F S10000x64 .f32 :=
  View.canon [⟨rRows2, k2_pay1 (View.ld x0 rRows2) (View.ld x1 rRows2) (View.ld x2 rMat2) (View.ld x3 rBias2) (View.ld x4 rMat2)⟩]

/-- Input window 0's current staging buffer holds its block at every point, fetched there or not, for any proof data
    whose array is V's and whose body leaves the block in place: unfetched, the block index has not moved, so the
    previous point's block is this point's; the window is uncut and never idle. -/
theorem beforeOf0_0 {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof data
    whose array is V's and whose body leaves the block in place: unfetched, the block index has not moved, so the
    previous point's block is this point's; the window is uncut and never idle. -/
theorem beforeOf0_1 {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof data
    whose array is V's and whose body leaves the block in place: unfetched, the block index has not moved, so the
    previous point's block is this point's; the window is uncut and never idle. -/
theorem beforeOf0_2 {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof data
    whose array is V's and whose body leaves the block in place: unfetched, the block index has not moved, so the
    previous point's block is this point's; the window is uncut and never idle. -/
theorem beforeOf0_3 {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof data
    whose array is V's and whose body leaves the block in place: unfetched, the block index has not moved, so the
    previous point's block is this point's; the window is uncut and never idle. -/
theorem beforeOf0_4 {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The one store is through the whole-buffer rectangle, so it covers the output buffer. -/
theorem cover2_5 (p : Vec F S10000x64 .f32) (y : S10000x64.Idx) :
    ∃ pc ∈ ([⟨rRows2, p⟩] : List (View.Piece (Elt F) S10000x64 .f32)), y ∈ pc.1.set :=
  View.cover_of_tiled [⟨rRows2, p⟩] S10000x64.size (by rfl) y

set_option maxHeartbeats 1000000 in
/-- The kernel body on whole staging memrefs, the five inputs' at read contents and the output's at anything, runs to
    the continuation holding the inputs' as they were and the output's at out2_5 of them: five whole-buffer loads, a
    load of the output buffer whose value is unused, and one whole-buffer store of the payload, which read back is the
    canon of that one piece. -/
theorem sound_kernel2 (c : Dev nD) (E : Set ℕ) (i : grid2.Coords)
    (a1 : Memref sig .tc .vmem S10000x64 .f32) (ha1 : a1.IsWhole) (a2 : Memref sig .tc .vmem S10000x64 .f32) (ha2 : a2.IsWhole)
    (a3 : Memref sig .tc .vmem S64x64 .f32) (ha3 : a3.IsWhole) (a4 : Memref sig .tc .vmem S1x64 .f32) (ha4 : a4.IsWhole)
    (a5 : Memref sig .tc .vmem S64x64 .f32) (ha5 : a5.IsWhole) (a6 : Memref sig .tc .vmem S10000x64 .f32) (ha6 : a6.IsWhole)
    (u1 u2 : Vec F S10000x64 .f32) (u3 : Vec F S64x64 .f32) (u4 : Vec F S1x64 .f32) (u5 : Vec F S64x64 .f32) (K : PUnit → sProp 𝕄) :
    iprop(owns (c : Thread nD τ) a1 fullShare u1 ∗ owns (c : Thread nD τ) a2 fullShare u2 ∗ owns (c : Thread nD τ) a3 fullShare u3
        ∗ owns (c : Thread nD τ) a4 fullShare u4 ∗ owns (c : Thread nD τ) a5 fullShare u5 ∗ (∃ d, owns (c : Thread nD τ) a6 fullShare d)
        ∗ (iprop(owns (c : Thread nD τ) a1 fullShare u1 ∗ owns (c : Thread nD τ) a2 fullShare u2 ∗ owns (c : Thread nD τ) a3 fullShare u3
            ∗ owns (c : Thread nD τ) a4 fullShare u4 ∗ owns (c : Thread nD τ) a5 fullShare u5
            ∗ owns (c : Thread nD τ) a6 fullShare (out2_5 u1 u2 u3 u4 u5)) -∗ K ⟨⟩))
      ⊢ wp frame (wpE (defs₀ (F := F)) Variants.none c none) E (cc2__sage_dense_kernel i a1 ha1 a2 ha2 a3 ha3 a4 ha4 a5 ha5 a6 ha6) K := by
  simp only [cc2__sage_dense_kernel_eq_skeleton]; unfold cc2__sage_dense_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_5 _)

/-- The proof data of pipeline 2 on core c: arrays as entered; each input's buffer at its block, the output's at out2_5 of them. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t =
    out2_5 (iblk2 V c 0 t) (iblk2 V c 1 t) (iblk2 V c 2 t) (iblk2 V c 3 t) (iblk2 V c 4 t) := by dsimp only [dat2]

/-- Each input's current staging buffer holds its block at every point, fetched there or not. -/
theorem before2_0 (c : Dev nD) (t : Fin cfg2.N) (d) : (dat2 V c).before 0 t d = iblk2 V c 0 t :=
  beforeOf0_0 V (dat2 V c) (A_eq2 V c 0) (after2_0 V c) t d
theorem before2_1 (c : Dev nD) (t : Fin cfg2.N) (d) : (dat2 V c).before 1 t d = iblk2 V c 1 t :=
  beforeOf0_1 V (dat2 V c) (A_eq2 V c 1) (after2_1 V c) t d
theorem before2_2 (c : Dev nD) (t : Fin cfg2.N) (d) : (dat2 V c).before 2 t d = iblk2 V c 2 t :=
  beforeOf0_2 V (dat2 V c) (A_eq2 V c 2) (after2_2 V c) t d
theorem before2_3 (c : Dev nD) (t : Fin cfg2.N) (d) : (dat2 V c).before 3 t d = iblk2 V c 3 t :=
  beforeOf0_3 V (dat2 V c) (A_eq2 V c 3) (after2_3 V c) t d
theorem before2_4 (c : Dev nD) (t : Fin cfg2.N) (d) : (dat2 V c).before 4 t d = iblk2 V c 4 t :=
  beforeOf0_4 V (dat2 V c) (A_eq2 V c 4) (after2_4 V c) t d

/-- What the body is called with at point t: the invariant, what the core owes, and each window's current buffer, the
    inputs' at what they hold before the body and the output's at some contents, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns: the invariant and the owed amount at the next point, each buffer at what the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so the body's triple applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H1]; · iexact H1
  isplitl [H2]; · iexact H2
  isplitl [H3]; · iexact H3
  isplitl [H4]; · iexact H4
  isplitl [H5]; · iexact H5
  isplitl [H6]; · iexists _; iexact H6
  iintro ⟨H1, H2, H3, H4, H5, H6⟩
  isplitl [HΦ]; · iexact HΦ
  isplitl [Ho]; · iexact Ho
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end

end Cert.KernelIdeal.Sage2

end
-- ==== Proof.ReadoutRegion.lean ====
/-
  Region 3 (the readout: a one-hot matmul accumulated over the ten row tiles in a scratch the kernel keeps between grid
  points, copied to the output block at the last point) of the idealized kernel's @main, at any float instance and at any
  contents V of the core's buffers when the region is entered.
-/
import proofs.«418230_j2070174236742_2_alg».proof.Proof.Gen.KernelIdeal.Launch
import proofs.«418230_j2070174236742_2_alg».proof.Proof.Gen.KernelIdeal.Skeleton
import proofs.«418230_j2070174236742_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Readout

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

/-! ## The two conditionals of the body, in closed form over the ten grid points -/

/-- The first conditional of the body (the reset of the scratch): the grid coordinate is 0. -/
abbrev isFirst (i : grid3.Coords) : Prop :=
  (Scalar.cmpi .ne (Scalar.extui (Scalar.cmpi .eq (BitVec.ofNat 32 (i 0).val) 0#32)) 0#32) = 1#1
/-- It holds at point 0 only. -/
theorem isFirst_iff : ∀ t : Fin cfg3.N, isFirst (grid3.coords t) ↔ t.val % 10 = 0 :=
  (by decide +kernel : ∀ t : Fin grid3.N, isFirst (grid3.coords t) ↔ t.val % 10 = 0)

/-- The second conditional (the copy of the scratch to the output block): the grid coordinate is 9. -/
abbrev isLast (i : grid3.Coords) : Prop := k3_cond2 i = 1#1
/-- It holds at point 9 only. -/
theorem isLast_iff : ∀ t : Fin cfg3.N, isLast (grid3.coords t) ↔ t.val % 10 = 9 :=
  (by decide +kernel : ∀ t : Fin grid3.N, isLast (grid3.coords t) ↔ t.val % 10 = 9)

/-! ## Where the windows are idle -/

/-- The two input windows are never idle. -/
theorem live_tile : ∀ t : Fin cfg3.N, cfg3.idle 0 (grid3.coords t) = false := by decide +kernel
theorem live_ids : ∀ t : Fin cfg3.N, cfg3.idle 1 (grid3.coords t) = false := by decide +kernel
/-- Away from the last point the output window is idle (the body stores nothing into its buffer) -/
theorem idle_out : ∀ t : Fin cfg3.N, ¬isLast (grid3.coords t) → cfg3.idle 2 (grid3.coords t) = true := by decide +kernel
/-- and its block is not written back there; -/
theorem noFlush_out : ∀ t : Fin cfg3.N, ¬isLast (grid3.coords t) → (cfg3.win 2).flush t = false := by decide +kernel
/-- at the last point it is live. -/
theorem live_out : ∀ t : Fin cfg3.N, isLast (grid3.coords t) → cfg3.idle 2 (grid3.coords t) = false := by decide +kernel

/-! ## The memrefs the body is called with -/

/-- Each window's current staging memref at point `t`, as the pipeline passes it, and its wholeness. -/
abbrev mTile (t : Fin cfg3.N) : Memref sig .tc .vmem S10000x64 .f32 := win3_0.stage (cfg3.slots t 0)
abbrev hTile (t : Fin cfg3.N) : (mTile t).IsWhole := hstage3_0 ((cfg3.slots t 0).cast nbuf3_0)
abbrev mIds (t : Fin cfg3.N) : Memref sig .tc .vmem S10000x1 .i32 := win3_1.stage (cfg3.slots t 1)
abbrev hIds (t : Fin cfg3.N) : (mIds t).IsWhole := hstage3_1 ((cfg3.slots t 1).cast nbuf3_1)
abbrev mOut (t : Fin cfg3.N) : Memref sig .tc .vmem S64x64 .f32 := win3_2.stage (cfg3.slots t 2)
abbrev hOut (t : Fin cfg3.N) : (mOut t).IsWhole := hstage3_2 ((cfg3.slots t 2).cast nbuf3_2)
/-- The scratch: a whole scoped buffer of the kernel's own, passed beside the windows. -/
abbrev mAcc : Memref sig .tc .vmem S64x64 .f32 := Memref.whole cc3_scratch0
/-- The scratch and the output window's one staging buffer as views: what they hold is stated through them. -/
abbrev vAcc : View sig .tc .vmem S64x64 .f32 := mAcc.view
abbrev vOut : View sig .tc .vmem S64x64 .f32 := (Memref.whole cc3_stg2_0 : Memref sig .tc .vmem S64x64 .f32).view

/-- The other scoped buffers of the core (the other calls' staging buffers and scratch), each at some contents: carried
    through the region unopened. -/
abbrev restScoped (c : Dev nD) : sProp 𝕄 :=
  Pipeline.scopedRestBut (Ix := Unit) (Name := ℕ) (U := UR sig nD τ) (Lvl := ℕ) (Val := Elt F) spec3 c [cc3_scratch0]

/-- The class's invariant with the scratch as a memref owned at some contents: the scratch, the other scoped buffers,
    the generator register. -/
theorem PhiA_split (c : Dev nD) :
    (Pipeline.ΦA spec3 c : sProp 𝕄)
      = iprop(iprop(iprop(∃ d, owns (c : Thread nD τ) mAcc fullShare d) ∗ restScoped c) ∗ (∃ r, prngReg c r)) := by
  unfold Pipeline.ΦA; rw [scopedRest3_split]; simp only [mAcc, owns_whole]; try rfl

/-! ## The body's run, case by case -/

set_option maxHeartbeats 1000000 in
/-- THE FIRST POINT (reset, no copy): on whole memrefs — the two inputs' at their blocks, the output's at contents handed
    back untouched, the scratch at anything — the body runs to the continuation holding the inputs' as they were and the
    scratch with its stores written, as pieces (last first): the pieces are what the run finds. -/
noncomputable def runFirst (c : Dev nD) (i : grid3.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S64x64 .f32) (harg4 : arg4.IsWhole) (hc0 : isFirst i) (hc1 : ¬isLast i)
    (x0 : Vec F S10000x64 .f32) (x1 : Vec F S10000x1 .i32) :
    Σ' (LO : List (View.Piece (Elt F) S64x64 .f32)), { LA : List (View.Piece (Elt F) S64x64 .f32) //
      ∀ (xo : Vec F S64x64 .f32) (E : Set ℕ) (K : PUnit → sProp 𝕄),
        iprop(owns (c : Thread nD τ) arg1 fullShare x0 ∗ owns (c : Thread nD τ) arg2 fullShare x1 ∗ owns (c : Thread nD τ) arg3 fullShare xo ∗ (∃ d, owns (c : Thread nD τ) arg4 fullShare d)
            ∗ (iprop(owns (c : Thread nD τ) arg1 fullShare x0 ∗ owns (c : Thread nD τ) arg2 fullShare x1 ∗ owns (c : Thread nD τ) arg3 fullShare xo ∗ (∃ f, arg4.view.loc (c : Thread nD τ) ↦[arg4.view.set]{fullShare} arg4.view.writes (Elt F) f LA)) -∗ K ⟨⟩))
          ⊢ wp frame (wpE (defs₀ (F := F)) Variants.none c none) E (cc3__readout_kernel i arg1 harg1 arg2 harg2 arg3 harg3 arg4 harg4) K } := by
  refine ⟨[], ?_, fun xo E K => ?run⟩
  case run =>
    simp only [cc3__readout_kernel_eq_skeleton]; unfold cc3__readout_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- A MIDDLE POINT (no reset, no copy): the scratch comes at what the point before left; the body adds this tile's
    product to it and leaves the output's buffer untouched. -/
noncomputable def runMid (c : Dev nD) (i : grid3.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S64x64 .f32) (harg4 : arg4.IsWhole) (hc0 : ¬isFirst i) (hc1 : ¬isLast i)
    (x0 : Vec F S10000x64 .f32) (x1 : Vec F S10000x1 .i32) (xa : Vec F S64x64 .f32) :
    Σ' (LO : List (View.Piece (Elt F) S64x64 .f32)), { LA : List (View.Piece (Elt F) S64x64 .f32) //
      ∀ (xo : Vec F S64x64 .f32) (E : Set ℕ) (K : PUnit → sProp 𝕄),
        iprop(owns (c : Thread nD τ) arg1 fullShare x0 ∗ owns (c : Thread nD τ) arg2 fullShare x1 ∗ owns (c : Thread nD τ) arg3 fullShare xo ∗ owns (c : Thread nD τ) arg4 fullShare xa
            ∗ (iprop(owns (c : Thread nD τ) arg1 fullShare x0 ∗ owns (c : Thread nD τ) arg2 fullShare x1 ∗ owns (c : Thread nD τ) arg3 fullShare xo ∗ (∃ f, arg4.view.loc (c : Thread nD τ) ↦[arg4.view.set]{fullShare} arg4.view.writes (Elt F) f LA)) -∗ K ⟨⟩))
          ⊢ wp frame (wpE (defs₀ (F := F)) Variants.none c none) E (cc3__readout_kernel i arg1 harg1 arg2 harg2 arg3 harg3 arg4 harg4) K } := by
  refine ⟨[], ?_, fun xo E K => ?run⟩
  case run =>
    simp only [cc3__readout_kernel_eq_skeleton]; unfold cc3__readout_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- THE LAST POINT (no reset, copy): the scratch comes at what the point before left; the body adds this tile's product
    to it and stores the sum into the output's buffer, which comes at anything. -/
noncomputable def runLast (c : Dev nD) (i : grid3.Coords) (arg1 : Memref sig .tc .vmem S10000x64 .f32) (harg1 : arg1.IsWhole) (arg2 : Memref sig .tc .vmem S10000x1 .i32) (harg2 : arg2.IsWhole) (arg3 : Memref sig .tc .vmem S64x64 .f32) (harg3 : arg3.IsWhole) (arg4 : Memref sig .tc .vmem S64x64 .f32) (harg4 : arg4.IsWhole) (hc0 : ¬isFirst i) (hc1 : isLast i)
    (x0 : Vec F S10000x64 .f32) (x1 : Vec F S10000x1 .i32) (xa : Vec F S64x64 .f32) :
    Σ' (LO : List (View.Piece (Elt F) S64x64 .f32)), { LA : List (View.Piece (Elt F) S64x64 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xa
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f LO) ∗ (∃ f, arg4.view.loc (c : Thread nD τ) ↦[arg4.view.set]{fullShare} arg4.view.writes (Elt F) f LA)) -∗ K ⟨⟩))
          ⊢ wp frame (wpE (defs₀ (F := F)) Variants.none c none) E (cc3__readout_kernel i arg1 harg1 arg2 harg2 arg3 harg3 arg4 harg4) K } := by
  refine ⟨?_, ?_, fun E K => ?run⟩
  case run =>
    simp only [cc3__readout_kernel_eq_skeleton]; unfold cc3__readout_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

/-! ## What each case leaves, at a grid point -/

/-- The first point stores nothing into the output's buffer: no pieces, a placeholder nothing consults (the window is
    idle there and not written back). -/
def outFirst (c : Dev nD) (t : Fin cfg3.N) (h0 : isFirst (grid3.coords t)) (h1 : ¬isLast (grid3.coords t))
    (x0 : Vec F S10000x64 .f32) (x1 : Vec F S10000x1 .i32) : Vec F S64x64 .f32 :=
  vOut.read (Elt F) (vOut.writes (Elt F) vOut.junk (runFirst c (grid3.coords t) (mTile t) (hTile t) (mIds t) (hIds t) (mOut t) (hOut t) mAcc (Memref.isWhole_whole _) h0 h1 x0 x1).1)

/-- The first point's pieces for the scratch cover it (two whole stores). -/
theorem accFirst_cover (c : Dev nD) (t : Fin cfg3.N) (h0 : isFirst (grid3.coords t)) (h1 : ¬isLast (grid3.coords t))
    (x0 : Vec F S10000x64 .f32) (x1 : Vec F S10000x1 .i32) (y : S64x64.Idx) :
    ∃ pc ∈ (runFirst c (grid3.coords t) (mTile t) (hTile t) (mIds t) (hIds t) (mOut t) (hOut t) mAcc (Memref.isWhole_whole _) h0 h1 x0 x1).2.1, y ∈ pc.1.set :=
  View.cover_of_tiledL (runFirst c (grid3.coords t) (mTile t) (hTile t) (mIds t) (hIds t) (mOut t) (hOut t) mAcc (Memref.isWhole_whole _) h0 h1 x0 x1).2.1 S64x64.size (by sl_kernel_rfl) y

/-- What the first point leaves in the scratch: its pieces read back. -/
def accFirst (c : Dev nD) (t : Fin cfg3.N) (h0 : isFirst (grid3.coords t)) (h1 : ¬isLast (grid3.coords t))
    (x0 : Vec F S10000x64 .f32) (x1 : Vec F S10000x1 .i32) : Vec F S64x64 .f32 :=
  vAcc.read (Elt F) (vAcc.writes (Elt F) vAcc.junk (runFirst c (grid3.coords t) (mTile t) (hTile t) (mIds t) (hIds t) (mOut t) (hOut t) mAcc (Memref.isWhole_whole _) h0 h1 x0 x1).2.1)

/-- A middle point stores nothing into the output's buffer either. -/
def outMid (c : Dev nD) (t : Fin cfg3.N) (h0 : ¬isFirst (grid3.coords t)) (h1 : ¬isLast (grid3.coords t))
    (x0 : Vec F S10000x64 .f32) (x1 : Vec F S10000x1 .i32) (xa : Vec F S64x64 .f32) : Vec F S64x64 .f32 :=
  vOut.read (Elt F) (vOut.writes (Elt F) vOut.junk (runMid c (grid3.coords t) (mTile t) (hTile t) (mIds t) (hIds t) (mOut t) (hOut t) mAcc (Memref.isWhole_whole _) h0 h1 x0 x1 xa).1)

/-- A middle point's piece for the scratch covers it (one whole store). -/
theorem accMid_cover (c : Dev nD) (t : Fin cfg3.N) (h0 : ¬isFirst (grid3.coords t)) (h1 : ¬isLast (grid3.coords t))
    (x0 : Vec F S10000x64 .f32) (x1 : Vec F S10000x1 .i32) (xa : Vec F S64x64 .f32) (y : S64x64.Idx) :
    ∃ pc ∈ (runMid c (grid3.coords t) (mTile t) (hTile t) (mIds t) (hIds t) (mOut t) (hOut t) mAcc (Memref.isWhole_whole _) h0 h1 x0 x1 xa).2.1, y ∈ pc.1.set :=
  View.cover_of_tiledL (runMid c (grid3.coords t) (mTile t) (hTile t) (mIds t) (hIds t) (mOut t) (hOut t) mAcc (Memref.isWhole_whole _) h0 h1 x0 x1 xa).2.1 S64x64.size (by sl_kernel_rfl) y

/-- What a middle point leaves in the scratch. -/
def accMid (c : Dev nD) (t : Fin cfg3.N) (h0 : ¬isFirst (grid3.coords t)) (h1 : ¬isLast (grid3.coords t))
    (x0 : Vec F S10000x64 .f32) (x1 : Vec F S10000x1 .i32) (xa : Vec F S64x64 .f32) : Vec F S64x64 .f32 :=
  vAcc.read (Elt F) (vAcc.writes (Elt F) vAcc.junk (runMid c (grid3.coords t) (mTile t) (hTile t) (mIds t) (hIds t) (mOut t) (hOut t) mAcc (Memref.isWhole_whole _) h0 h1 x0 x1 xa).2.1)

/-- The last point's piece for the output's buffer covers it (one whole store). -/
theorem outLast_cover (c : Dev nD) (t : Fin cfg3.N) (h0 : ¬isFirst (grid3.coords t)) (h1 : isLast (grid3.coords t))
    (x0 : Vec F S10000x64 .f32) (x1 : Vec F S10000x1 .i32) (xa : Vec F S64x64 .f32) (y : S64x64.Idx) :
    ∃ pc ∈ (runLast c (grid3.coords t) (mTile t) (hTile t) (mIds t) (hIds t) (mOut t) (hOut t) mAcc (Memref.isWhole_whole _) h0 h1 x0 x1 xa).1, y ∈ pc.1.set :=
  View.cover_of_tiledL (runLast c (grid3.coords t) (mTile t) (hTile t) (mIds t) (hIds t) (mOut t) (hOut t) mAcc (Memref.isWhole_whole _) h0 h1 x0 x1 xa).1 S64x64.size (by sl_kernel_rfl) y

/-- What the last point leaves in the output's buffer. -/
def outLast (c : Dev nD) (t : Fin cfg3.N) (h0 : ¬isFirst (grid3.coords t)) (h1 : isLast (grid3.coords t))
    (x0 : Vec F S10000x64 .f32) (x1 : Vec F S10000x1 .i32) (xa : Vec F S64x64 .f32) : Vec F S64x64 .f32 :=
  vOut.read (Elt F) (vOut.writes (Elt F) vOut.junk (runLast c (grid3.coords t) (mTile t) (hTile t) (mIds t) (hIds t) (mOut t) (hOut t) mAcc (Memref.isWhole_whole _) h0 h1 x0 x1 xa).1)

/-- The last point's piece for the scratch covers it. -/
theorem accLast_cover (c : Dev nD) (t : Fin cfg3.N) (h0 : ¬isFirst (grid3.coords t)) (h1 : isLast (grid3.coords t))
    (x0 : Vec F S10000x64 .f32) (x1 : Vec F S10000x1 .i32) (xa : Vec F S64x64 .f32) (y : S64x64.Idx) :
    ∃ pc ∈ (runLast c (grid3.coords t) (mTile t) (hTile t) (mIds t) (hIds t) (mOut t) (hOut t) mAcc (Memref.isWhole_whole _) h0 h1 x0 x1 xa).2.1, y ∈ pc.1.set :=
  View.cover_of_tiledL (runLast c (grid3.coords t) (mTile t) (hTile t) (mIds t) (hIds t) (mOut t) (hOut t) mAcc (Memref.isWhole_whole _) h0 h1 x0 x1 xa).2.1 S64x64.size (by sl_kernel_rfl) y

/-- What the last point leaves in the scratch. -/
def accLast (c : Dev nD) (t : Fin cfg3.N) (h0 : ¬isFirst (grid3.coords t)) (h1 : isLast (grid3.coords t))
    (x0 : Vec F S10000x64 .f32) (x1 : Vec F S10000x1 .i32) (xa : Vec F S64x64 .f32) : Vec F S64x64 .f32 :=
  vAcc.read (Elt F) (vAcc.writes (Elt F) vAcc.junk (runLast c (grid3.coords t) (mTile t) (hTile t) (mIds t) (hIds t) (mOut t) (hOut t) mAcc (Memref.isWhole_whole _) h0 h1 x0 x1 xa).2.1)

/-! ## The cases' contents as values -/

theorem zeros2 : (![0, 0] : Fin 2 → Nat) = fun _ => 0 := funext fun a => by fin_cases a <;> rfl

/-- A middle point leaves in the scratch the payload of its one whole store: this tile's product added to what the
    scratch held (every load reads a whole buffer). -/
theorem accMid_eq (c : Dev nD) (t : Fin cfg3.N) (h0 : ¬isFirst (grid3.coords t)) (h1 : ¬isLast (grid3.coords t))
    (x0 : Vec F S10000x64 .f32) (x1 : Vec F S10000x1 .i32) (xa : Vec F S64x64 .f32) :
    accMid c t h0 h1 x0 x1 xa = k3_pay2 x0 x1 xa := by
  unfold accMid
  rw [View.read_writes_eq_canon _ _ _ (accMid_cover c t h0 h1 x0 x1 xa)]
  unfold runMid
  dsimp only
  sl_unfold_words
  rw [View.canon_unit_zero (S := S64x64) zeros2]
  simp only [View.readAt_eq_ld, Memref.IsWhole.read_unread, View.ld_unit_zero (S := S10000x64) zeros2,
    View.ld_unit_zero (S := S10000x1) zeros2, View.ld_unit_zero (S := S64x64) zeros2]
  exact congrArg (k3_pay2 x0 x1) (Memref.IsWhole.read_unread (Memref.isWhole_whole cc3_scratch0) xa)

/-- The first point stores the zero fill, reads it back, and leaves this tile's product added to it: the later of its
    two whole stores is what the scratch ends holding. -/
theorem accFirst_eq (c : Dev nD) (t : Fin cfg3.N) (h0 : isFirst (grid3.coords t)) (h1 : ¬isLast (grid3.coords t))
    (x0 : Vec F S10000x64 .f32) (x1 : Vec F S10000x1 .i32) :
    accFirst c t h0 h1 x0 x1 = k3_pay2 x0 x1 (k3_pay1 (F := F)) := by
  unfold accFirst
  rw [View.read_writes_eq_canon _ _ _ (accFirst_cover c t h0 h1 x0 x1)]
  unfold runFirst
  dsimp only
  sl_unfold_words
  rw [View.canon_cons_unit_zero (S := S64x64) zeros2, View.readCov_unit_zero (S := S64x64) _ zeros2]
  simp only [View.readAt_eq_ld, Memref.IsWhole.read_unread, View.ld_unit_zero (S := S10000x64) zeros2,
    View.ld_unit_zero (S := S10000x1) zeros2]

/-- The last point leaves in the scratch what a middle point does, -/
theorem accLast_eq (c : Dev nD) (t : Fin cfg3.N) (h0 : ¬isFirst (grid3.coords t)) (h1 : isLast (grid3.coords t))
    (x0 : Vec F S10000x64 .f32) (x1 : Vec F S10000x1 .i32) (xa : Vec F S64x64 .f32) :
    accLast c t h0 h1 x0 x1 xa = k3_pay2 x0 x1 xa := by
  unfold accLast
  rw [View.read_writes_eq_canon _ _ _ (accLast_cover c t h0 h1 x0 x1 xa)]
  unfold runLast
  dsimp only
  sl_unfold_words
  rw [View.canon_unit_zero (S := S64x64) zeros2]
  simp only [View.readAt_eq_ld, Memref.IsWhole.read_unread, View.ld_unit_zero (S := S10000x64) zeros2,
    View.ld_unit_zero (S := S10000x1) zeros2, View.ld_unit_zero (S := S64x64) zeros2]
  exact congrArg (k3_pay2 x0 x1) (Memref.IsWhole.read_unread (Memref.isWhole_whole cc3_scratch0) xa)

/-- and stores into the output's buffer what it reads back from the scratch: the same value. -/
theorem outLast_eq (c : Dev nD) (t : Fin cfg3.N) (h0 : ¬isFirst (grid3.coords t)) (h1 : isLast (grid3.coords t))
    (x0 : Vec F S10000x64 .f32) (x1 : Vec F S10000x1 .i32) (xa : Vec F S64x64 .f32) :
    outLast c t h0 h1 x0 x1 xa = k3_pay2 x0 x1 xa := by
  unfold outLast
  rw [View.read_writes_eq_canon _ _ _ (outLast_cover c t h0 h1 x0 x1 xa)]
  unfold runLast
  dsimp only
  sl_unfold_words
  rw [View.canon_unit_zero (S := S64x64) zeros2, View.readCov_unit_zero (S := S64x64) _ zeros2]
  simp only [View.readAt_eq_ld, Memref.IsWhole.read_unread, View.ld_unit_zero (S := S10000x64) zeros2,
    View.ld_unit_zero (S := S10000x1) zeros2, View.ld_unit_zero (S := S64x64) zeros2]
  exact congrArg (k3_pay2 x0 x1) (Memref.IsWhole.read_unread (Memref.isWhole_whole cc3_scratch0) xa)

section
variable (V : (c : Dev nD) → (b : Ref sig .tc) → Buf (Elt F) ((c : Thread nD τ).loc b))

/-- Window w's block at grid point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- THE ACCUMULATOR: what the scratch holds after grid point n. The first point resets it to zero and adds the tile's
    one-hot product; every later point adds its tile's product to what the point before left. -/
def accum3 (c : Dev nD) : (n : ℕ) → n < cfg3.N → Vec F S64x64 .f32
  | 0, hn => k3_pay2 (iblk3 V c 0 ⟨0, hn⟩) (iblk3 V c 1 ⟨0, hn⟩) (k3_pay1 (F := F))
  | n + 1, hn => k3_pay2 (iblk3 V c 0 ⟨n + 1, hn⟩) (iblk3 V c 1 ⟨n + 1, hn⟩) (accum3 c n (Nat.lt_of_succ_lt hn))

/-- No point after the first resets the scratch. -/
theorem not_first_succ (n : ℕ) (hn : n + 1 < cfg3.N) : ¬isFirst (grid3.coords ⟨n + 1, hn⟩) := fun h => by
  have h' := (isFirst_iff ⟨n + 1, hn⟩).mp h
  have hN : n + 1 < 10 := lt_of_lt_of_eq hn (show cfg3.N = 10 from N_3)
  dsimp only at h'; omega

/-- What the output window's buffer and the scratch hold after the body at position n (output first, scratch second):
    the case the closed forms select at n, run at the point's memrefs and input blocks, the scratch coming at what this
    leaves at n - 1. -/
def outsAt3 (c : Dev nD) : (n : ℕ) → n < cfg3.N → Vec F S64x64 .f32 × Vec F S64x64 .f32
  | 0, hn =>
    (outFirst c ⟨0, hn⟩ ((isFirst_iff ⟨0, hn⟩).mpr (Nat.zero_mod _)) (fun h => (fun h => by (try dsimp only at h); omega) ((isLast_iff ⟨0, hn⟩).mp h)) (iblk3 V c 0 ⟨0, hn⟩) (iblk3 V c 1 ⟨0, hn⟩),
     accFirst c ⟨0, hn⟩ ((isFirst_iff ⟨0, hn⟩).mpr (Nat.zero_mod _)) (fun h => (fun h => by (try dsimp only at h); omega) ((isLast_iff ⟨0, hn⟩).mp h)) (iblk3 V c 0 ⟨0, hn⟩) (iblk3 V c 1 ⟨0, hn⟩))
  | n + 1, hn =>
    if h1 : (n + 1) % 10 = 9 then
      (outLast c ⟨n + 1, hn⟩ (not_first_succ n hn) ((isLast_iff ⟨n + 1, hn⟩).mpr h1) (iblk3 V c 0 ⟨n + 1, hn⟩) (iblk3 V c 1 ⟨n + 1, hn⟩) (outsAt3 c n (Nat.lt_of_succ_lt hn)).2,
       accLast c ⟨n + 1, hn⟩ (not_first_succ n hn) ((isLast_iff ⟨n + 1, hn⟩).mpr h1) (iblk3 V c 0 ⟨n + 1, hn⟩) (iblk3 V c 1 ⟨n + 1, hn⟩) (outsAt3 c n (Nat.lt_of_succ_lt hn)).2)
    else
      (outMid c ⟨n + 1, hn⟩ (not_first_succ n hn) (fun h => h1 ((isLast_iff ⟨n + 1, hn⟩).mp h)) (iblk3 V c 0 ⟨n + 1, hn⟩) (iblk3 V c 1 ⟨n + 1, hn⟩) (outsAt3 c n (Nat.lt_of_succ_lt hn)).2,
       accMid c ⟨n + 1, hn⟩ (not_first_succ n hn) (fun h => h1 ((isLast_iff ⟨n + 1, hn⟩).mp h)) (iblk3 V c 0 ⟨n + 1, hn⟩) (iblk3 V c 1 ⟨n + 1, hn⟩) (outsAt3 c n (Nat.lt_of_succ_lt hn)).2)

/-- outsAt3 at the first point. -/
theorem outsAt3_first (c : Dev nD) (t : Fin cfg3.N) (h0 : t.val % 10 = 0) (h1 : ¬t.val % 10 = 9) :
    outsAt3 V c t.val t.isLt =
      (outFirst c t ((isFirst_iff t).mpr h0) (fun h => h1 ((isLast_iff t).mp h)) (iblk3 V c 0 t) (iblk3 V c 1 t),
       accFirst c t ((isFirst_iff t).mpr h0) (fun h => h1 ((isLast_iff t).mp h)) (iblk3 V c 0 t) (iblk3 V c 1 t)) := by
  obtain ⟨n, hn⟩ := t
  cases n with
  | zero => exact rfl
  | succ n => exfalso; have hN : n + 1 < 10 := lt_of_lt_of_eq hn (show cfg3.N = 10 from N_3); dsimp only at h0; omega

/-- outsAt3 at a middle point: that case's contents, over what the point before left in the scratch. -/
theorem outsAt3_mid (c : Dev nD) (t : Fin cfg3.N) (h0 : ¬t.val % 10 = 0) (h1 : ¬t.val % 10 = 9) :
    outsAt3 V c t.val t.isLt =
      (outMid c t (fun h => h0 ((isFirst_iff t).mp h)) (fun h => h1 ((isLast_iff t).mp h)) (iblk3 V c 0 t) (iblk3 V c 1 t) (outsAt3 V c (t.val - 1) (Nat.lt_of_le_of_lt (Nat.sub_le _ _) t.isLt)).2,
       accMid c t (fun h => h0 ((isFirst_iff t).mp h)) (fun h => h1 ((isLast_iff t).mp h)) (iblk3 V c 0 t) (iblk3 V c 1 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h1).trans rfl

/-- outsAt3 at the last point. -/
theorem outsAt3_last (c : Dev nD) (t : Fin cfg3.N) (h0 : ¬t.val % 10 = 0) (h1 : t.val % 10 = 9) :
    outsAt3 V c t.val t.isLt =
      (outLast c t (fun h => h0 ((isFirst_iff t).mp h)) ((isLast_iff t).mpr h1) (iblk3 V c 0 t) (iblk3 V c 1 t) (outsAt3 V c (t.val - 1) (Nat.lt_of_le_of_lt (Nat.sub_le _ _) t.isLt)).2,
       accLast c t (fun h => h0 ((isFirst_iff t).mp h)) ((isLast_iff t).mpr h1) (iblk3 V c 0 t) (iblk3 V c 1 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_pos h1).trans rfl

/-- The region invariant before position n: the class's before the first point, afterwards the scratch at what the
    point before left, the other scoped buffers at anything, the generator register at some state. -/
def PhiS3 (c : Dev nD) : (n : ℕ) → n ≤ cfg3.N → sProp 𝕄
  | 0, _ => Pipeline.ΦA spec3 c
  | n + 1, hn => iprop(iprop(owns (c : Thread nD τ) mAcc fullShare ((outsAt3 V c n hn).2) ∗ restScoped c) ∗ (∃ r, prngReg c r))

theorem PhiS3_zero (c : Dev nD) (n : ℕ) (h : n ≤ cfg3.N) (hz : n = 0) : PhiS3 V c n h = Pipeline.ΦA spec3 c := by
  subst hz; rfl

/-- After point n (before point n + 1): the scratch at that point's contents. -/
theorem PhiS3_succ (c : Dev nD) (n : ℕ) (hn : n < cfg3.N) :
    PhiS3 V c (n + 1) hn = iprop(iprop(owns (c : Thread nD τ) mAcc fullShare ((outsAt3 V c n hn).2) ∗ restScoped c) ∗ (∃ r, prngReg c r)) := rfl

/-- Before a point that is not the first: the scratch at what the point before left. -/
theorem PhiS3_pos (c : Dev nD) (n : ℕ) (h : n ≤ cfg3.N) (hz : n ≠ 0) :
    PhiS3 V c n h = iprop(iprop(owns (c : Thread nD τ) mAcc fullShare ((outsAt3 V c (n - 1) (by omega)).2) ∗ restScoped c) ∗ (∃ r, prngReg c r)) := by
  cases n with
  | zero => exact absurd rfl hz
  | succ n => rfl

/-- The proof data of pipeline 3 on core c. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

/-- The invariant at a point's start, restated at the point's number. -/
theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_tile (c : Dev nD) (t : Fin cfg3.N) : (dat3 V c).after 0 t = iblk3 V c 0 t := by dsimp only [dat3]
theorem after3_ids (c : Dev nD) (t : Fin cfg3.N) : (dat3 V c).after 1 t = iblk3 V c 1 t := by dsimp only [dat3]
theorem after3_out (c : Dev nD) (t : Fin cfg3.N) : (dat3 V c).after 2 t = (outsAt3 V c t.val t.isLt).1 := by dsimp only [dat3]

/-- Each input's current staging buffer holds its block at every point, fetched there or not. -/
theorem before3_tile (c : Dev nD) (t : Fin cfg3.N) (d) : (dat3 V c).before 0 t d = iblk3 V c 0 t :=
  ((dat3 V c).before_in_eq_fetched 0 rfl (fun _ => rfl) (fun _ _ _ => rfl)
      (fun t => by rw [after3_tile]; unfold Dat.blockOf iblk3; rw [A_eq3]; try rfl) t d).trans
    (by unfold Dat.fetched Dat.blockOf iblk3; rw [A_eq3]; try rfl)
theorem before3_ids (c : Dev nD) (t : Fin cfg3.N) (d) : (dat3 V c).before 1 t d = iblk3 V c 1 t :=
  ((dat3 V c).before_in_eq_fetched 1 rfl (fun _ => rfl) (fun _ _ _ => rfl)
      (fun t => by rw [after3_ids]; unfold Dat.blockOf iblk3; rw [A_eq3]; try rfl) t d).trans
    (by unfold Dat.fetched Dat.blockOf iblk3; rw [A_eq3]; try rfl)

/-! ## The body obligation, at a generic point -/

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (mTile t) fullShare ((dat3 V c).before 0 t d))
    ∗ (∃ d, owns (c : Thread nD τ) (mIds t) fullShare ((dat3 V c).before 1 t d))
    ∗ (∃ d, owns (c : Thread nD τ) (mOut t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at any point. The inputs' memrefs hold their blocks; the closed forms say which of the three cases the
    point is in; the invariant hands the body the scratch (at anything at the first point, at what the point before left
    afterwards) and takes it back at this point's contents, the other scoped buffers and the generator register passing
    through untouched; away from the last point the output's buffer is handed back as it came; the core owes nothing. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_tile, before3_ids]
  rw [show (dat3 V c).owesAt () t.succ = (dat3 V c).owesAt () t.castSucc from rfl]
  rw [show (dat3 V c).Φ t.succ = PhiS3 V c (t.val + 1) t.isLt from rfl, PhiS3_succ]
  have hN : t.val < 10 := lt_of_lt_of_eq t.isLt (show cfg3.N = 10 from N_3)
  rw [show (dat3 V c).leavesExact 0 t = owns (c : Thread nD τ) (mTile t) fullShare ((dat3 V c).after 0 t) from by
    unfold Dat.leavesExact; rw [live_tile t], after3_tile]
  rw [show (dat3 V c).leavesExact 1 t = owns (c : Thread nD τ) (mIds t) fullShare ((dat3 V c).after 1 t) from by
    unfold Dat.leavesExact; rw [live_ids t], after3_ids]
  by_cases h1 : t.val % 10 = 9
  · have h0 : ¬t.val % 10 = 0 := by omega
    have hz : t.val ≠ 0 := by omega
    rw [show (dat3 V c).leavesExact 2 t = owns (c : Thread nD τ) (mOut t) fullShare ((dat3 V c).after 2 t) from by
      unfold Dat.leavesExact; rw [live_out t ((isLast_iff t).mpr h1)], after3_out]
    rw [outsAt3_last V c t h0 h1]
    unfold outLast accLast; (try dsimp only)
    rw [PhiS3_castSucc V c t, PhiS3_pos V c _ _ hz]
    iintro ⟨⟨⟨HS0, HR⟩, Hg⟩, Ho, ⟨%d0, H0⟩, ⟨%d1, H1⟩, ⟨%d2, H2⟩⟩
    iapply ((runLast c (grid3.coords t) _ _ _ _ _ _ _ _ (fun h => h0 ((isFirst_iff t).mp h)) ((isLast_iff t).mpr h1) (iblk3 V c 0 t) (iblk3 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (accLast_cover c _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (outLast_cover c _ _ _ _ _ _)
  · have hnl : ¬isLast (grid3.coords t) := fun h => h1 ((isLast_iff t).mp h)
    rw [Dat.leavesExact_idle (dat3 V c) 2 t (idle_out t hnl) (noFlush_out t hnl)]
    by_cases h0 : t.val % 10 = 0
    · have hz : t.val = 0 := by omega
      rw [outsAt3_first V c t h0 h1]
      unfold accFirst; (try dsimp only)
      rw [PhiS3_castSucc V c t, PhiS3_zero V c _ _ hz, PhiA_split]
      iintro ⟨⟨⟨HS0, HR⟩, Hg⟩, Ho, ⟨%d0, H0⟩, ⟨%d1, H1⟩, ⟨%d2, H2⟩⟩
      iapply ((runFirst c (grid3.coords t) _ _ _ _ _ _ _ _ ((isFirst_iff t).mpr h0) hnl (iblk3 V c 0 t) (iblk3 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (accFirst_cover c _ _ _ _ _)
          iexact HR
        iexact Hg
      isplitl [Ho]; · iexact Ho
      isplitl [H0]; · iexact H0
      isplitl [H1]; · iexact H1
      iexists _; iexact H2
    · have hz : t.val ≠ 0 := by omega
      rw [outsAt3_mid V c t h0 h1]
      unfold accMid; (try dsimp only)
      rw [PhiS3_castSucc V c t, PhiS3_pos V c _ _ hz]
      iintro ⟨⟨⟨HS0, HR⟩, Hg⟩, Ho, ⟨%d0, H0⟩, ⟨%d1, H1⟩, ⟨%d2, H2⟩⟩
      iapply ((runMid c (grid3.coords t) _ _ _ _ _ _ _ _ (fun h => h0 ((isFirst_iff t).mp h)) hnl (iblk3 V c 0 t) (iblk3 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (accMid_cover c _ _ _ _ _ _)
          iexact HR
        iexact Hg
      isplitl [Ho]; · iexact Ho
      isplitl [H0]; · iexact H0
      isplitl [H1]; · iexact H1
      iexists _; iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- The class's invariant (every scoped buffer no window stages at anything, the generator register) opens the region. -/
theorem hin3 (c : Dev nD) : (Pipeline.ΦA spec3 c : sProp 𝕄) ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the class's back: what the scratch holds is forgotten. -/
theorem Phi3_forget (c : Dev nD) (t : Fin (cfg3.N + 1)) (ht : t.val ≠ 0) : (dat3 V c).Φ t ⊢ (Pipeline.ΦA spec3 c : sProp 𝕄) := by
  rw [show (dat3 V c).Φ t = PhiS3 V c t.val (Nat.le_of_lt_succ t.isLt) from rfl, PhiS3_pos V c _ _ ht, PhiA_split]
  iintro ⟨⟨HS0, HR⟩, Hg⟩
  isplitl [HS0 HR]
  · isplitl [HS0]
    · iexists _; iexact HS0
    iexact HR
  iexact Hg

/-- and is what the last point gives back. -/
theorem hout3 (c : Dev nD) : (dat3 V c).Φ (Fin.last cfg3.N) ⊢ (Pipeline.ΦA spec3 c : sProp 𝕄) :=
  Phi3_forget V c _ (by rw [Fin.val_last]; have : cfg3.N = 10 := N_3; omega)

/-! ## The value: the scratch is the accumulator, and the output array ends holding it -/

/-- What the scratch holds after point n is the accumulator there: by induction on the point, through the cases. -/
theorem scratch_eq_accum (c : Dev nD) : ∀ (n : ℕ) (hn : n < cfg3.N), (outsAt3 V c n hn).2 = accum3 V c n hn
  | 0, hn => by
    rw [outsAt3_first V c ⟨0, hn⟩ (Nat.zero_mod _) (by dsimp only; omega)]
    dsimp only
    exact accFirst_eq c ⟨0, hn⟩ _ _ (iblk3 V c 0 ⟨0, hn⟩) (iblk3 V c 1 ⟨0, hn⟩)
  | n + 1, hn => by
    have hN : cfg3.N = 10 := N_3
    have h0 : ¬(⟨n + 1, hn⟩ : Fin cfg3.N).val % 10 = 0 := by dsimp only; omega
    by_cases h1 : (⟨n + 1, hn⟩ : Fin cfg3.N).val % 10 = 9
    · rw [outsAt3_last V c ⟨n + 1, hn⟩ h0 h1]
      dsimp only
      refine (accLast_eq c ⟨n + 1, hn⟩ _ _ (iblk3 V c 0 ⟨n + 1, hn⟩) (iblk3 V c 1 ⟨n + 1, hn⟩) _).trans ?_
      exact congrArg (k3_pay2 (iblk3 V c 0 ⟨n + 1, hn⟩) (iblk3 V c 1 ⟨n + 1, hn⟩)) (scratch_eq_accum c n (Nat.lt_of_succ_lt hn))
    · rw [outsAt3_mid V c ⟨n + 1, hn⟩ h0 h1]
      dsimp only
      refine (accMid_eq c ⟨n + 1, hn⟩ _ _ (iblk3 V c 0 ⟨n + 1, hn⟩) (iblk3 V c 1 ⟨n + 1, hn⟩) _).trans ?_
      exact congrArg (k3_pay2 (iblk3 V c 0 ⟨n + 1, hn⟩) (iblk3 V c 1 ⟨n + 1, hn⟩)) (scratch_eq_accum c n (Nat.lt_of_succ_lt hn))

/-- At the last point the output's buffer is left at the accumulator too (it is stored from the scratch). -/
theorem out_eq_accum (c : Dev nD) : ∀ (n : ℕ) (hn : n < cfg3.N), n % 10 = 9 → (outsAt3 V c n hn).1 = accum3 V c n hn
  | 0, _, h => absurd h (by decide)
  | n + 1, hn, h1 => by
    have hN : cfg3.N = 10 := N_3
    have h0 : ¬(⟨n + 1, hn⟩ : Fin cfg3.N).val % 10 = 0 := by dsimp only; omega
    rw [outsAt3_last V c ⟨n + 1, hn⟩ h0 h1]
    dsimp only
    refine (outLast_eq c ⟨n + 1, hn⟩ _ _ (iblk3 V c 0 ⟨n + 1, hn⟩) (iblk3 V c 1 ⟨n + 1, hn⟩) _).trans ?_
    exact congrArg (k3_pay2 (iblk3 V c 0 ⟨n + 1, hn⟩) (iblk3 V c 1 ⟨n + 1, hn⟩)) (scratch_eq_accum V c n (Nat.lt_of_succ_lt hn))

/-- The one write-back, at point 9, writes the accumulator: the output window's block is its whole 64x64 array. -/
theorem flushed_out (c : Dev nD) (t : Fin cfg3.N) (hf : (cfg3.win 2).flush t = true) :
    (dat3 V c).flushed 2 t = ((cfg3.win 2).blk t).view.read (Elt F) (accum3 V c 9 (by decide)) := by
  have hN : cfg3.N = 10 := N_3
  have h9 : t.val = 9 := by have := (flush3_2 t).mp hf; have := t.isLt; omega
  obtain rfl : t = t3_9 := Fin.ext h9
  show (cfg3.win 2).cut (grid3.coords t3_9) ((dat3 V c).after 2 t3_9) = _
  rw [after3_out, out_eq_accum V c _ _ (by decide)]
  have hz' : (fun a => win3_2.index t3_9 a * main_v56.ty.shape.size a) = fun _ => 0 := funext fun a => by fin_cases a <;> decide
  exact (Memref.read_access_unit_zero (Elt F) main_v56 hz' (fun a => by rw [congrFun hz' a]; simp) (accum3 V c 9 (by decide))).symm

/-- THE VALUE of the region: after the run its output array holds the accumulator as the last grid point left it
    (the output window's one block is written back once, at the last point, from the scratch). -/
theorem arr3_2 (c : Dev nD) : (dat3 V c).arrAt 2 cfg3.N = accum3 V c 9 (by decide) :=
  (dat3 V c).arrAt_eq_of_cover 2 (accum3 V c 9 (by decide)) (flushed_out V c) fun i =>
    ⟨t3_9, (flush3_2 t3_9).mpr rfl, by
      show i ∈ ((View.whole main_v56).slice (win3_2.rect t3_9)).set
      rw [View.set_slice_whole, Rect.mem_set_unit]
      intro a
      have hr : (i 0 : Nat) < 64 := (i 0).isLt
      have hc : (i 1 : Nat) < 64 := (i 1).isLt
      match a with
      | ⟨0, _⟩ =>
        show win3_2.index t3_9 0 * win3_2.size 0 ≤ (i 0 : Nat) ∧ (i 0 : Nat) < win3_2.index t3_9 0 * win3_2.size 0 + win3_2.xsize (grid3.coords t3_9) 0
        rw [show win3_2.index t3_9 0 * win3_2.size 0 = 0 from by decide +kernel, show win3_2.xsize (grid3.coords t3_9) 0 = 64 from by decide +kernel]; omega
      | ⟨1, _⟩ =>
        show win3_2.index t3_9 1 * win3_2.size 1 ≤ (i 1 : Nat) ∧ (i 1 : Nat) < win3_2.index t3_9 1 * win3_2.size 1 + win3_2.xsize (grid3.coords t3_9) 1
        rw [show win3_2.index t3_9 1 * win3_2.size 1 = 0 from by decide +kernel, show win3_2.xsize (grid3.coords t3_9) 1 = 64 from by decide +kernel]; omega⟩

end

end Cert.KernelIdeal.Readout

end
-- ==== Proof.MainRun.lean ====
/-
  THE RUN of the idealized kernel's @main, at any float instance: a stretch of host operations, the first layer's region,
  a stretch, the second layer's region, a stretch, the third layer's region, a reshape of the batch ids, the readout's
  region. Between two items every unscoped buffer of the core is held at named contents: the launch memory, then
  each host stretch applied, then each region's output array replaced by what its write-backs leave. Every weakly fair
  execution terminates, and at the end every unscoped buffer holds the last of these contents: the arguments are as
  launched (no stretch writes one, no region's output is one), and the result is the readout region's output array.
-/
import proofs.«418230_j2070174236742_2_alg».proof.Proof.Gen.KernelIdeal.Launch
import proofs.«418230_j2070174236742_2_alg».proof.Proof.Gen.KernelIdeal.Skeleton
import proofs.«418230_j2070174236742_2_alg».proof.Proof.Gen.KernelIdeal.Points
import proofs.«418230_j2070174236742_2_alg».proof.Proof.Gen.KernelIdeal.Regions
import proofs.«418230_j2070174236742_2_alg».proof.Proof.SageRegion0
import proofs.«418230_j2070174236742_2_alg».proof.Proof.SageRegion1
import proofs.«418230_j2070174236742_2_alg».proof.Proof.SageRegion2
import proofs.«418230_j2070174236742_2_alg».proof.Proof.ReadoutRegion
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

open Cert.KernelIdeal.Sage0 Cert.KernelIdeal.Sage1 Cert.KernelIdeal.Sage2 Cert.KernelIdeal.Readout

variable (m : (ℓ : Loc nD τ sig) → Buf (Elt F) ℓ) (ρ : Dev nD → PrngReg)

/-! ## The buffers' contents between items -/

/-- Core c's buffers at launch. -/
abbrev W0 : Dev nD → Valuation τ sig (Elt F) := fun c b => m (c, b)
/-- After the first host stretch (the degrees, their reciprocals, the first neighbour mean, the bias as a row). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- After region 0: its output array at what the pipeline's write-backs leave, every other buffer as the region found it. -/
def W2 (c : Dev nD) : Valuation τ sig (Elt F) :=
  Function.update (W1 m c) (Proc.devRef .tc main_v26)
    (show Buf (Elt F) ((c : Thread nD τ).loc main_v26) from (dat0 (V1 m) c).arrAt 5 cfg0.N)
abbrev V2 : (c : Dev nD) → (b : Ref sig .tc) → Buf (Elt F) ((c : Thread nD τ).loc b) := fun c b => W2 m c b
theorem W2_out (c : Dev nD) : W2 m c main_v26 = (dat0 (V1 m) c).arrAt 5 cfg0.N := by
  unfold W2; exact Function.update_self ..
theorem W2_keep (c : Dev nD) (r : Ref sig .tc) (h : r ≠ main_v26) : W2 m c r = W1 m c r := by
  unfold W2; exact Function.update_of_ne (StableHlo.devRef_ne_of_ne h) _ _
/-- At the region's exit each of its arrays holds what the pipeline leaves: an input's array is as entered, the output's
    is the write-backs' fold. -/
theorem hF0 (c : Dev nD) : ∀ w : Fin cfg0.W, (dat0 (V1 m) c).arrAt w cfg0.N = V2 m c (Pipeline.arrRef spec0 w)
  | ⟨0, _⟩ => (((dat0 (V1 m) c).arrAt_in 0 rfl _).trans (A_eq0 (V1 m) c 0)).trans (W2_keep m c main_v24 (by decide)).symm
  | ⟨1, _⟩ => (((dat0 (V1 m) c).arrAt_in 1 rfl _).trans (A_eq0 (V1 m) c 1)).trans (W2_keep m c main_arg0 (by decide)).symm
  | ⟨2, _⟩ => (((dat0 (V1 m) c).arrAt_in 2 rfl _).trans (A_eq0 (V1 m) c 2)).trans (W2_keep m c main_arg3 (by decide)).symm
  | ⟨3, _⟩ => (((dat0 (V1 m) c).arrAt_in 3 rfl _).trans (A_eq0 (V1 m) c 3)).trans (W2_keep m c main_v25 (by decide)).symm
  | ⟨4, _⟩ => (((dat0 (V1 m) c).arrAt_in 4 rfl _).trans (A_eq0 (V1 m) c 4)).trans (W2_keep m c main_arg5 (by decide)).symm
  | ⟨5, _⟩ => (W2_out m c).symm
/-- Every buffer that is no array of the region is as entered. -/
theorem hrest0 (c : Dev nD) : ∀ b, b ∉ Finset.univ.image (Pipeline.arrRef spec0) → V2 m c b = V1 m c b :=
  fun b hb => W2_keep m c b fun e => hb (Finset.mem_image.mpr ⟨5, Finset.mem_univ _, e.symm⟩)

/-- After the second host stretch (the second neighbour mean). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b

/-- After region 1: its output array at what the pipeline's write-backs leave, every other buffer as the region found it. -/
def W4 (c : Dev nD) : Valuation τ sig (Elt F) :=
  Function.update (W3 m c) (Proc.devRef .tc main_v40)
    (show Buf (Elt F) ((c : Thread nD τ).loc main_v40) from (dat1 (V3 m) c).arrAt 5 cfg1.N)
abbrev V4 : (c : Dev nD) → (b : Ref sig .tc) → Buf (Elt F) ((c : Thread nD τ).loc b) := fun c b => W4 m c b
theorem W4_out (c : Dev nD) : W4 m c main_v40 = (dat1 (V3 m) c).arrAt 5 cfg1.N := by
  unfold W4; exact Function.update_self ..
theorem W4_keep (c : Dev nD) (r : Ref sig .tc) (h : r ≠ main_v40) : W4 m c r = W3 m c r := by
  unfold W4; exact Function.update_of_ne (StableHlo.devRef_ne_of_ne h) _ _
/-- At the region's exit each of its arrays holds what the pipeline leaves: an input's array is as entered, the output's
    is the write-backs' fold. -/
theorem hF1 (c : Dev nD) : ∀ w : Fin cfg1.W, (dat1 (V3 m) c).arrAt w cfg1.N = V4 m c (Pipeline.arrRef spec1 w)
  | ⟨0, _⟩ => (((dat1 (V3 m) c).arrAt_in 0 rfl _).trans (A_eq1 (V3 m) c 0)).trans (W4_keep m c main_v38 (by decide)).symm
  | ⟨1, _⟩ => (((dat1 (V3 m) c).arrAt_in 1 rfl _).trans (A_eq1 (V3 m) c 1)).trans (W4_keep m c main_v26 (by decide)).symm
  | ⟨2, _⟩ => (((dat1 (V3 m) c).arrAt_in 2 rfl _).trans (A_eq1 (V3 m) c 2)).trans (W4_keep m c main_arg6 (by decide)).symm
  | ⟨3, _⟩ => (((dat1 (V3 m) c).arrAt_in 3 rfl _).trans (A_eq1 (V3 m) c 3)).trans (W4_keep m c main_v39 (by decide)).symm
  | ⟨4, _⟩ => (((dat1 (V3 m) c).arrAt_in 4 rfl _).trans (A_eq1 (V3 m) c 4)).trans (W4_keep m c main_arg8 (by decide)).symm
  | ⟨5, _⟩ => (W4_out m c).symm
/-- Every buffer that is no array of the region is as entered. -/
theorem hrest1 (c : Dev nD) : ∀ b, b ∉ Finset.univ.image (Pipeline.arrRef spec1) → V4 m c b = V3 m c b :=
  fun b hb => W4_keep m c b fun e => hb (Finset.mem_image.mpr ⟨5, Finset.mem_univ _, e.symm⟩)

/-- After the third host stretch (the third neighbour mean). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b

/-- After region 2: its output array at what the pipeline's write-backs leave, every other buffer as the region found it. -/
def W6 (c : Dev nD) : Valuation τ sig (Elt F) :=
  Function.update (W5 m c) (Proc.devRef .tc main_v54)
    (show Buf (Elt F) ((c : Thread nD τ).loc main_v54) from (dat2 (V5 m) c).arrAt 5 cfg2.N)
abbrev V6 : (c : Dev nD) → (b : Ref sig .tc) → Buf (Elt F) ((c : Thread nD τ).loc b) := fun c b => W6 m c b
theorem W6_out (c : Dev nD) : W6 m c main_v54 = (dat2 (V5 m) c).arrAt 5 cfg2.N := by
  unfold W6; exact Function.update_self ..
theorem W6_keep (c : Dev nD) (r : Ref sig .tc) (h : r ≠ main_v54) : W6 m c r = W5 m c r := by
  unfold W6; exact Function.update_of_ne (StableHlo.devRef_ne_of_ne h) _ _
/-- At the region's exit each of its arrays holds what the pipeline leaves: an input's array is as entered, the output's
    is the write-backs' fold. -/
theorem hF2 (c : Dev nD) : ∀ w : Fin cfg2.W, (dat2 (V5 m) c).arrAt w cfg2.N = V6 m c (Pipeline.arrRef spec2 w)
  | ⟨0, _⟩ => (((dat2 (V5 m) c).arrAt_in 0 rfl _).trans (A_eq2 (V5 m) c 0)).trans (W6_keep m c main_v52 (by decide)).symm
  | ⟨1, _⟩ => (((dat2 (V5 m) c).arrAt_in 1 rfl _).trans (A_eq2 (V5 m) c 1)).trans (W6_keep m c main_v40 (by decide)).symm
  | ⟨2, _⟩ => (((dat2 (V5 m) c).arrAt_in 2 rfl _).trans (A_eq2 (V5 m) c 2)).trans (W6_keep m c main_arg9 (by decide)).symm
  | ⟨3, _⟩ => (((dat2 (V5 m) c).arrAt_in 3 rfl _).trans (A_eq2 (V5 m) c 3)).trans (W6_keep m c main_v53 (by decide)).symm
  | ⟨4, _⟩ => (((dat2 (V5 m) c).arrAt_in 4 rfl _).trans (A_eq2 (V5 m) c 4)).trans (W6_keep m c main_arg11 (by decide)).symm
  | ⟨5, _⟩ => (W6_out m c).symm
/-- Every buffer that is no array of the region is as entered. -/
theorem hrest2 (c : Dev nD) : ∀ b, b ∉ Finset.univ.image (Pipeline.arrRef spec2) → V6 m c b = V5 m c b :=
  fun b hb => W6_keep m c b fun e => hb (Finset.mem_image.mpr ⟨5, Finset.mem_univ _, e.symm⟩)

/-- After the last host stretch (the batch ids as a column). -/
abbrev W7 : Dev nD → Valuation τ sig (Elt F) := fun c => StableHlo.after hostOps3 (W6 m c)
abbrev V7 : (c : Dev nD) → (b : Ref sig .tc) → Buf (Elt F) ((c : Thread nD τ).loc b) := fun c b => W7 m c b

/-- After region 3: its output array at what the pipeline's write-backs leave, every other buffer as the region found it. -/
def W8 (c : Dev nD) : Valuation τ sig (Elt F) :=
  Function.update (W7 m c) (Proc.devRef .tc main_v56)
    (show Buf (Elt F) ((c : Thread nD τ).loc main_v56) from (dat3 (V7 m) c).arrAt 2 cfg3.N)
abbrev V8 : (c : Dev nD) → (b : Ref sig .tc) → Buf (Elt F) ((c : Thread nD τ).loc b) := fun c b => W8 m c b
theorem W8_out (c : Dev nD) : W8 m c main_v56 = (dat3 (V7 m) c).arrAt 2 cfg3.N := by
  unfold W8; exact Function.update_self ..
theorem W8_keep (c : Dev nD) (r : Ref sig .tc) (h : r ≠ main_v56) : W8 m c r = W7 m c r := by
  unfold W8; exact Function.update_of_ne (StableHlo.devRef_ne_of_ne h) _ _
/-- At the region's exit each of its arrays holds what the pipeline leaves: an input's array is as entered, the output's
    is the write-backs' fold. -/
theorem hF3 (c : Dev nD) : ∀ w : Fin cfg3.W, (dat3 (V7 m) c).arrAt w cfg3.N = V8 m c (Pipeline.arrRef spec3 w)
  | ⟨0, _⟩ => (((dat3 (V7 m) c).arrAt_in 0 rfl _).trans (A_eq3 (V7 m) c 0)).trans (W8_keep m c main_v54 (by decide)).symm
  | ⟨1, _⟩ => (((dat3 (V7 m) c).arrAt_in 1 rfl _).trans (A_eq3 (V7 m) c 1)).trans (W8_keep m c main_v55 (by decide)).symm
  | ⟨2, _⟩ => (W8_out m c).symm
/-- Every buffer that is no array of the region is as entered. -/
theorem hrest3 (c : Dev nD) : ∀ b, b ∉ Finset.univ.image (Pipeline.arrRef spec3) → V8 m c b = V7 m c b :=
  fun b hb => W8_keep m c b fun e => hb (Finset.mem_image.mpr ⟨2, Finset.mem_univ _, e.symm⟩)

/-! ## A buffer no item writes ends as launched -/

theorem W8_of (c : Dev nD) (r : Ref sig .tc) (h0 : r ∉ hostOps0_W) (h1 : r ∉ hostOps1_W) (h2 : r ∉ hostOps2_W) (h3 : r ∉ hostOps3_W)
    (e0 : r ≠ main_v26) (e1 : r ≠ main_v40) (e2 : r ≠ main_v54) (e3 : r ≠ main_v56) :
    W8 m c r = m ((c : Thread nD τ).loc r) :=
  calc W8 m c r
    _ = W7 m c r := W8_keep m c r e3
    _ = W6 m c r := StableHlo.after_of_writes_sub hostOps3 _ hostOps3_writes h3
    _ = W5 m c r := W6_keep m c r e2
    _ = W4 m c r := StableHlo.after_of_writes_sub hostOps2 _ hostOps2_writes h2
    _ = W3 m c r := W4_keep m c r e1
    _ = W2 m c r := StableHlo.after_of_writes_sub hostOps1 _ hostOps1_writes h1
    _ = W1 m c r := W2_keep m c r e0
    _ = W0 m c r := StableHlo.after_of_writes_sub hostOps0 _ hostOps0_writes h0
    _ = m ((c : Thread nD τ).loc r) := rfl

/-! ## The proof data family and the thread state -/

/-- No kernel call has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)
/-- A host stretch as a segment, from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes. -/
abbrev Tₙ (c : Dev nD) : sProp 𝕄 := iprop(StableHlo.held (c : Thread nD τ) (Pipeline.ucRefs τ sig) (W8 m c) ∗ ∃ r, prngReg c r)

/-! ## The regions as segments -/

set_option backward.isDefEq.respectTransparency.types false in
/-- Region 0 over the thread state: entered with every unscoped buffer at the contents before it, left with them at the
    contents after it; its arrays are split out of the unscoped buffers and put back at their exit contents; the
    generator register goes into the region's invariant and comes back; nothing is owed; the kernel has no semaphore
    of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with them at the
    contents after it; its arrays are split out of the unscoped buffers and put back at their exit contents; the
    generator register goes into the region's invariant and comes back; nothing is owed; the kernel has no semaphore
    of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the contents before it, left with them at the
    contents after it; its arrays are split out of the unscoped buffers and put back at their exit contents; the
    generator register goes into the region's invariant and comes back; nothing is owed; the kernel has no semaphore
    of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at the contents before it, left with them at the
    contents after it; its arrays are split out of the unscoped buffers and put back at their exit contents; the
    generator register goes into the region's invariant and comes back; nothing is owed; the kernel has no semaphore
    of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show _ ⊢ (Pipeline.ΦA spec3 c : sProp 𝕄) from by
      unfold Pipeline.ΦA
      iintro ⟨Hp, -, Hr⟩
      isplitl [Hr]; · iexact Hr
      iexact Hp).trans (hin3 (V7 m) c)
  hout c := (hout3 (V7 m) c).trans (show (Pipeline.ΦA spec3 c : sProp 𝕄) ⊢ _ from by
      rw [Pipeline.ownSems0_none]; unfold Pipeline.ΦA
      iintro ⟨Hr, Hp⟩
      isplitl [Hp]; · iexact Hp
      isplitr; · iempintro
      iexact Hr)
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V7 m c) (V8 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m) ]
/-- @main IS the run of the segments. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and in
    every final state each unscoped buffer of each core holds the last contents named above. -/
theorem run_main : θ_run defs (onTc (τ := τ) (main (F := F))) ⟨m, fun _ => 0, ρ⟩ (fun r => ∀ c : Dev nD,
      ∀ b : Ref sig .tc, ¬ (Proc.devRef .tc b : DevRef τ sig).isScoped → r.2.mem ((c.tc : Thread nD τ).loc b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c b hb => h c _ (mem_uc b hb))

/-! ## The arguments end as launched -/

theorem W8_main_arg0 (c : Dev nD) : W8 m c main_arg0 = m ((c : Thread nD τ).loc main_arg0) :=
  W8_of m c main_arg0 (by decide) (by decide) (by decide) (by decide) (by decide) (by decide) (by decide) (by decide)
theorem W8_main_arg1 (c : Dev nD) : W8 m c main_arg1 = m ((c : Thread nD τ).loc main_arg1) :=
  W8_of m c main_arg1 (by decide) (by decide) (by decide) (by decide) (by decide) (by decide) (by decide) (by decide)
theorem W8_main_arg2 (c : Dev nD) : W8 m c main_arg2 = m ((c : Thread nD τ).loc main_arg2) :=
  W8_of m c main_arg2 (by decide) (by decide) (by decide) (by decide) (by decide) (by decide) (by decide) (by decide)
theorem W8_main_arg3 (c : Dev nD) : W8 m c main_arg3 = m ((c : Thread nD τ).loc main_arg3) :=
  W8_of m c main_arg3 (by decide) (by decide) (by decide) (by decide) (by decide) (by decide) (by decide) (by decide)
theorem W8_main_arg4 (c : Dev nD) : W8 m c main_arg4 = m ((c : Thread nD τ).loc main_arg4) :=
  W8_of m c main_arg4 (by decide) (by decide) (by decide) (by decide) (by decide) (by decide) (by decide) (by decide)
theorem W8_main_arg5 (c : Dev nD) : W8 m c main_arg5 = m ((c : Thread nD τ).loc main_arg5) :=
  W8_of m c main_arg5 (by decide) (by decide) (by decide) (by decide) (by decide) (by decide) (by decide) (by decide)
theorem W8_main_arg6 (c : Dev nD) : W8 m c main_arg6 = m ((c : Thread nD τ).loc main_arg6) :=
  W8_of m c main_arg6 (by decide) (by decide) (by decide) (by decide) (by decide) (by decide) (by decide) (by decide)
theorem W8_main_arg7 (c : Dev nD) : W8 m c main_arg7 = m ((c : Thread nD τ).loc main_arg7) :=
  W8_of m c main_arg7 (by decide) (by decide) (by decide) (by decide) (by decide) (by decide) (by decide) (by decide)
theorem W8_main_arg8 (c : Dev nD) : W8 m c main_arg8 = m ((c : Thread nD τ).loc main_arg8) :=
  W8_of m c main_arg8 (by decide) (by decide) (by decide) (by decide) (by decide) (by decide) (by decide) (by decide)
theorem W8_main_arg9 (c : Dev nD) : W8 m c main_arg9 = m ((c : Thread nD τ).loc main_arg9) :=
  W8_of m c main_arg9 (by decide) (by decide) (by decide) (by decide) (by decide) (by decide) (by decide) (by decide)
theorem W8_main_arg10 (c : Dev nD) : W8 m c main_arg10 = m ((c : Thread nD τ).loc main_arg10) :=
  W8_of m c main_arg10 (by decide) (by decide) (by decide) (by decide) (by decide) (by decide) (by decide) (by decide)
theorem W8_main_arg11 (c : Dev nD) : W8 m c main_arg11 = m ((c : Thread nD τ).loc main_arg11) :=
  W8_of m c main_arg11 (by decide) (by decide) (by decide) (by decide) (by decide) (by decide) (by decide) (by decide)

/-- THE FRAME: every weakly fair execution terminates, nothing faulting, and every argument array ends as launched. -/
theorem frame_run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c main_arg0 (by decide)).trans (W8_main_arg0 m c),
      (h c main_arg1 (by decide)).trans (W8_main_arg1 m c),
      (h c main_arg2 (by decide)).trans (W8_main_arg2 m c),
      (h c main_arg3 (by decide)).trans (W8_main_arg3 m c),
      (h c main_arg4 (by decide)).trans (W8_main_arg4 m c),
      (h c main_arg5 (by decide)).trans (W8_main_arg5 m c),
      (h c main_arg6 (by decide)).trans (W8_main_arg6 m c),
      (h c main_arg7 (by decide)).trans (W8_main_arg7 m c),
      (h c main_arg8 (by decide)).trans (W8_main_arg8 m c),
      (h c main_arg9 (by decide)).trans (W8_main_arg9 m c),
      (h c main_arg10 (by decide)).trans (W8_main_arg10 m c),
      (h c main_arg11 (by decide)).trans (W8_main_arg11 m c)⟩) (run_main m ρ)

/-- THE VALUE: beside the frame, the result buffer ends at the last contents named for it. -/
theorem value_run : θ_run defs (onTc (τ := τ) (main (F := F))) ⟨m, fun _ => 0, ρ⟩ (fun r => ∀ c : Dev nD,
      r.2.mem ((c.tc : Thread nD τ).loc main_v56) = W8 m c main_v56
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨h c main_v56 (by decide),
      (h c main_arg0 (by decide)).trans (W8_main_arg0 m c),
      (h c main_arg1 (by decide)).trans (W8_main_arg1 m c),
      (h c main_arg2 (by decide)).trans (W8_main_arg2 m c),
      (h c main_arg3 (by decide)).trans (W8_main_arg3 m c),
      (h c main_arg4 (by decide)).trans (W8_main_arg4 m c),
      (h c main_arg5 (by decide)).trans (W8_main_arg5 m c),
      (h c main_arg6 (by decide)).trans (W8_main_arg6 m c),
      (h c main_arg7 (by decide)).trans (W8_main_arg7 m c),
      (h c main_arg8 (by decide)).trans (W8_main_arg8 m c),
      (h c main_arg9 (by decide)).trans (W8_main_arg9 m c),
      (h c main_arg10 (by decide)).trans (W8_main_arg10 m c),
      (h c main_arg11 (by decide)).trans (W8_main_arg11 m c)⟩) (run_main m ρ)

end Cert.KernelIdeal.Run

end
-- ==== Proof.KernelTerms.lean ====
/-
  The idealized kernel's host stretches, written as small functions of whole arrays, at any float instance: the edge
  list's source and destination rows, the wrapped source indices, the neighbour sum, the reciprocal of the clamped
  degree, the neighbour mean as the sum TIMES that reciprocal, the bias as a one-row array, the batch ids as a column.
-/
import proofs.«418230_j2070174236742_2_alg».proof.Proof.Gen.KernelIdeal

noncomputable section

namespace Cert.KernelIdeal.Terms

open Cert.KernelIdeal Cert.KernelIdeal.Gen Idealize.ShloMosaic

variable {F : FTy → Type} [FloatOps F]

abbrev TF (s : Shape) : Type := (⟨s, .f32⟩ : BufTy).Contents (Elt F)
abbrev TI (s : Shape) : Type := (⟨s, .i32⟩ : BufTy).Contents (Elt F)

/-- Row 0 of the edge list: the source node of each edge. -/
def src (ei : TI (F := F) S2x1600000) : TI (F := F) S1600000 :=
  shapeCast _ (extractStridedSlice S1x1600000 ![0, 0] ei slices_S2x1600000_S1x1600000_0_0) shapeCasts_S1x1600000_S1600000
/-- Row 1 of the edge list: the destination node of each edge. -/
def dst (ei : TI (F := F) S2x1600000) : TI (F := F) S1600000 :=
  shapeCast _ (extractStridedSlice S1x1600000 ![1, 0] ei slices_S2x1600000_S1x1600000_1_0) shapeCasts_S1x1600000_S1600000
/-- The source indices as the gather reads them, from the source row s: a negative index counted from the end. -/
def wrap (s : TI (F := F) S1600000) : TI (F := F) S1600000x1 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)
/-- The destination indices as the scatters read them, from the destination row. -/
def col (t : TI (F := F) S1600000) : TI (F := F) S1600000x1 :=
  broadcastInDim S1600000x1 ![0] bcast_S1600000_S1600000x1_0 t
/-- The neighbour sum from the source and destination rows. -/
def msgOf (h : TF (F := F) S100000x64) (s t : TI (F := F) S1600000) : TF (F := F) S100000x64 :=
  Host.scatterAdd scatter_S100000x64_S1600000x1_S1600000x64_1_0_0_1
    (broadcastInDim S100000x64 ![] bcast_S_S100000x64 (constant S_ .f32 0x00000000#32)) (col t)
    (Host.gather gather_S100000x64_S1600000x1_S1600000x64_1_0_n_n_0_1_164 h (wrap s))
/-- The in-degree of each node, at least one, from the destination row. -/
def degcOf (t : TI (F := F) S1600000) : TF (F := F) S100000 :=
  maximumf (Host.scatterAdd scatter_S100000_S1600000x1_S1600000_n_0_0_1
      (broadcastInDim S100000 ![] bcast_S_S100000 (constant S_ .f32 0x00000000#32)) (col t)
      (broadcastInDim S1600000 ![] bcast_S_S1600000 (constant S_ .f32 0x3F800000#32)))
    (broadcastInDim S100000 ![] bcast_S_S100000 (constant S_ .f32 0x3F800000#32))
/-- One over the clamped degree, as a column. -/
def invDegOf (t : TI (F := F) S1600000) : TF (F := F) S100000x1 :=
  broadcastInDim S100000x1 ![0] bcast_S100000_S100000x1_0
    (Host.divf (broadcastInDim S100000 ![] bcast_S_S100000 (constant S_ .f32 0x3F800000#32)) (degcOf t))
/-- The neighbour mean as the kernel's program computes it: the neighbour sum times the reciprocal column. -/
def meanOf (h : TF (F := F) S100000x64) (s t : TI (F := F) S1600000) (r : TF (F := F) S100000x1) : TF (F := F) S100000x64 :=
  mulf (msgOf h s t) (broadcastInDim S100000x64 ![0, 1] bcast_S100000x1_S100000x64_0_1 r)
/-- The bias as a one-row array. -/
def biasRow (bl : TF (F := F) S64) : TF (F := F) S1x64 := shapeCast _ bl shapeCasts_S64_S1x64
/-- The batch ids as a column. -/
def batchCol (b : TI (F := F) S100000) : TI (F := F) S100000x1 := shapeCast _ b shapeCasts_S100000_S100000x1

end Cert.KernelIdeal.Terms

end
-- ==== Proof.KernelWalk.lean ====
/-
  What the kernel's regions are handed and what its host stretches compute, as functions of the launch memory, at any
  float instance: each stretch's results are the small functions of Terms applied to what the stretch found, and a
  buffer that a stretch does not write, and that is no region's output, is found as it was left.
-/
import proofs.«418230_j2070174236742_2_alg».proof.Proof.MainRun
import proofs.«418230_j2070174236742_2_alg».proof.Proof.KernelTerms
import Idealize.ShloMosaic.Lib.StableHlo.Run

set_option maxRecDepth 16384

noncomputable section

namespace Cert.KernelIdeal.Run

open Cert.KernelIdeal Cert.KernelIdeal.Gen Cert.KernelIdeal.Terms
open Cert.KernelIdeal.Sage0 Cert.KernelIdeal.Sage1 Cert.KernelIdeal.Sage2 Cert.KernelIdeal.Readout
open Idealize.ShloMosaic Idealize.ShloMosaic.TcCoe Idealize.SL.Sem Idealize.ShloMosaic.StableHlo

variable {F : FTy → Type} [FloatOps F]
variable (m : (ℓ : Loc nD τ sig) → Buf (Elt F) ℓ)

/-! ## What a stretch leaves alone -/

theorem W1_keep (c : Dev nD) (r : Ref sig .tc) (h : r ∉ hostOps0_W) : W1 m c r = m ((c : Thread nD τ).loc r) :=
  StableHlo.after_of_writes_sub hostOps0 _ hostOps0_writes h
theorem W3_keep (c : Dev nD) (r : Ref sig .tc) (h : r ∉ hostOps1_W) : W3 m c r = W2 m c r :=
  StableHlo.after_of_writes_sub hostOps1 _ hostOps1_writes h
theorem W5_keep (c : Dev nD) (r : Ref sig .tc) (h : r ∉ hostOps2_W) : W5 m c r = W4 m c r :=
  StableHlo.after_of_writes_sub hostOps2 _ hostOps2_writes h
theorem W7_keep (c : Dev nD) (r : Ref sig .tc) (h : r ∉ hostOps3_W) : W7 m c r = W6 m c r :=
  StableHlo.after_of_writes_sub hostOps3 _ hostOps3_writes h

/-- A buffer only the first stretch writes is found by the second region's stretch as the first stretch left it, -/
theorem W2_first (c : Dev nD) (r : Ref sig .tc) (e0 : r ≠ main_v26) : W2 m c r = W1 m c r := W2_keep m c r e0
/-- by the third region's stretch too, -/
theorem W4_first (c : Dev nD) (r : Ref sig .tc) (e0 : r ≠ main_v26) (h1 : r ∉ hostOps1_W) (e1 : r ≠ main_v40) : W4 m c r = W1 m c r :=
  (W4_keep m c r e1).trans ((W3_keep m c r h1).trans (W2_keep m c r e0))
/-- and by the last. -/
theorem W6_first (c : Dev nD) (r : Ref sig .tc) (e0 : r ≠ main_v26) (h1 : r ∉ hostOps1_W) (e1 : r ≠ main_v40)
    (h2 : r ∉ hostOps2_W) (e2 : r ≠ main_v54) : W6 m c r = W1 m c r :=
  (W6_keep m c r e2).trans ((W5_keep m c r h2).trans (W4_first m c r e0 h1 e1))

/-! ## The first stretch -/

theorem V1_src (c : Dev nD) : V1 m c main_v1 = src (m ((c : Thread nD τ).loc main_arg1)) := by
  show StableHlo.after hostOps0 (W0 m c) (Proc.devRef .tc main_v1) = _
  after_results; rfl
theorem V1_dst (c : Dev nD) : V1 m c main_v3 = dst (m ((c : Thread nD τ).loc main_arg1)) := by
  show StableHlo.after hostOps0 (W0 m c) (Proc.devRef .tc main_v3) = _
  after_results; rfl
theorem V1_inv (c : Dev nD) : V1 m c main_v12 = invDegOf (dst (m ((c : Thread nD τ).loc main_arg1))) := by
  show StableHlo.after hostOps0 (W0 m c) (Proc.devRef .tc main_v12) = _
  after_results; rfl
set_option maxHeartbeats 4000000 in
theorem V1_mean (c : Dev nD) : V1 m c main_v24 = meanOf (m ((c : Thread nD τ).loc main_arg0)) (src (m ((c : Thread nD τ).loc main_arg1)))
    (dst (m ((c : Thread nD τ).loc main_arg1))) (invDegOf (dst (m ((c : Thread nD τ).loc main_arg1)))) := by
  show StableHlo.after hostOps0 (W0 m c) (Proc.devRef .tc main_v24) = _
  after_results_simp <;> rfl
theorem V1_bias (c : Dev nD) : V1 m c main_v25 = biasRow (m ((c : Thread nD τ).loc main_arg4)) := by
  show StableHlo.after hostOps0 (W0 m c) (Proc.devRef .tc main_v25) = _
  after_results; rfl

/-! ## The later stretches, from any contents W -/

theorem stretch1_mean (W : Valuation τ sig (Elt F)) :
    StableHlo.after hostOps1 W (Proc.devRef .tc main_v38) = meanOf (W main_v26) (W main_v1) (W main_v3) (W main_v12) := by
  after_results; rfl
theorem stretch1_bias (W : Valuation τ sig (Elt F)) :
    StableHlo.after hostOps1 W (Proc.devRef .tc main_v39) = biasRow (W main_arg7) := by
  after_results; rfl
theorem stretch2_mean (W : Valuation τ sig (Elt F)) :
    StableHlo.after hostOps2 W (Proc.devRef .tc main_v52) = meanOf (W main_v40) (W main_v1) (W main_v3) (W main_v12) := by
  after_results; rfl
theorem stretch2_bias (W : Valuation τ sig (Elt F)) :
    StableHlo.after hostOps2 W (Proc.devRef .tc main_v53) = biasRow (W main_arg10) := by
  after_results; rfl
theorem stretch3_batch (W : Valuation τ sig (Elt F)) :
    StableHlo.after hostOps3 W (Proc.devRef .tc main_v55) = batchCol (W main_arg2) := by
  after_results; rfl

/-! ## The second stretch -/

theorem V3_mean_raw (c : Dev nD) : V3 m c main_v38 = meanOf (V2 m c main_v26) (V2 m c main_v1) (V2 m c main_v3) (V2 m c main_v12) :=
  stretch1_mean (W2 m c)
theorem V3_bias_raw (c : Dev nD) : V3 m c main_v39 = biasRow (V2 m c main_arg7) := stretch1_bias (W2 m c)

/-! ## The third stretch -/

theorem V5_mean_raw (c : Dev nD) : V5 m c main_v52 = meanOf (V4 m c main_v40) (V4 m c main_v1) (V4 m c main_v3) (V4 m c main_v12) :=
  stretch2_mean (W4 m c)
theorem V5_bias_raw (c : Dev nD) : V5 m c main_v53 = biasRow (V4 m c main_arg10) := stretch2_bias (W4 m c)

/-! ## The last stretch -/

theorem V7_batch_raw (c : Dev nD) : V7 m c main_v55 = batchCol (V6 m c main_arg2) := stretch3_batch (W6 m c)

end Cert.KernelIdeal.Run

end
-- ==== Proof.SageValue0.lean ====
/-
  Region 0 (the first SAGE layer's dense part), from blocks to the array, at any float instance and at any contents V of
  the core's buffers when the region is entered: the output window's block at grid point t is rows 10000 t .. 10000 t + 9999
  of its array, the ten blocks are disjoint and every point writes its block back, so the array after the region at row n
  holds what point n / 10000 left at row n % 10000; the two row-tiled input windows read the same rows of their arrays,
  and the three whole-array windows read their arrays at every point.
-/
import proofs.«418230_j2070174236742_2_alg».proof.Proof.SageRegion0
import Idealize.ShloMosaic.Lib.Pipeline.Value
import Idealize.ShloMosaic.Lib.ValueIdx

set_option maxRecDepth 16384

noncomputable section

namespace Cert.KernelIdeal.SageValue0

open Cert.KernelIdeal Cert.KernelIdeal.Gen Cert.KernelIdeal.Sage0 Idealize.ShloMosaic Idealize.ShloMosaic.ValueIdx
open Idealize.ShloMosaic.TcCoe Idealize.SL.Sem
open Idealize.ShloMosaic.Pipeline (Dat)

variable {F : FTy → Type} [FloatOps F]

/-- The tile that holds row n, and the row's place in it. -/
def tileOf (n : Fin 100000) : Fin cfg0.N := ⟨n.val / 10000, by have := n.isLt; have h : cfg0.N = 10 := N_0; omega⟩
def rowIn (n : Fin 100000) : Fin 10000 := ⟨n.val % 10000, Nat.mod_lt _ (by decide)⟩

/-- The printed index maps, decided over the grid: the two row-tiled inputs and the output sit at block (t, 0) at point t,
    the three whole-array inputs at block (0, 0). -/
theorem idxFacts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The output's index map sends distinct grid points to distinct block indices. -/
theorem idxInj0_5 : ∀ t t' : Fin cfg0.N, win0_5.index t = win0_5.index t' → t = t' :=
  (by decide +kernel : ∀ t t' : Fin grid0.N, win0_5.index t = win0_5.index t' → t = t')

/-- So two points' output blocks share no array index. -/
theorem disjoint0_5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idxInj0_5 t t' h)

/-- Row n % 10000 of the output's block at point n / 10000 is row n of the array. -/
theorem emb0_5 (n : Fin 100000) (j : Fin 64) :
    ((cfg0.win 5).blk (tileOf n)).view.emb (ix2 (rowIn n) j) = ix2 n j := by
  obtain ⟨-, -, -, -, -, -, -, -, -, -, ea, eb⟩ := idxFacts0 (tileOf n)
  funext a
  apply Fin.ext
  match a with
  | ⟨0, _⟩ =>
    show win0_5.index (tileOf n) (0 : Fin 2) * 10000 + 1 * (n.val % 10000) = n.val
    rw [ea]; show n.val / 10000 * 10000 + 1 * (n.val % 10000) = n.val; omega
  | ⟨1, _⟩ =>
    show win0_5.index (tileOf n) (1 : Fin 2) * 64 + 1 * j.val = j.val
    rw [eb]; omega

section
variable (V : (c : Dev nD) → (b : Ref sig .tc) → Buf (Elt F) ((c : Thread nD τ).loc b))

/-- The array of the output window after the region, at row n: what point n / 10000 left at row n % 10000 of its buffer. -/
theorem arr0_5_apply (c : Dev nD) (n : Fin 100000) (j : Fin 64) :
    (dat0 V c).arrAt 5 cfg0.N (ix2 n j)
      = out0_5 (iblk0 V c 0 (tileOf n)) (iblk0 V c 1 (tileOf n)) (iblk0 V c 2 (tileOf n)) (iblk0 V c 3 (tileOf n)) (iblk0 V c 4 (tileOf n)) (ix2 (rowIn n) j) := by
  have h := (dat0 V c).arrAt_emb_eq_flushed 5 disjoint0_5 (tileOf n) (flush0_5 _) (ix2 (rowIn n) j)
  rw [emb0_5] at h
  rw [h]
  show (cfg0.win 5).cut (grid0.coords (tileOf n)) ((dat0 V c).after 5 (tileOf n)) (ix2 (rowIn n) j) = _
  rw [after0_5]
  rfl

/-- Input window 0's block at point t is rows 10000 t .. 10000 t + 9999 of its array. -/
theorem iblkAt0_0 (c : Dev nD) (t : Fin cfg0.N) (x : S10000x64.Idx) (i : S100000x64.Idx)
    (ha : (i 0).val = 10000 * t.val + (x 0).val) (hb : (i 1).val = (x 1).val) :
    (iblk0 V c 0 t : Vec F S10000x64 .f32) x = (V c (Pipeline.arrRef spec0 0) : S100000x64.Idx → Elt F .f32) i := by
  obtain ⟨ea, eb, ec, ed, -⟩ := idxFacts0 t
  unfold iblk0
  rw [View.read_apply]
  show V c (Pipeline.arrRef spec0 0) _ = V c (Pipeline.arrRef spec0 0) _
  congr 1
  funext a
  apply Fin.ext
  match a with
  | ⟨0, _⟩ => show win0_0.index t (0 : Fin 2) * 10000 + 1 * (x 0).val = (i 0).val; rw [ea, ha]; omega
  | ⟨1, _⟩ => show win0_0.index t (1 : Fin 2) * 64 + 1 * (x 1).val = (i 1).val; rw [eb, hb]; omega

theorem iblk0_0_apply (c : Dev nD) (n : Fin 100000) (k : Fin 64) :
    iblk0 V c 0 (tileOf n) (ix2 (rowIn n) k) = V c (Pipeline.arrRef spec0 0) (ix2 n k) :=
  iblkAt0_0 V c (tileOf n) (ix2 (rowIn n) k) (ix2 n k)
    (by show n.val = 10000 * (n.val / 10000) + n.val % 10000; omega) rfl

/-- Input window 1's block at point t is rows 10000 t .. 10000 t + 9999 of its array. -/
theorem iblkAt0_1 (c : Dev nD) (t : Fin cfg0.N) (x : S10000x64.Idx) (i : S100000x64.Idx)
    (ha : (i 0).val = 10000 * t.val + (x 0).val) (hb : (i 1).val = (x 1).val) :
    (iblk0 V c 1 t : Vec F S10000x64 .f32) x = (V c (Pipeline.arrRef spec0 1) : S100000x64.Idx → Elt F .f32) i := by
  obtain ⟨ea, eb, ec, ed, -⟩ := idxFacts0 t
  unfold iblk0
  rw [View.read_apply]
  show V c (Pipeline.arrRef spec0 1) _ = V c (Pipeline.arrRef spec0 1) _
  congr 1
  funext a
  apply Fin.ext
  match a with
  | ⟨0, _⟩ => show win0_1.index t (0 : Fin 2) * 10000 + 1 * (x 0).val = (i 0).val; rw [ec, ha]; omega
  | ⟨1, _⟩ => show win0_1.index t (1 : Fin 2) * 64 + 1 * (x 1).val = (i 1).val; rw [ed, hb]; omega

theorem iblk0_1_apply (c : Dev nD) (n : Fin 100000) (k : Fin 64) :
    iblk0 V c 1 (tileOf n) (ix2 (rowIn n) k) = V c (Pipeline.arrRef spec0 1) (ix2 n k) :=
  iblkAt0_1 V c (tileOf n) (ix2 (rowIn n) k) (ix2 n k)
    (by show n.val = 10000 * (n.val / 10000) + n.val % 10000; omega) rfl

/-- Input window 2's block is its whole array at every point. -/
theorem iblk0_2_eq (c : Dev nD) (t : Fin cfg0.N) (y) : iblk0 V c 2 t y = V c (Pipeline.arrRef spec0 2) y := by
  obtain ⟨-, -, -, -, za, zb, -⟩ := idxFacts0 t
  unfold iblk0
  rw [View.read_apply]
  show V c (Pipeline.arrRef spec0 2) _ = V c (Pipeline.arrRef spec0 2) _
  congr 1
  funext a
  apply Fin.ext
  match a with
  | ⟨0, _⟩ => show win0_2.index t (0 : Fin 2) * 64 + 1 * (y 0).val = (y 0).val; rw [za]; omega
  | ⟨1, _⟩ => show win0_2.index t (1 : Fin 2) * 64 + 1 * (y 1).val = (y 1).val; rw [zb]; omega

/-- Input window 3's block is its whole array at every point. -/
theorem iblk0_3_eq (c : Dev nD) (t : Fin cfg0.N) (y) : iblk0 V c 3 t y = V c (Pipeline.arrRef spec0 3) y := by
  obtain ⟨-, -, -, -, -, -, za, zb, -⟩ := idxFacts0 t
  unfold iblk0
  rw [View.read_apply]
  show V c (Pipeline.arrRef spec0 3) _ = V c (Pipeline.arrRef spec0 3) _
  congr 1
  funext a
  apply Fin.ext
  match a with
  | ⟨0, _⟩ => show win0_3.index t (0 : Fin 2) * 1 + 1 * (y 0).val = (y 0).val; rw [za]; omega
  | ⟨1, _⟩ => show win0_3.index t (1 : Fin 2) * 64 + 1 * (y 1).val = (y 1).val; rw [zb]; omega

/-- Input window 4's block is its whole array at every point. -/
theorem iblk0_4_eq (c : Dev nD) (t : Fin cfg0.N) (y) : iblk0 V c 4 t y = V c (Pipeline.arrRef spec0 4) y := by
  obtain ⟨-, -, -, -, -, -, -, -, za, zb, -⟩ := idxFacts0 t
  unfold iblk0
  rw [View.read_apply]
  show V c (Pipeline.arrRef spec0 4) _ = V c (Pipeline.arrRef spec0 4) _
  congr 1
  funext a
  apply Fin.ext
  match a with
  | ⟨0, _⟩ => show win0_4.index t (0 : Fin 2) * 64 + 1 * (y 0).val = (y 0).val; rw [za]; omega
  | ⟨1, _⟩ => show win0_4.index t (1 : Fin 2) * 64 + 1 * (y 1).val = (y 1).val; rw [zb]; omega

end

end Cert.KernelIdeal.SageValue0

end
-- ==== Proof.SageSpec.lean ====
/-
  One row of a SAGE layer's dense part on the extended reals, and the one-hot weight of the readout.
  For a node with neighbour-mean row a and own feature row x (64 entries each), weight matrices Wl, Wr (64 × 64) and bias b:
    o j = (Σ k, a k · Wl j k) + b j + (Σ k, x k · Wr j k),
    result j = max (o j / max (√(Σ k, o k · o k)) ε) 0,   ε the single-precision value nearest 1e-12,
  the quotient being the extended reals' x · y⁻¹ off zero.
-/
import Idealize.ShloMosaic.PureOps.Ideal

noncomputable section

namespace Cert.Spec

open Idealize.ShloMosaic

/-- The pre-activation of a row at column j. -/
def rowPre (a x : Fin 64 → EReal) (Wl : Fin 64 → Fin 64 → EReal) (b : Fin 64 → EReal) (Wr : Fin 64 → Fin 64 → EReal)
    (j : Fin 64) : EReal :=
  (∑ k : Fin 64, a k * Wl j k) + b j + (∑ k : Fin 64, x k * Wr j k)

/-- The layer's output row: the pre-activation over its Euclidean norm (at least ε), clamped at zero. -/
def sageRow (a x : Fin 64 → EReal) (Wl : Fin 64 → Fin 64 → EReal) (b : Fin 64 → EReal) (Wr : Fin 64 → Fin 64 → EReal)
    (j : Fin 64) : EReal :=
  max (Ideal.div (rowPre a x Wl b Wr j)
        (max (Ideal.sqrt (∑ k : Fin 64, rowPre a x Wl b Wr k * rowPre a x Wl b Wr k)) (Ideal.ofBits .f32 0x2B8CBCCC#32)))
      (Ideal.ofBits .f32 0x00000000#32)

/-- The readout's weight of a row with batch id w for the output row g: one when the id IS g, else zero. -/
def oneHot (w : BitVec 32) (g : Fin 64) : EReal := if w = BitVec.ofNat 32 g.val then 1 else 0

end Cert.Spec

end
-- ==== Proof.SagePayload.lean ====
/-
  One SAGE layer's payload at the ideal instance, read at an index: the printed payload of each of the three dense
  regions, at row r and column j of its tile, is the row formula of the specification applied to row r of the two
  input tiles, the two weight matrices and the bias row.
  The matrix products are read as sums over the contracted axis, the transposes swap the two coordinates of the
  weights, the bias row is read at column j, the lane sum of the squares is the sum over the row, and the column
  of norms is read at its row.
-/
import proofs.«418230_j2070174236742_2_alg».proof.Proof.Gen.KernelIdeal.Skeleton
import proofs.«418230_j2070174236742_2_alg».proof.Proof.SageSpec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.SageMath

open Cert.KernelIdeal Cert.KernelIdeal.Gen Idealize.ShloMosaic Idealize.ShloMosaic.ValueIdx

/-! ## The operand indices of the matrix product -/

/-- The left operand's row coordinate is the output's row. -/
theorem lhs_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- The left operand's column coordinate is the contraction position. -/
theorem lhs_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- The right operand's row coordinate is the contraction position. -/
theorem rhs_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
/-- The right operand's column coordinate is the output's column. -/
theorem rhs_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A tile times a transposed weight matrix, into the zero accumulator, at (r, j): Σ k, x r k · w j k. -/
theorem matmulT_apply (x : FVec Ideal S10000x64 .f32) (w : FVec Ideal S64x64 .f32) (h : S64x64.Transposes [1, 0] S64x64)
    (r : Fin 10000) (j : Fin 64) :
    matmul dot_S10000x64_S64x64_S10000x64_1_0_0_1_n_n none x (transpose S64x64 [1, 0] w h) (constant (F := Ideal) S10000x64 .f32 0x00000000#32) (ix2 r j)
      = ∑ k : Fin 64, x (ix2 r k) * w (ix2 j k) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 r j) ((contrEquiv1 dot_S10000x64_S64x64_S10000x64_1_0_0_1_n_n 64 rfl rfl).symm k) = ix2 r k := funext fun a => Fin.ext (by
    match a with
    | ⟨0, _⟩ => exact lhs_0 _ _
    | ⟨1, _⟩ => exact (lhs_1 _ _).trans hk)
  have er : dot_S10000x64_S64x64_S10000x64_1_0_0_1_n_n.rhsIdx (ix2 r j) ((contrEquiv1 dot_S10000x64_S64x64_S10000x64_1_0_0_1_n_n 64 rfl rfl).symm k) = ix2 k j := funext fun a => Fin.ext (by
    match a with
    | ⟨0, _⟩ => exact (rhs_0 _ _).trans hk
    | ⟨1, _⟩ => exact rhs_1 _ _)
  rw [el, er, transpose_ix2_apply]

/-! ## The column of norms -/

/-- A vector of length a viewed as a column reads, at (p, 0), the vector at p. -/
theorem shapeCast_a_a1_apply {α : Type} {a : ℕ} (v : (⟨1, ![a]⟩ : Shape).Idx → α) (h : (⟨1, ![a]⟩ : Shape).ShapeCasts ⟨2, ![a, 1]⟩)
    (p : Fin a) : shapeCast ⟨2, ![a, 1]⟩ v h (ix2 p (0 : Fin 1)) = v (ix1 p) := by
  refine shapeCast_apply v h _ _ ?_
  rw [Shape.rowMajor_val_one, Shape.rowMajor_val_two]
  show p.val = p.val * 1 + 0
  omega

/-- A column broadcast over b columns reads, at (p, c), the column at (p, 0). -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of a tile, at row r: the sum over the row. -/
theorem rowSum_apply (v : FVec Ideal S10000x64 .f32) (h : S10000x64.Reduces [1] S10000) (hφ : FKind.Formats .f32)
    (hacc : (0x00000000#32 : BitVec 32) = 0x00000000#32) (r : Fin 10000) :
    multiReduction .add [1] S10000 v 0x00000000#32 h hφ hacc (ix1 r) = ∑ k : Fin 64, v (ix2 r k) := by
  refine (Ideal.multiReduction_add_single v 0x00000000#32 h hφ hacc (ix1 r)).trans ?_
  refine Finset.sum_congr rfl fun k _ => ?_
  exact congrArg v (funext fun a => Fin.ext (by match a with | ⟨0, _⟩ => rfl | ⟨1, _⟩ => rfl))

/-! ## The two halves of the payload as functions of whole tiles -/

/-- The pre-activation of a tile: x0 · x2ᵀ + bias row + x1 · x4ᵀ. -/
def preV (x0 x1 : FVec Ideal S10000x64 .f32) (x2 : FVec Ideal S64x64 .f32) (x3 : FVec Ideal S1x64 .f32) (x4 : FVec Ideal S64x64 .f32) :
    FVec Ideal S10000x64 .f32 :=
  addf (addf (matmul dot_S10000x64_S64x64_S10000x64_1_0_0_1_n_n none x0 (transpose S64x64 [1, 0] x2 transposes_S64x64_p1_0_S64x64) (constant S10000x64 .f32 0x00000000#32))
      (broadcastTo S10000x64 x3 broadcasts_S1x64_S10000x64))
    (matmul dot_S10000x64_S64x64_S10000x64_1_0_0_1_n_n none x1 (transpose S64x64 [1, 0] x4 transposes_S64x64_p1_0_S64x64) (constant S10000x64 .f32 0x00000000#32))

/-- A tile over its rows' Euclidean norms (at least ε), clamped at zero. -/
def normReluV (p : FVec Ideal S10000x64 .f32) : FVec Ideal S10000x64 .f32 :=
  maximumf (divf p (broadcastTo S10000x64
      (maximumf (sqrt (shapeCast S10000x1 (multiReduction .add [1] S10000 (mulf p p) 0x00000000#32 reduces_S10000x64_S10000 (.inl rfl) rfl) shapeCasts_S10000_S10000x1))
        (broadcast S10000x1 (Scalar.ofBits (F := Ideal) .f32 0x2B8CBCCC#32)))
      broadcasts_S10000x1_S10000x64))
    (broadcast S10000x64 (Scalar.ofBits (F := Ideal) .f32 0x00000000#32))

/-- The pre-activation at (r, j). -/
theorem preV_apply (x0 x1 : FVec Ideal S10000x64 .f32) (x2 : FVec Ideal S64x64 .f32) (x3 : FVec Ideal S1x64 .f32) (x4 : FVec Ideal S64x64 .f32)
    (r : Fin 10000) (j : Fin 64) :
    preV x0 x1 x2 x3 x4 (ix2 r j)
      = (∑ k : Fin 64, x0 (ix2 r k) * x2 (ix2 j k)) + x3 (ix2 (0 : Fin 1) j) + (∑ k : Fin 64, x1 (ix2 r k) * x4 (ix2 j k)) := by
  unfold preV
  rw [addf_apply, addf_apply, matmulT_apply, matmulT_apply, broadcastTo_1b_ab_apply]

/-- The normalised and clamped tile at (r, j). -/
theorem normReluV_apply (p : FVec Ideal S10000x64 .f32) (r : Fin 10000) (j : Fin 64) :
    normReluV p (ix2 r j)
      = max (Ideal.div (p (ix2 r j)) (max (Ideal.sqrt (∑ k : Fin 64, p (ix2 r k) * p (ix2 r k))) (Ideal.ofBits .f32 0x2B8CBCCC#32)))
          (Ideal.ofBits .f32 0x00000000#32) := by
  unfold normReluV
  rw [maximumf_apply, divf_apply, broadcastTo_a1_ab_apply, maximumf_apply]
  show max (Ideal.div (p (ix2 r j)) (max (Ideal.sqrt (shapeCast S10000x1 _ shapeCasts_S10000_S10000x1 (ix2 r (0 : Fin 1)))) _)) _ = _
  rw [shapeCast_a_a1_apply, rowSum_apply]
  rfl

/-- The first region's payload is the two halves composed. -/
theorem k0_pay1_eq (x0 x1 : Vec Ideal S10000x64 .f32) (x2 : Vec Ideal S64x64 .f32) (x3 : Vec Ideal S1x64 .f32) (x4 : Vec Ideal S64x64 .f32) :
    k0_pay1 (F := Ideal) x0 x1 x2 x3 x4 = normReluV (preV x0 x1 x2 x3 x4) := by
  unfold k0_pay1 normReluV preV
  simp only [shapeCast_self]

/-- The second region's payload likewise. -/
theorem k1_pay1_eq (x0 x1 : Vec Ideal S10000x64 .f32) (x2 : Vec Ideal S64x64 .f32) (x3 : Vec Ideal S1x64 .f32) (x4 : Vec Ideal S64x64 .f32) :
    k1_pay1 (F := Ideal) x0 x1 x2 x3 x4 = normReluV (preV x0 x1 x2 x3 x4) := by
  unfold k1_pay1 normReluV preV
  simp only [shapeCast_self]

/-- The third region's payload likewise. -/
theorem k2_pay1_eq (x0 x1 : Vec Ideal S10000x64 .f32) (x2 : Vec Ideal S64x64 .f32) (x3 : Vec Ideal S1x64 .f32) (x4 : Vec Ideal S64x64 .f32) :
    k2_pay1 (F := Ideal) x0 x1 x2 x3 x4 = normReluV (preV x0 x1 x2 x3 x4) := by
  unfold k2_pay1 normReluV preV
  simp only [shapeCast_self]

/-! ## The payloads at an index -/

/-- The two halves composed, at (r, j), are the specification's row formula on row r. -/
theorem normRelu_pre_apply (x0 x1 : FVec Ideal S10000x64 .f32) (x2 : FVec Ideal S64x64 .f32) (x3 : FVec Ideal S1x64 .f32) (x4 : FVec Ideal S64x64 .f32)
    (r : Fin 10000) (j : Fin 64) :
    normReluV (preV x0 x1 x2 x3 x4) (ix2 r j)
      = Cert.Spec.sageRow (fun k => x0 (ix2 r k)) (fun k => x1 (ix2 r k)) (fun j k => x2 (ix2 j k)) (fun j => x3 (ix2 0 j)) (fun j k => x4 (ix2 j k)) j := by
  rw [normReluV_apply]
  simp only [preV_apply]
  rfl

/-- The first dense region's payload at row r and column j of its tile. -/
theorem pay0_apply (x0 x1 : Vec Ideal S10000x64 .f32) (x2 : Vec Ideal S64x64 .f32) (x3 : Vec Ideal S1x64 .f32) (x4 : Vec Ideal S64x64 .f32) (r : Fin 10000) (j : Fin 64) :
    k0_pay1 (F := Ideal) x0 x1 x2 x3 x4 (ix2 r j)
      = Cert.Spec.sageRow (fun k => x0 (ix2 r k)) (fun k => x1 (ix2 r k)) (fun j k => x2 (ix2 j k)) (fun j => x3 (ix2 0 j)) (fun j k => x4 (ix2 j k)) j := by
  rw [k0_pay1_eq]
  exact normRelu_pre_apply x0 x1 x2 x3 x4 r j

/-- The second dense region's payload at row r and column j of its tile. -/
theorem pay1_apply (x0 x1 : Vec Ideal S10000x64 .f32) (x2 : Vec Ideal S64x64 .f32) (x3 : Vec Ideal S1x64 .f32) (x4 : Vec Ideal S64x64 .f32) (r : Fin 10000) (j : Fin 64) :
    k1_pay1 (F := Ideal) x0 x1 x2 x3 x4 (ix2 r j)
      = Cert.Spec.sageRow (fun k => x0 (ix2 r k)) (fun k => x1 (ix2 r k)) (fun j k => x2 (ix2 j k)) (fun j => x3 (ix2 0 j)) (fun j k => x4 (ix2 j k)) j := by
  rw [k1_pay1_eq]
  exact normRelu_pre_apply x0 x1 x2 x3 x4 r j

/-- The third dense region's payload at row r and column j of its tile. -/
theorem pay2_apply (x0 x1 : Vec Ideal S10000x64 .f32) (x2 : Vec Ideal S64x64 .f32) (x3 : Vec Ideal S1x64 .f32) (x4 : Vec Ideal S64x64 .f32) (r : Fin 10000) (j : Fin 64) :
    k2_pay1 (F := Ideal) x0 x1 x2 x3 x4 (ix2 r j)
      = Cert.Spec.sageRow (fun k => x0 (ix2 r k)) (fun k => x1 (ix2 r k)) (fun j k => x2 (ix2 j k)) (fun j => x3 (ix2 0 j)) (fun j k => x4 (ix2 j k)) j := by
  rw [k2_pay1_eq]
  exact normRelu_pre_apply x0 x1 x2 x3 x4 r j

end Cert.KernelIdeal.SageMath
end
-- ==== Proof.SageLayer0.lean ====
/-
  Region 0 (the first SAGE layer's dense part) at the ideal instance: its output array after the region, at row n and
  column j, is the specification's row formula applied to row n of the two row-tiled input arrays, the two weight matrices
  and the bias row, as the region finds them. The one whole-buffer store leaves the payload of the five whole-buffer loads;
  the payload at a row of the tile is the row formula of that row of the two input tiles; row n % 10000 of tile n / 10000
  is row n of the array, and the weight and bias windows are their whole arrays.
-/
import proofs.«418230_j2070174236742_2_alg».proof.Proof.SageValue0
import proofs.«418230_j2070174236742_2_alg».proof.Proof.SagePayload
import proofs.«418230_j2070174236742_2_alg».proof.Proof.SageSpec
import Idealize.ShloMosaic.Lib.Pipeline.Value
import Idealize.ShloMosaic.Lib.ValueIdx

set_option maxRecDepth 16384

noncomputable section

namespace Cert.KernelIdeal.SageLayer0

open Cert.KernelIdeal Cert.KernelIdeal.Gen Cert.KernelIdeal.Sage0 Idealize.ShloMosaic Idealize.ShloMosaic.ValueIdx
open Idealize.ShloMosaic.TcCoe Idealize.SL.Sem
open Idealize.ShloMosaic.Pipeline (Dat)
open Cert.KernelIdeal.SageValue0 Cert.KernelIdeal.SageMath

/-- The whole-buffer rectangles sit at offset zero on both axes. -/
theorem hz : (![0, 0] : Fin 2 → Nat) = fun _ => 0 :=
  funext fun a => match a with | ⟨0, _⟩ => rfl | ⟨1, _⟩ => rfl

/-- What the body leaves in the output buffer is the payload of the five buffers' contents: one store through the whole
    buffer of a value computed from five loads through whole buffers. -/
theorem outPay0_5 (u1 u2 : Vec Ideal S10000x64 .f32) (u3 : Vec Ideal S64x64 .f32) (u4 : Vec Ideal S1x64 .f32) (u5 : Vec Ideal S64x64 .f32) :
    out0_5 u1 u2 u3 u4 u5 = k0_pay1 (F := Ideal) u1 u2 u3 u4 u5 := by
  unfold out0_5
  rw [View.canon_unit_zero hz]
  simp only [View.ld_unit_zero (S := S10000x64) hz, View.ld_unit_zero (S := S64x64) hz, View.ld_unit_zero (S := S1x64) hz]

/-- So at row r and column j it is the row formula of row r of the two input tiles, the weights and the bias. -/
theorem outRow0_5 (u1 u2 : Vec Ideal S10000x64 .f32) (u3 : Vec Ideal S64x64 .f32) (u4 : Vec Ideal S1x64 .f32) (u5 : Vec Ideal S64x64 .f32)
    (r : Fin 10000) (j : Fin 64) :
    out0_5 u1 u2 u3 u4 u5 (ix2 r j)
      = Cert.Spec.sageRow (fun k => u1 (ix2 r k)) (fun k => u2 (ix2 r k)) (fun p k => u3 (ix2 p k)) (fun p => u4 (ix2 0 p)) (fun p k => u5 (ix2 p k)) j := by
  rw [outPay0_5]
  exact pay0_apply u1 u2 u3 u4 u5 r j

section
variable (V : (c : Dev nD) → (b : Ref sig .tc) → Buf (Elt Ideal) ((c : Thread nD τ).loc b))

/-- The output array after the region, at row n and column j, as the row formula of the arrays the region finds. -/
theorem layer0_apply (c : Dev nD) (n : Fin 100000) (j : Fin 64) :
    (dat0 (F := Ideal) V c).arrAt 5 cfg0.N (ix2 n j)
      = Cert.Spec.sageRow (fun k => V c (Pipeline.arrRef spec0 0) (ix2 n k)) (fun k => V c (Pipeline.arrRef spec0 1) (ix2 n k))
          (fun j k => V c (Pipeline.arrRef spec0 2) (ix2 j k)) (fun j => V c (Pipeline.arrRef spec0 3) (ix2 0 j))
          (fun j k => V c (Pipeline.arrRef spec0 4) (ix2 j k)) j := by
  rw [arr0_5_apply]
  refine (outRow0_5 (iblk0 V c 0 (tileOf n)) (iblk0 V c 1 (tileOf n)) (iblk0 V c 2 (tileOf n)) (iblk0 V c 3 (tileOf n))
    (iblk0 V c 4 (tileOf n)) (rowIn n) j).trans ?_
  congr 1
  · funext k; exact iblk0_0_apply V c n k
  · funext k; exact iblk0_1_apply V c n k
  · funext p k; exact iblk0_2_eq V c (tileOf n) (ix2 p k)
  · funext p; exact iblk0_3_eq V c (tileOf n) (ix2 0 p)
  · funext p k; exact iblk0_4_eq V c (tileOf n) (ix2 p k)

end

end Cert.KernelIdeal.SageLayer0

end
-- ==== Proof.SageValue1.lean ====
/-
  Region 1 (the first SAGE layer's dense part), from blocks to the array, at any float instance and at any contents V of
  the core's buffers when the region is entered: the output window's block at grid point t is rows 10000 t .. 10000 t + 9999
  of its array, the ten blocks are disjoint and every point writes its block back, so the array after the region at row n
  holds what point n / 10000 left at row n % 10000; the two row-tiled input windows read the same rows of their arrays,
  and the three whole-array windows read their arrays at every point.
-/
import proofs.«418230_j2070174236742_2_alg».proof.Proof.SageRegion1
import Idealize.ShloMosaic.Lib.Pipeline.Value
import Idealize.ShloMosaic.Lib.ValueIdx

set_option maxRecDepth 16384

noncomputable section

namespace Cert.KernelIdeal.SageValue1

open Cert.KernelIdeal Cert.KernelIdeal.Gen Cert.KernelIdeal.Sage1 Idealize.ShloMosaic Idealize.ShloMosaic.ValueIdx
open Idealize.ShloMosaic.TcCoe Idealize.SL.Sem
open Idealize.ShloMosaic.Pipeline (Dat)

variable {F : FTy → Type} [FloatOps F]

/-- The tile that holds row n, and the row's place in it. -/
def tileOf (n : Fin 100000) : Fin cfg1.N := ⟨n.val / 10000, by have := n.isLt; have h : cfg1.N = 10 := N_1; omega⟩
def rowIn (n : Fin 100000) : Fin 10000 := ⟨n.val % 10000, Nat.mod_lt _ (by decide)⟩

/-- The printed index maps, decided over the grid: the two row-tiled inputs and the output sit at block (t, 0) at point t,
    the three whole-array inputs at block (0, 0). -/
theorem idxFacts0 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The output's index map sends distinct grid points to distinct block indices. -/
theorem idxInj0_5 : ∀ t t' : Fin cfg1.N, win1_5.index t = win1_5.index t' → t = t' :=
  (by decide +kernel : ∀ t t' : Fin grid1.N, win1_5.index t = win1_5.index t' → t = t')

/-- So two points' output blocks share no array index. -/
theorem disjoint0_5 : ∀ t t' : Fin cfg1.N, (cfg1.win 5).flush t = true → (cfg1.win 5).flush t' = true → t ≠ t' →
    Disjoint ((cfg1.win 5).blk t).view.set ((cfg1.win 5).blk t').view.set :=
  fun t t' _ _ hne => (cfg1.win 5).disjoint_blk fun h => hne (idxInj0_5 t t' h)

/-- Row n % 10000 of the output's block at point n / 10000 is row n of the array. -/
theorem emb0_5 (n : Fin 100000) (j : Fin 64) :
    ((cfg1.win 5).blk (tileOf n)).view.emb (ix2 (rowIn n) j) = ix2 n j := by
  obtain ⟨-, -, -, -, -, -, -, -, -, -, ea, eb⟩ := idxFacts0 (tileOf n)
  funext a
  apply Fin.ext
  match a with
  | ⟨0, _⟩ =>
    show win1_5.index (tileOf n) (0 : Fin 2) * 10000 + 1 * (n.val % 10000) = n.val
    rw [ea]; show n.val / 10000 * 10000 + 1 * (n.val % 10000) = n.val; omega
  | ⟨1, _⟩ =>
    show win1_5.index (tileOf n) (1 : Fin 2) * 64 + 1 * j.val = j.val
    rw [eb]; omega

section
variable (V : (c : Dev nD) → (b : Ref sig .tc) → Buf (Elt F) ((c : Thread nD τ).loc b))

/-- The array of the output window after the region, at row n: what point n / 10000 left at row n % 10000 of its buffer. -/
theorem arr0_5_apply (c : Dev nD) (n : Fin 100000) (j : Fin 64) :
    (dat1 V c).arrAt 5 cfg1.N (ix2 n j)
      = out1_5 (iblk1 V c 0 (tileOf n)) (iblk1 V c 1 (tileOf n)) (iblk1 V c 2 (tileOf n)) (iblk1 V c 3 (tileOf n)) (iblk1 V c 4 (tileOf n)) (ix2 (rowIn n) j) := by
  have h := (dat1 V c).arrAt_emb_eq_flushed 5 disjoint0_5 (tileOf n) (flush1_5 _) (ix2 (rowIn n) j)
  rw [emb0_5] at h
  rw [h]
  show (cfg1.win 5).cut (grid1.coords (tileOf n)) ((dat1 V c).after 5 (tileOf n)) (ix2 (rowIn n) j) = _
  rw [after1_5]
  rfl

/-- Input window 0's block at point t is rows 10000 t .. 10000 t + 9999 of its array. -/
theorem iblkAt0_0 (c : Dev nD) (t : Fin cfg1.N) (x : S10000x64.Idx) (i : S100000x64.Idx)
    (ha : (i 0).val = 10000 * t.val + (x 0).val) (hb : (i 1).val = (x 1).val) :
    (iblk1 V c 0 t : Vec F S10000x64 .f32) x = (V c (Pipeline.arrRef spec1 0) : S100000x64.Idx → Elt F .f32) i := by
  obtain ⟨ea, eb, ec, ed, -⟩ := idxFacts0 t
  unfold iblk1
  rw [View.read_apply]
  show V c (Pipeline.arrRef spec1 0) _ = V c (Pipeline.arrRef spec1 0) _
  congr 1
  funext a
  apply Fin.ext
  match a with
  | ⟨0, _⟩ => show win1_0.index t (0 : Fin 2) * 10000 + 1 * (x 0).val = (i 0).val; rw [ea, ha]; omega
  | ⟨1, _⟩ => show win1_0.index t (1 : Fin 2) * 64 + 1 * (x 1).val = (i 1).val; rw [eb, hb]; omega

theorem iblk0_0_apply (c : Dev nD) (n : Fin 100000) (k : Fin 64) :
    iblk1 V c 0 (tileOf n) (ix2 (rowIn n) k) = V c (Pipeline.arrRef spec1 0) (ix2 n k) :=
  iblkAt0_0 V c (tileOf n) (ix2 (rowIn n) k) (ix2 n k)
    (by show n.val = 10000 * (n.val / 10000) + n.val % 10000; omega) rfl

/-- Input window 1's block at point t is rows 10000 t .. 10000 t + 9999 of its array. -/
theorem iblkAt0_1 (c : Dev nD) (t : Fin cfg1.N) (x : S10000x64.Idx) (i : S100000x64.Idx)
    (ha : (i 0).val = 10000 * t.val + (x 0).val) (hb : (i 1).val = (x 1).val) :
    (iblk1 V c 1 t : Vec F S10000x64 .f32) x = (V c (Pipeline.arrRef spec1 1) : S100000x64.Idx → Elt F .f32) i := by
  obtain ⟨ea, eb, ec, ed, -⟩ := idxFacts0 t
  unfold iblk1
  rw [View.read_apply]
  show V c (Pipeline.arrRef spec1 1) _ = V c (Pipeline.arrRef spec1 1) _
  congr 1
  funext a
  apply Fin.ext
  match a with
  | ⟨0, _⟩ => show win1_1.index t (0 : Fin 2) * 10000 + 1 * (x 0).val = (i 0).val; rw [ec, ha]; omega
  | ⟨1, _⟩ => show win1_1.index t (1 : Fin 2) * 64 + 1 * (x 1).val = (i 1).val; rw [ed, hb]; omega

theorem iblk0_1_apply (c : Dev nD) (n : Fin 100000) (k : Fin 64) :
    iblk1 V c 1 (tileOf n) (ix2 (rowIn n) k) = V c (Pipeline.arrRef spec1 1) (ix2 n k) :=
  iblkAt0_1 V c (tileOf n) (ix2 (rowIn n) k) (ix2 n k)
    (by show n.val = 10000 * (n.val / 10000) + n.val % 10000; omega) rfl

/-- Input window 2's block is its whole array at every point. -/
theorem iblk0_2_eq (c : Dev nD) (t : Fin cfg1.N) (y) : iblk1 V c 2 t y = V c (Pipeline.arrRef spec1 2) y := by
  obtain ⟨-, -, -, -, za, zb, -⟩ := idxFacts0 t
  unfold iblk1
  rw [View.read_apply]
  show V c (Pipeline.arrRef spec1 2) _ = V c (Pipeline.arrRef spec1 2) _
  congr 1
  funext a
  apply Fin.ext
  match a with
  | ⟨0, _⟩ => show win1_2.index t (0 : Fin 2) * 64 + 1 * (y 0).val = (y 0).val; rw [za]; omega
  | ⟨1, _⟩ => show win1_2.index t (1 : Fin 2) * 64 + 1 * (y 1).val = (y 1).val; rw [zb]; omega

/-- Input window 3's block is its whole array at every point. -/
theorem iblk0_3_eq (c : Dev nD) (t : Fin cfg1.N) (y) : iblk1 V c 3 t y = V c (Pipeline.arrRef spec1 3) y := by
  obtain ⟨-, -, -, -, -, -, za, zb, -⟩ := idxFacts0 t
  unfold iblk1
  rw [View.read_apply]
  show V c (Pipeline.arrRef spec1 3) _ = V c (Pipeline.arrRef spec1 3) _
  congr 1
  funext a
  apply Fin.ext
  match a with
  | ⟨0, _⟩ => show win1_3.index t (0 : Fin 2) * 1 + 1 * (y 0).val = (y 0).val; rw [za]; omega
  | ⟨1, _⟩ => show win1_3.index t (1 : Fin 2) * 64 + 1 * (y 1).val = (y 1).val; rw [zb]; omega

/-- Input window 4's block is its whole array at every point. -/
theorem iblk0_4_eq (c : Dev nD) (t : Fin cfg1.N) (y) : iblk1 V c 4 t y = V c (Pipeline.arrRef spec1 4) y := by
  obtain ⟨-, -, -, -, -, -, -, -, za, zb, -⟩ := idxFacts0 t
  unfold iblk1
  rw [View.read_apply]
  show V c (Pipeline.arrRef spec1 4) _ = V c (Pipeline.arrRef spec1 4) _
  congr 1
  funext a
  apply Fin.ext
  match a with
  | ⟨0, _⟩ => show win1_4.index t (0 : Fin 2) * 64 + 1 * (y 0).val = (y 0).val; rw [za]; omega
  | ⟨1, _⟩ => show win1_4.index t (1 : Fin 2) * 64 + 1 * (y 1).val = (y 1).val; rw [zb]; omega

end

end Cert.KernelIdeal.SageValue1

end
-- ==== Proof.SageLayer1.lean ====
/-
  Region 1 (the first SAGE layer's dense part) at the ideal instance: its output array after the region, at row n and
  column j, is the specification's row formula applied to row n of the two row-tiled input arrays, the two weight matrices
  and the bias row, as the region finds them. The one whole-buffer store leaves the payload of the five whole-buffer loads;
  the payload at a row of the tile is the row formula of that row of the two input tiles; row n % 10000 of tile n / 10000
  is row n of the array, and the weight and bias windows are their whole arrays.
-/
import proofs.«418230_j2070174236742_2_alg».proof.Proof.SageValue1
import proofs.«418230_j2070174236742_2_alg».proof.Proof.SagePayload
import proofs.«418230_j2070174236742_2_alg».proof.Proof.SageSpec
import Idealize.ShloMosaic.Lib.Pipeline.Value
import Idealize.ShloMosaic.Lib.ValueIdx

set_option maxRecDepth 16384

noncomputable section

namespace Cert.KernelIdeal.SageLayer1

open Cert.KernelIdeal Cert.KernelIdeal.Gen Cert.KernelIdeal.Sage1 Idealize.ShloMosaic Idealize.ShloMosaic.ValueIdx
open Idealize.ShloMosaic.TcCoe Idealize.SL.Sem
open Idealize.ShloMosaic.Pipeline (Dat)
open Cert.KernelIdeal.SageValue1 Cert.KernelIdeal.SageMath

/-- The whole-buffer rectangles sit at offset zero on both axes. -/
theorem hz : (![0, 0] : Fin 2 → Nat) = fun _ => 0 :=
  funext fun a => match a with | ⟨0, _⟩ => rfl | ⟨1, _⟩ => rfl

/-- What the body leaves in the output buffer is the payload of the five buffers' contents: one store through the whole
    buffer of a value computed from five loads through whole buffers. -/
theorem outPay0_5 (u1 u2 : Vec Ideal S10000x64 .f32) (u3 : Vec Ideal S64x64 .f32) (u4 : Vec Ideal S1x64 .f32) (u5 : Vec Ideal S64x64 .f32) :
    out1_5 u1 u2 u3 u4 u5 = k1_pay1 (F := Ideal) u1 u2 u3 u4 u5 := by
  unfold out1_5
  rw [View.canon_unit_zero hz]
  simp only [View.ld_unit_zero (S := S10000x64) hz, View.ld_unit_zero (S := S64x64) hz, View.ld_unit_zero (S := S1x64) hz]

/-- So at row r and column j it is the row formula of row r of the two input tiles, the weights and the bias. -/
theorem outRow0_5 (u1 u2 : Vec Ideal S10000x64 .f32) (u3 : Vec Ideal S64x64 .f32) (u4 : Vec Ideal S1x64 .f32) (u5 : Vec Ideal S64x64 .f32)
    (r : Fin 10000) (j : Fin 64) :
    out1_5 u1 u2 u3 u4 u5 (ix2 r j)
      = Cert.Spec.sageRow (fun k => u1 (ix2 r k)) (fun k => u2 (ix2 r k)) (fun p k => u3 (ix2 p k)) (fun p => u4 (ix2 0 p)) (fun p k => u5 (ix2 p k)) j := by
  rw [outPay0_5]
  exact pay1_apply u1 u2 u3 u4 u5 r j

section
variable (V : (c : Dev nD) → (b : Ref sig .tc) → Buf (Elt Ideal) ((c : Thread nD τ).loc b))

/-- The output array after the region, at row n and column j, as the row formula of the arrays the region finds. -/
theorem layer1_apply (c : Dev nD) (n : Fin 100000) (j : Fin 64) :
    (dat1 (F := Ideal) V c).arrAt 5 cfg1.N (ix2 n j)
      = Cert.Spec.sageRow (fun k => V c (Pipeline.arrRef spec1 0) (ix2 n k)) (fun k => V c (Pipeline.arrRef spec1 1) (ix2 n k))
          (fun j k => V c (Pipeline.arrRef spec1 2) (ix2 j k)) (fun j => V c (Pipeline.arrRef spec1 3) (ix2 0 j))
          (fun j k => V c (Pipeline.arrRef spec1 4) (ix2 j k)) j := by
  rw [arr0_5_apply]
  refine (outRow0_5 (iblk1 V c 0 (tileOf n)) (iblk1 V c 1 (tileOf n)) (iblk1 V c 2 (tileOf n)) (iblk1 V c 3 (tileOf n))
    (iblk1 V c 4 (tileOf n)) (rowIn n) j).trans ?_
  congr 1
  · funext k; exact iblk0_0_apply V c n k
  · funext k; exact iblk0_1_apply V c n k
  · funext p k; exact iblk0_2_eq V c (tileOf n) (ix2 p k)
  · funext p; exact iblk0_3_eq V c (tileOf n) (ix2 0 p)
  · funext p k; exact iblk0_4_eq V c (tileOf n) (ix2 p k)

end

end Cert.KernelIdeal.SageLayer1

end
-- ==== Proof.SageValue2.lean ====
/-
  Region 2 (the first SAGE layer's dense part), from blocks to the array, at any float instance and at any contents V of
  the core's buffers when the region is entered: the output window's block at grid point t is rows 10000 t .. 10000 t + 9999
  of its array, the ten blocks are disjoint and every point writes its block back, so the array after the region at row n
  holds what point n / 10000 left at row n % 10000; the two row-tiled input windows read the same rows of their arrays,
  and the three whole-array windows read their arrays at every point.
-/
import proofs.«418230_j2070174236742_2_alg».proof.Proof.SageRegion2
import Idealize.ShloMosaic.Lib.Pipeline.Value
import Idealize.ShloMosaic.Lib.ValueIdx

set_option maxRecDepth 16384

noncomputable section

namespace Cert.KernelIdeal.SageValue2

open Cert.KernelIdeal Cert.KernelIdeal.Gen Cert.KernelIdeal.Sage2 Idealize.ShloMosaic Idealize.ShloMosaic.ValueIdx
open Idealize.ShloMosaic.TcCoe Idealize.SL.Sem
open Idealize.ShloMosaic.Pipeline (Dat)

variable {F : FTy → Type} [FloatOps F]

/-- The tile that holds row n, and the row's place in it. -/
def tileOf (n : Fin 100000) : Fin cfg2.N := ⟨n.val / 10000, by have := n.isLt; have h : cfg2.N = 10 := N_2; omega⟩
def rowIn (n : Fin 100000) : Fin 10000 := ⟨n.val % 10000, Nat.mod_lt _ (by decide)⟩

/-- The printed index maps, decided over the grid: the two row-tiled inputs and the output sit at block (t, 0) at point t,
    the three whole-array inputs at block (0, 0). -/
theorem idxFacts0 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The output's index map sends distinct grid points to distinct block indices. -/
theorem idxInj0_5 : ∀ t t' : Fin cfg2.N, win2_5.index t = win2_5.index t' → t = t' :=
  (by decide +kernel : ∀ t t' : Fin grid2.N, win2_5.index t = win2_5.index t' → t = t')

/-- So two points' output blocks share no array index. -/
theorem disjoint0_5 : ∀ t t' : Fin cfg2.N, (cfg2.win 5).flush t = true → (cfg2.win 5).flush t' = true → t ≠ t' →
    Disjoint ((cfg2.win 5).blk t).view.set ((cfg2.win 5).blk t').view.set :=
  fun t t' _ _ hne => (cfg2.win 5).disjoint_blk fun h => hne (idxInj0_5 t t' h)

/-- Row n % 10000 of the output's block at point n / 10000 is row n of the array. -/
theorem emb0_5 (n : Fin 100000) (j : Fin 64) :
    ((cfg2.win 5).blk (tileOf n)).view.emb (ix2 (rowIn n) j) = ix2 n j := by
  obtain ⟨-, -, -, -, -, -, -, -, -, -, ea, eb⟩ := idxFacts0 (tileOf n)
  funext a
  apply Fin.ext
  match a with
  | ⟨0, _⟩ =>
    show win2_5.index (tileOf n) (0 : Fin 2) * 10000 + 1 * (n.val % 10000) = n.val
    rw [ea]; show n.val / 10000 * 10000 + 1 * (n.val % 10000) = n.val; omega
  | ⟨1, _⟩ =>
    show win2_5.index (tileOf n) (1 : Fin 2) * 64 + 1 * j.val = j.val
    rw [eb]; omega

section
variable (V : (c : Dev nD) → (b : Ref sig .tc) → Buf (Elt F) ((c : Thread nD τ).loc b))

/-- The array of the output window after the region, at row n: what point n / 10000 left at row n % 10000 of its buffer. -/
theorem arr0_5_apply (c : Dev nD) (n : Fin 100000) (j : Fin 64) :
    (dat2 V c).arrAt 5 cfg2.N (ix2 n j)
      = out2_5 (iblk2 V c 0 (tileOf n)) (iblk2 V c 1 (tileOf n)) (iblk2 V c 2 (tileOf n)) (iblk2 V c 3 (tileOf n)) (iblk2 V c 4 (tileOf n)) (ix2 (rowIn n) j) := by
  have h := (dat2 V c).arrAt_emb_eq_flushed 5 disjoint0_5 (tileOf n) (flush2_5 _) (ix2 (rowIn n) j)
  rw [emb0_5] at h
  rw [h]
  show (cfg2.win 5).cut (grid2.coords (tileOf n)) ((dat2 V c).after 5 (tileOf n)) (ix2 (rowIn n) j) = _
  rw [after2_5]
  rfl

/-- Input window 0's block at point t is rows 10000 t .. 10000 t + 9999 of its array. -/
theorem iblkAt0_0 (c : Dev nD) (t : Fin cfg2.N) (x : S10000x64.Idx) (i : S100000x64.Idx)
    (ha : (i 0).val = 10000 * t.val + (x 0).val) (hb : (i 1).val = (x 1).val) :
    (iblk2 V c 0 t : Vec F S10000x64 .f32) x = (V c (Pipeline.arrRef spec2 0) : S100000x64.Idx → Elt F .f32) i := by
  obtain ⟨ea, eb, ec, ed, -⟩ := idxFacts0 t
  unfold iblk2
  rw [View.read_apply]
  show V c (Pipeline.arrRef spec2 0) _ = V c (Pipeline.arrRef spec2 0) _
  congr 1
  funext a
  apply Fin.ext
  match a with
  | ⟨0, _⟩ => show win2_0.index t (0 : Fin 2) * 10000 + 1 * (x 0).val = (i 0).val; rw [ea, ha]; omega
  | ⟨1, _⟩ => show win2_0.index t (1 : Fin 2) * 64 + 1 * (x 1).val = (i 1).val; rw [eb, hb]; omega

theorem iblk0_0_apply (c : Dev nD) (n : Fin 100000) (k : Fin 64) :
    iblk2 V c 0 (tileOf n) (ix2 (rowIn n) k) = V c (Pipeline.arrRef spec2 0) (ix2 n k) :=
  iblkAt0_0 V c (tileOf n) (ix2 (rowIn n) k) (ix2 n k)
    (by show n.val = 10000 * (n.val / 10000) + n.val % 10000; omega) rfl

/-- Input window 1's block at point t is rows 10000 t .. 10000 t + 9999 of its array. -/
theorem iblkAt0_1 (c : Dev nD) (t : Fin cfg2.N) (x : S10000x64.Idx) (i : S100000x64.Idx)
    (ha : (i 0).val = 10000 * t.val + (x 0).val) (hb : (i 1).val = (x 1).val) :
    (iblk2 V c 1 t : Vec F S10000x64 .f32) x = (V c (Pipeline.arrRef spec2 1) : S100000x64.Idx → Elt F .f32) i := by
  obtain ⟨ea, eb, ec, ed, -⟩ := idxFacts0 t
  unfold iblk2
  rw [View.read_apply]
  show V c (Pipeline.arrRef spec2 1) _ = V c (Pipeline.arrRef spec2 1) _
  congr 1
  funext a
  apply Fin.ext
  match a with
  | ⟨0, _⟩ => show win2_1.index t (0 : Fin 2) * 10000 + 1 * (x 0).val = (i 0).val; rw [ec, ha]; omega
  | ⟨1, _⟩ => show win2_1.index t (1 : Fin 2) * 64 + 1 * (x 1).val = (i 1).val; rw [ed, hb]; omega

theorem iblk0_1_apply (c : Dev nD) (n : Fin 100000) (k : Fin 64) :
    iblk2 V c 1 (tileOf n) (ix2 (rowIn n) k) = V c (Pipeline.arrRef spec2 1) (ix2 n k) :=
  iblkAt0_1 V c (tileOf n) (ix2 (rowIn n) k) (ix2 n k)
    (by show n.val = 10000 * (n.val / 10000) + n.val % 10000; omega) rfl

/-- Input window 2's block is its whole array at every point. -/
theorem iblk0_2_eq (c : Dev nD) (t : Fin cfg2.N) (y) : iblk2 V c 2 t y = V c (Pipeline.arrRef spec2 2) y := by
  obtain ⟨-, -, -, -, za, zb, -⟩ := idxFacts0 t
  unfold iblk2
  rw [View.read_apply]
  show V c (Pipeline.arrRef spec2 2) _ = V c (Pipeline.arrRef spec2 2) _
  congr 1
  funext a
  apply Fin.ext
  match a with
  | ⟨0, _⟩ => show win2_2.index t (0 : Fin 2) * 64 + 1 * (y 0).val = (y 0).val; rw [za]; omega
  | ⟨1, _⟩ => show win2_2.index t (1 : Fin 2) * 64 + 1 * (y 1).val = (y 1).val; rw [zb]; omega

/-- Input window 3's block is its whole array at every point. -/
theorem iblk0_3_eq (c : Dev nD) (t : Fin cfg2.N) (y) : iblk2 V c 3 t y = V c (Pipeline.arrRef spec2 3) y := by
  obtain ⟨-, -, -, -, -, -, za, zb, -⟩ := idxFacts0 t
  unfold iblk2
  rw [View.read_apply]
  show V c (Pipeline.arrRef spec2 3) _ = V c (Pipeline.arrRef spec2 3) _
  congr 1
  funext a
  apply Fin.ext
  match a with
  | ⟨0, _⟩ => show win2_3.index t (0 : Fin 2) * 1 + 1 * (y 0).val = (y 0).val; rw [za]; omega
  | ⟨1, _⟩ => show win2_3.index t (1 : Fin 2) * 64 + 1 * (y 1).val = (y 1).val; rw [zb]; omega

/-- Input window 4's block is its whole array at every point. -/
theorem iblk0_4_eq (c : Dev nD) (t : Fin cfg2.N) (y) : iblk2 V c 4 t y = V c (Pipeline.arrRef spec2 4) y := by
  obtain ⟨-, -, -, -, -, -, -, -, za, zb, -⟩ := idxFacts0 t
  unfold iblk2
  rw [View.read_apply]
  show V c (Pipeline.arrRef spec2 4) _ = V c (Pipeline.arrRef spec2 4) _
  congr 1
  funext a
  apply Fin.ext
  match a with
  | ⟨0, _⟩ => show win2_4.index t (0 : Fin 2) * 64 + 1 * (y 0).val = (y 0).val; rw [za]; omega
  | ⟨1, _⟩ => show win2_4.index t (1 : Fin 2) * 64 + 1 * (y 1).val = (y 1).val; rw [zb]; omega

end

end Cert.KernelIdeal.SageValue2

end
-- ==== Proof.SageLayer2.lean ====
/-
  Region 2 (the first SAGE layer's dense part) at the ideal instance: its output array after the region, at row n and
  column j, is the specification's row formula applied to row n of the two row-tiled input arrays, the two weight matrices
  and the bias row, as the region finds them. The one whole-buffer store leaves the payload of the five whole-buffer loads;
  the payload at a row of the tile is the row formula of that row of the two input tiles; row n % 10000 of tile n / 10000
  is row n of the array, and the weight and bias windows are their whole arrays.
-/
import proofs.«418230_j2070174236742_2_alg».proof.Proof.SageValue2
import proofs.«418230_j2070174236742_2_alg».proof.Proof.SagePayload
import proofs.«418230_j2070174236742_2_alg».proof.Proof.SageSpec
import Idealize.ShloMosaic.Lib.Pipeline.Value
import Idealize.ShloMosaic.Lib.ValueIdx

set_option maxRecDepth 16384

noncomputable section

namespace Cert.KernelIdeal.SageLayer2

open Cert.KernelIdeal Cert.KernelIdeal.Gen Cert.KernelIdeal.Sage2 Idealize.ShloMosaic Idealize.ShloMosaic.ValueIdx
open Idealize.ShloMosaic.TcCoe Idealize.SL.Sem
open Idealize.ShloMosaic.Pipeline (Dat)
open Cert.KernelIdeal.SageValue2 Cert.KernelIdeal.SageMath

/-- The whole-buffer rectangles sit at offset zero on both axes. -/
theorem hz : (![0, 0] : Fin 2 → Nat) = fun _ => 0 :=
  funext fun a => match a with | ⟨0, _⟩ => rfl | ⟨1, _⟩ => rfl

/-- What the body leaves in the output buffer is the payload of the five buffers' contents: one store through the whole
    buffer of a value computed from five loads through whole buffers. -/
theorem outPay0_5 (u1 u2 : Vec Ideal S10000x64 .f32) (u3 : Vec Ideal S64x64 .f32) (u4 : Vec Ideal S1x64 .f32) (u5 : Vec Ideal S64x64 .f32) :
    out2_5 u1 u2 u3 u4 u5 = k2_pay1 (F := Ideal) u1 u2 u3 u4 u5 := by
  unfold out2_5
  rw [View.canon_unit_zero hz]
  simp only [View.ld_unit_zero (S := S10000x64) hz, View.ld_unit_zero (S := S64x64) hz, View.ld_unit_zero (S := S1x64) hz]

/-- So at row r and column j it is the row formula of row r of the two input tiles, the weights and the bias. -/
theorem outRow0_5 (u1 u2 : Vec Ideal S10000x64 .f32) (u3 : Vec Ideal S64x64 .f32) (u4 : Vec Ideal S1x64 .f32) (u5 : Vec Ideal S64x64 .f32)
    (r : Fin 10000) (j : Fin 64) :
    out2_5 u1 u2 u3 u4 u5 (ix2 r j)
      = Cert.Spec.sageRow (fun k => u1 (ix2 r k)) (fun k => u2 (ix2 r k)) (fun p k => u3 (ix2 p k)) (fun p => u4 (ix2 0 p)) (fun p k => u5 (ix2 p k)) j := by
  rw [outPay0_5]
  exact pay2_apply u1 u2 u3 u4 u5 r j

section
variable (V : (c : Dev nD) → (b : Ref sig .tc) → Buf (Elt Ideal) ((c : Thread nD τ).loc b))

/-- The output array after the region, at row n and column j, as the row formula of the arrays the region finds. -/
theorem layer2_apply (c : Dev nD) (n : Fin 100000) (j : Fin 64) :
    (dat2 (F := Ideal) V c).arrAt 5 cfg2.N (ix2 n j)
      = Cert.Spec.sageRow (fun k => V c (Pipeline.arrRef spec2 0) (ix2 n k)) (fun k => V c (Pipeline.arrRef spec2 1) (ix2 n k))
          (fun j k => V c (Pipeline.arrRef spec2 2) (ix2 j k)) (fun j => V c (Pipeline.arrRef spec2 3) (ix2 0 j))
          (fun j k => V c (Pipeline.arrRef spec2 4) (ix2 j k)) j := by
  rw [arr0_5_apply]
  refine (outRow0_5 (iblk2 V c 0 (tileOf n)) (iblk2 V c 1 (tileOf n)) (iblk2 V c 2 (tileOf n)) (iblk2 V c 3 (tileOf n))
    (iblk2 V c 4 (tileOf n)) (rowIn n) j).trans ?_
  congr 1
  · funext k; exact iblk0_0_apply V c n k
  · funext k; exact iblk0_1_apply V c n k
  · funext p k; exact iblk0_2_eq V c (tileOf n) (ix2 p k)
  · funext p; exact iblk0_3_eq V c (tileOf n) (ix2 0 p)
  · funext p k; exact iblk0_4_eq V c (tileOf n) (ix2 p k)

end

end Cert.KernelIdeal.SageLayer2

end
-- ==== Proof.ReadoutMath.lean ====
/-
  The readout kernel's two stored values on the extended reals, read at an output index (g, d).
  The first grid point's fill is the zero array. Every grid point adds to the accumulator the product of the
  transposed one-hot matrix of the tile's batch ids with the tile: at (g, d) this is
    acc (g, d) + Σ r < 10000, [id r = g] · x (r, d),
  where [id r = g] is 1 when row r's batch id is the word of g and 0 otherwise. The one-hot entry is the comparison of the id,
  broadcast along the 64 columns, with the column number; widened to 32 bits and converted to a float it is exactly 1 or 0.
-/
import proofs.«418230_j2070174236742_2_alg».proof.Proof.Gen.KernelIdeal.Skeleton
import proofs.«418230_j2070174236742_2_alg».proof.Proof.SageSpec
import Idealize.ShloMosaic.PureOps.Ideal
import Idealize.ShloMosaic.PureOps.Ideal.Laws
import Idealize.ShloMosaic.Lib.ValueIdx
import Idealize.ShloMosaic.Lib.Pipeline.Value
import Idealize.ShloMosaic.Lib.StableHlo.Predicate

noncomputable section

namespace Cert.KernelIdeal.ReadoutMath

open Cert.KernelIdeal Cert.KernelIdeal.Gen Idealize.ShloMosaic Idealize.ShloMosaic.ValueIdx

/-! ## The zero fill -/

/-- The first grid point's fill reads zero everywhere. -/
theorem zero_fill_apply (g d : Fin 64) : k3_pay1 (F := Ideal) (ix2 g d) = 0 := by
  unfold k3_pay1
  rw [shapeCast_self]
  exact Ideal.ofBits_zero_f32

/-! ## The one-hot entry -/

/-- The comparison of a batch id with a column number, widened to 32 bits and converted, is the one-hot weight:
    1 when the id is the column's word, else 0. -/
theorem weight_eq (w : BitVec 32) (g : Fin 64) :
    (FloatOps.sitofp (F := Ideal) .f32 ((IntOp.cmpi .eq w (BitVec.ofNat 32 g.val)).setWidth 32) : EReal) = Cert.Spec.oneHot w g := by
  unfold Cert.Spec.oneHot
  show ((((IntOp.cmpi .eq w (BitVec.ofNat 32 g.val)).setWidth 32).toInt : ℝ) : EReal) = _
  by_cases h : w = BitVec.ofNat 32 g.val
  · rw [if_pos h, StableHlo.Predicate.cmpi_eq_iff.mpr h]
    have e : ((1#1).setWidth 32).toInt = 1 := by decide
    rw [e]; simp
  · rw [if_neg h, eq_zero_of_ne_one (fun h1 => h (StableHlo.Predicate.cmpi_eq_iff.mp h1))]
    have e : ((0#1).setWidth 32).toInt = 0 := by decide
    rw [e]; simp

/-- The one-hot matrix of a tile's batch ids at row r, column g. -/
theorem onehot_apply (x1 : Vec Ideal S10000x1 .i32) (r : Fin 10000) (g : Fin 64) :
    (sitofp (F := Ideal) .f32 (extui 32 (cmpi .eq (broadcastTo S10000x64 x1 Facts₀.broadcasts_S10000x1_S10000x64)
        (iota .tc S10000x64 32 [1] Facts₀.iota_S10000x64_d1_w32)) Facts₀.natLt_1_32) : FVec Ideal S10000x64 .f32) (ix2 r g)
      = Cert.Spec.oneHot (x1 (ix2 r 0)) g := by
  rw [sitofp_apply, extui_apply]
  show FloatOps.sitofp (F := Ideal) .f32 ((IntOp.cmpi .eq (broadcastTo S10000x64 x1 Facts₀.broadcasts_S10000x1_S10000x64 (ix2 r g))
      (iota .tc S10000x64 32 [1] Facts₀.iota_S10000x64_d1_w32 (ix2 r g))).setWidth 32) = _
  rw [iota_single_apply, broadcastTo_apply x1 Facts₀.broadcasts_S10000x1_S10000x64 (ix2 r g) (ix2 r 0) (fun a => match a with
    | ⟨0, _⟩ => by show r.val = if (10000 : Nat) = 1 then 0 else r.val; rw [if_neg (by decide)]
    | ⟨1, _⟩ => by show (0 : Nat) = if (1 : Nat) = 1 then 0 else g.val; rw [if_pos rfl])]
  exact weight_eq (x1 (ix2 r 0)) g

/-! ## The product with the tile -/

theorem lhs_axis0 (i : S64x64.Idx) (q : dot_S64x10000_S10000x64_S64x64_1_0_0_1_n_n.contr.Idx) :
    (dot_S64x10000_S10000x64_S64x64_1_0_0_1_n_n.lhsIdx i q 0).val = (i 0).val := by
  unfold DotDims.lhsIdx
  rw [dif_neg (show ¬(0 : Fin S64x10000.rank) ∈ dot_S64x10000_S10000x64_S64x64_1_0_0_1_n_n.lhsBatch by decide), dif_pos (show (0 : Fin S64x10000.rank) ∈ dot_S64x10000_S10000x64_S64x64_1_0_0_1_n_n.lhsNonContracting by decide)]
  rfl
theorem lhs_axis1 (i : S64x64.Idx) (q : dot_S64x10000_S10000x64_S64x64_1_0_0_1_n_n.contr.Idx) :
    (dot_S64x10000_S10000x64_S64x64_1_0_0_1_n_n.lhsIdx i q 1).val = (q ⟨0, by decide⟩).val :=
  dot_S64x10000_S10000x64_S64x64_1_0_0_1_n_n.lhsIdx_val_of_single rfl i q
theorem rhs_axis0 (i : S64x64.Idx) (q : dot_S64x10000_S10000x64_S64x64_1_0_0_1_n_n.contr.Idx) :
    (dot_S64x10000_S10000x64_S64x64_1_0_0_1_n_n.rhsIdx i q 0).val = (q ⟨0, by decide⟩).val :=
  dot_S64x10000_S10000x64_S64x64_1_0_0_1_n_n.rhsIdx_val_of_single rfl i q
theorem rhs_axis1 (i : S64x64.Idx) (q : dot_S64x10000_S10000x64_S64x64_1_0_0_1_n_n.contr.Idx) :
    (dot_S64x10000_S10000x64_S64x64_1_0_0_1_n_n.rhsIdx i q 1).val = (i 1).val := by
  unfold DotDims.rhsIdx
  rw [dif_neg (show ¬(1 : Fin S10000x64.rank) ∈ dot_S64x10000_S10000x64_S64x64_1_0_0_1_n_n.rhsBatch by decide), dif_pos (show (1 : Fin S10000x64.rank) ∈ dot_S64x10000_S10000x64_S64x64_1_0_0_1_n_n.rhsNonContracting by decide)]
  rfl

/-- The 64 × 10000 by 10000 × 64 product into the zero accumulator, at (g, d): the sum over the 10000 rows. -/
theorem product_apply (a : FVec Ideal S64x10000 .f32) (b : FVec Ideal S10000x64 .f32) (g d : Fin 64) :
    matmul dot_S64x10000_S10000x64_S64x64_1_0_0_1_n_n none a b (constant (F := Ideal) S64x64 .f32 0x00000000#32) (ix2 g d)
      = ∑ r : Fin 10000, a (ix2 g r) * b (ix2 r d) := by
  simp only [matmul]
  rw [Ideal.matmul_constant_zero_apply, ← Equiv.sum_comp (contrEquiv1 dot_S64x10000_S10000x64_S64x64_1_0_0_1_n_n 10000 rfl rfl).symm]
  refine Finset.sum_congr rfl fun k _ => ?_
  have hk := contrEquiv1_symm_val dot_S64x10000_S10000x64_S64x64_1_0_0_1_n_n 10000 rfl rfl k
  have el : dot_S64x10000_S10000x64_S64x64_1_0_0_1_n_n.lhsIdx (ix2 g d) ((contrEquiv1 dot_S64x10000_S10000x64_S64x64_1_0_0_1_n_n 10000 rfl rfl).symm k) = ix2 g k := funext fun a => Fin.ext (by
    match a with
    | ⟨0, _⟩ => exact lhs_axis0 _ _
    | ⟨1, _⟩ => exact (lhs_axis1 _ _).trans hk)
  have er : dot_S64x10000_S10000x64_S64x64_1_0_0_1_n_n.rhsIdx (ix2 g d) ((contrEquiv1 dot_S64x10000_S10000x64_S64x64_1_0_0_1_n_n 10000 rfl rfl).symm k) = ix2 k d := funext fun a => Fin.ext (by
    match a with
    | ⟨0, _⟩ => exact (rhs_axis0 _ _).trans hk
    | ⟨1, _⟩ => exact rhs_axis1 _ _)
  rw [el, er]

/-! ## The accumulated tile -/

/-- A grid point's stored value at (g, d): the accumulator there plus the tile's rows weighted by their one-hot entries. -/
theorem tile_add_apply (x0 : Vec Ideal S10000x64 .f32) (x1 : Vec Ideal S10000x1 .i32) (acc : Vec Ideal S64x64 .f32) (g d : Fin 64) :
    k3_pay2 (F := Ideal) x0 x1 acc (ix2 g d) = acc (ix2 g d) + ∑ r : Fin 10000, Cert.Spec.oneHot (x1 (ix2 r 0)) g * x0 (ix2 r d) := by
  unfold k3_pay2
  simp only [shapeCast_self]
  rw [addf_apply, product_apply]
  congr 1
  refine Finset.sum_congr rfl fun r _ => ?_
  congr 1
  rw [transpose_apply [1, 0] _ Facts₀.transposes_S10000x64_p1_0_S64x10000 (ix2 g r) (ix2 r g) (fun b => match b with
    | ⟨0, _⟩ => rfl
    | ⟨1, _⟩ => rfl)]
  exact onehot_apply x1 r g

end Cert.KernelIdeal.ReadoutMath

end
-- ==== Proof.Tiles.lean ====
/-
  A sum over 100000 indices regrouped as ten consecutive blocks of 10000: the index n = 10000 · t + r with
  t < 10 and r < 10000 runs over every n < 100000 exactly once.
-/
import Mathlib.Algebra.BigOperators.Fin
import Mathlib.Data.Fintype.BigOperators
import Mathlib.Logic.Equiv.Fin.Basic

namespace Cert.Tiles

/-- The sum over all 100000 indices is the sum over the ten blocks of the sums inside each block. -/
theorem sum_tiles {M : Type} [AddCommMonoid M] (f : Fin 100000 → M) :
    ∑ n : Fin 100000, f n = ∑ t : Fin 10, ∑ r : Fin 10000, f ⟨10000 * t.val + r.val, by have := t.isLt; have := r.isLt; omega⟩ := by
  -- pairs (t, r) correspond one to one to the indices r + 10000 · t
  have e := Equiv.sum_comp (finProdFinEquiv (m := 10) (n := 10000)) (fun n : Fin (10 * 10000) => f n)
  rw [Fintype.sum_prod_type] at e
  rw [← e]
  refine Finset.sum_congr rfl (fun t _ => Finset.sum_congr rfl (fun r _ => ?_))
  congr 1
  apply Fin.ext
  show r.val + 10000 * t.val = 10000 * t.val + r.val
  omega

end Cert.Tiles
-- ==== Proof.ReadoutValue.lean ====
/-
  The readout region's accumulator after the last of its ten tiles, on the extended reals, as one sum over all
  100000 rows of the two arrays the region is entered with (the node features and the column of batch ids).
  Tile t's block of either array is its rows 10000 · t … 10000 · t + 9999, so a tile adds
    Σ r < 10000, [id (10000 t + r) = g] · h (10000 t + r, d)
  to the accumulator at (g, d); the first tile starts from zero; ten consecutive tiles are all the rows.
-/
import proofs.«418230_j2070174236742_2_alg».proof.Proof.ReadoutRegion
import proofs.«418230_j2070174236742_2_alg».proof.Proof.ReadoutMath
import proofs.«418230_j2070174236742_2_alg».proof.Proof.Tiles
import proofs.«418230_j2070174236742_2_alg».proof.Proof.SageSpec
import Idealize.ShloMosaic.Lib.ValueIdx
import Mathlib.Algebra.BigOperators.Fin

set_option maxRecDepth 16384

noncomputable section

namespace Cert.KernelIdeal.ReadoutValue

open Cert.KernelIdeal Cert.KernelIdeal.Gen Cert.KernelIdeal.Readout Idealize.ShloMosaic Idealize.ShloMosaic.TcCoe Idealize.ShloMosaic.ValueIdx

variable {F : FTy → Type} [FloatOps F]

/-! ## A tile's blocks are rows of the arrays -/

/-- The two input windows' index maps over the grid: block t along the rows, block 0 along the columns. -/
theorem index_facts : ∀ t : Fin cfg3.N, win3_0.index t (0 : Fin 2) = t.val ∧ win3_0.index t (1 : Fin 2) = 0
    ∧ win3_1.index t (0 : Fin 2) = t.val ∧ win3_1.index t (1 : Fin 2) = 0 :=
  (by decide +kernel : ∀ t : Fin grid3.N, _)

section Blocks
variable (V : (c : Dev nD) → (b : Ref sig .tc) → Buf (Elt F) ((c : Thread nD τ).loc b))

/-- Tile t's block of the node features at (r, d) is the array's row 10000 t + r at column d. -/
theorem iblk3_0_apply (c : Dev nD) (t : Fin cfg3.N) (r : Fin 10000) (d : Fin 64) :
    iblk3 V c 0 t (ix2 r d) = V c (Pipeline.arrRef spec3 0) (ix2 (⟨10000 * t.val + r.val, by have := t.isLt; have h : cfg3.N = 10 := N_3; have := r.isLt; omega⟩ : Fin 100000) d) := by
  obtain ⟨e0, e1, -, -⟩ := index_facts t
  show V c (Pipeline.arrRef spec3 0) (((cfg3.win 0).blk t).view.emb (ix2 r d)) = _
  refine congrArg (V c (Pipeline.arrRef spec3 0)) ?_
  funext a; apply Fin.ext
  match a with
  | ⟨0, _⟩ => show win3_0.index t (0 : Fin 2) * 10000 + 1 * r.val = 10000 * t.val + r.val; omega
  | ⟨1, _⟩ => show win3_0.index t (1 : Fin 2) * 64 + 1 * d.val = d.val; omega

/-- Tile t's block of the batch ids at row r is the column's row 10000 t + r. -/
theorem iblk3_1_apply (c : Dev nD) (t : Fin cfg3.N) (r : Fin 10000) :
    iblk3 V c 1 t (ix2 r 0) = V c (Pipeline.arrRef spec3 1) (ix2 (⟨10000 * t.val + r.val, by have := t.isLt; have h : cfg3.N = 10 := N_3; have := r.isLt; omega⟩ : Fin 100000) 0) := by
  obtain ⟨-, -, e0, e1⟩ := index_facts t
  show V c (Pipeline.arrRef spec3 1) (((cfg3.win 1).blk t).view.emb (ix2 r 0)) = _
  refine congrArg (V c (Pipeline.arrRef spec3 1)) ?_
  funext a; apply Fin.ext
  match a with
  | ⟨0, _⟩ => show win3_1.index t (0 : Fin 2) * 10000 + 1 * r.val = 10000 * t.val + r.val; omega
  | ⟨1, _⟩ => show win3_1.index t (1 : Fin 2) * 1 + 1 * 0 = 0; omega

end Blocks

/-! ## The accumulator, tile by tile -/

section AtIdeal
variable (V : (c : Dev nD) → (b : Ref sig .tc) → Buf (Elt Ideal) ((c : Thread nD τ).loc b))

/-- The two arrays and a tile's two blocks at their literal types. -/
abbrev harr (c : Dev nD) : Vec Ideal S100000x64 .f32 := V c (Pipeline.arrRef spec3 0)
abbrev barr (c : Dev nD) : Vec Ideal S100000x1 .i32 := V c (Pipeline.arrRef spec3 1)
abbrev hblk (c : Dev nD) (t : Fin cfg3.N) : Vec Ideal S10000x64 .f32 := iblk3 V c 0 t
abbrev bblk (c : Dev nD) (t : Fin cfg3.N) : Vec Ideal S10000x1 .i32 := iblk3 V c 1 t

/-- Row n's term of the sum at (g, d): its one-hot weight for g times its feature at column d. -/
def term (c : Dev nD) (g d : Fin 64) (n : Fin 100000) : EReal :=
  Cert.Spec.oneHot (barr V c (ix2 n 0)) g * harr V c (ix2 n d)

/-- Tile k's part of the sum: the terms of its 10000 rows (nothing past the tenth tile). -/
def tilePart (c : Dev nD) (g d : Fin 64) (k : ℕ) : EReal :=
  if hk : k < 10 then ∑ r : Fin 10000, term V c g d ⟨10000 * k + r.val, by have := r.isLt; omega⟩ else 0

/-- What a tile's product adds at (g, d), over the array's rows. -/
theorem tile_rows (c : Dev nD) (g d : Fin 64) (t : Fin cfg3.N) :
    ∑ r : Fin 10000, Cert.Spec.oneHot (bblk V c t (ix2 r 0)) g * hblk V c t (ix2 r d) = tilePart V c g d t.val := by
  have ht : t.val < 10 := lt_of_lt_of_eq t.isLt (show cfg3.N = 10 from N_3)
  unfold tilePart
  rw [dif_pos ht]
  refine Finset.sum_congr rfl fun r _ => ?_
  unfold term
  rw [show bblk V c t (ix2 r 0) = _ from iblk3_1_apply V c t r, show hblk V c t (ix2 r d) = _ from iblk3_0_apply V c t r d]

/-- After point n the accumulator at (g, d) holds the parts of the tiles 0 … n. -/
theorem accum_parts (c : Dev nD) (g d : Fin 64) : ∀ (n : ℕ) (hn : n < cfg3.N),
    accum3 (F := Ideal) V c n hn (ix2 g d) = ∑ k ∈ Finset.range (n + 1), tilePart V c g d k
  | 0, hn => by
    show k3_pay2 (F := Ideal) (hblk V c ⟨0, hn⟩) (bblk V c ⟨0, hn⟩) (k3_pay1 (F := Ideal)) (ix2 g d) = _
    rw [ReadoutMath.tile_add_apply (hblk V c ⟨0, hn⟩) (bblk V c ⟨0, hn⟩) (k3_pay1 (F := Ideal)) g d, ReadoutMath.zero_fill_apply, zero_add,
      tile_rows V c g d ⟨0, hn⟩, Finset.sum_range_one]
  | n + 1, hn => by
    show k3_pay2 (F := Ideal) (hblk V c ⟨n + 1, hn⟩) (bblk V c ⟨n + 1, hn⟩) (accum3 (F := Ideal) V c n (Nat.lt_of_succ_lt hn)) (ix2 g d) = _
    rw [ReadoutMath.tile_add_apply (hblk V c ⟨n + 1, hn⟩) (bblk V c ⟨n + 1, hn⟩) (accum3 (F := Ideal) V c n (Nat.lt_of_succ_lt hn)) g d,
      accum_parts c g d n (Nat.lt_of_succ_lt hn), tile_rows V c g d ⟨n + 1, hn⟩, Finset.sum_range_succ _ (n + 1)]

/-- After the last tile the accumulator at (g, d) is the sum over all 100000 rows. -/
theorem accum_apply (c : Dev nD) (g d : Fin 64) :
    accum3 (F := Ideal) V c 9 (by decide) (ix2 g d)
      = ∑ n : Fin 100000, Cert.Spec.oneHot (V c (Pipeline.arrRef spec3 1) (ix2 n 0)) g * V c (Pipeline.arrRef spec3 0) (ix2 n d) := by
  rw [accum_parts V c g d 9 (by decide), Finset.sum_range]
  show _ = ∑ n : Fin 100000, term V c g d n
  rw [Cert.Tiles.sum_tiles]
  refine Finset.sum_congr rfl fun t _ => ?_
  unfold tilePart
  rw [dif_pos t.isLt]

end AtIdeal

end Cert.KernelIdeal.ReadoutValue

end
-- ==== Proof.RefTerms.lean ====
/-
  The reference program's result, written as a composition of small functions of whole arrays, at any float instance:
  the wrapped source indices and the destination indices of the edge list, the neighbour sum (a gather of the source
  rows scattered with addition onto the destination rows), the clamped degree, the neighbour mean, one layer's
  pre-activation (two matrix products and the bias), its row normalisation and clamp at zero, and the final
  sum over the batch ids. The names follow the mathematics, the terms are the program's own operations.
-/
import proofs.«418230_j2070174236742_2_alg».proof.Proof.Gen.ReferenceIdeal

noncomputable section

namespace Cert.ReferenceIdeal.Terms

open Cert.ReferenceIdeal Cert.ReferenceIdeal.Gen Idealize.ShloMosaic

variable {F : FTy → Type} [FloatOps F]

/-- A float array and an integer array of a shape, as the host operations type them. -/
abbrev TF (s : Shape) : Type := (⟨s, .f32⟩ : BufTy).Contents (Elt F)
abbrev TI (s : Shape) : Type := (⟨s, .i32⟩ : BufTy).Contents (Elt F)

/-- Row 0 of the edge list: the source node of each edge. -/
def src (ei : TI (F := F) S2x1600000) : TI (F := F) S1600000 :=
  shapeCast _ (extractStridedSlice S1x1600000 ![0, 0] ei slices_S2x1600000_S1x1600000_0_0) shapeCasts_S1x1600000_S1600000
/-- Row 1 of the edge list: the destination node of each edge. -/
def dst (ei : TI (F := F) S2x1600000) : TI (F := F) S1600000 :=
  shapeCast _ (extractStridedSlice S1x1600000 ![1, 0] ei slices_S2x1600000_S1x1600000_1_0) shapeCasts_S1x1600000_S1600000
/-- The source indices as the gather reads them: a negative index counted from the end. -/
def srcW (ei : TI (F := F) S2x1600000) : TI (F := F) S1600000x1 :=
  broadcastInDim S1600000x1 ![0] bcast_S1600000_S1600000x1_0
    (select (cmpi .slt (src ei) (broadcastInDim S1600000 ![] bcast_S_S1600000 (constantI S_ 32 0#32)))
      (addi (src ei) (broadcastInDim S1600000 ![] bcast_S_S1600000 (constantI S_ 32 100000#32))) (src ei))
/-- The destination indices as the scatters read them. -/
def dstC (ei : TI (F := F) S2x1600000) : TI (F := F) S1600000x1 :=
  broadcastInDim S1600000x1 ![0] bcast_S1600000_S1600000x1_0 (dst ei)
/-- The neighbour sum: each edge adds its source's row to its destination's row. -/
def msg (h : TF (F := F) S100000x64) (ei : TI (F := F) S2x1600000) : TF (F := F) S100000x64 :=
  Host.scatterAdd scatter_S100000x64_S1600000x1_S1600000x64_1_0_0_1
    (broadcastInDim S100000x64 ![] bcast_S_S100000x64 (constant S_ .f32 0x00000000#32)) (dstC ei)
    (Host.gather gather_S100000x64_S1600000x1_S1600000x64_1_0_n_n_0_1_164 h (srcW ei))
/-- The in-degree of each node, at least one. -/
def degc (ei : TI (F := F) S2x1600000) : TF (F := F) S100000 :=
  maximumf (Host.scatterAdd scatter_S100000_S1600000x1_S1600000_n_0_0_1
      (broadcastInDim S100000 ![] bcast_S_S100000 (constant S_ .f32 0x00000000#32)) (dstC ei)
      (broadcastInDim S1600000 ![] bcast_S_S1600000 (constant S_ .f32 0x3F800000#32)))
    (broadcastInDim S100000 ![] bcast_S_S100000 (constant S_ .f32 0x3F800000#32))
/-- The neighbour mean: the neighbour sum over the clamped degree, row by row. -/
def mean (h : TF (F := F) S100000x64) (ei : TI (F := F) S2x1600000) : TF (F := F) S100000x64 :=
  Host.divf (msg h ei) (broadcastInDim S100000x64 ![0, 1] bcast_S100000x1_S100000x64_0_1
    (broadcastInDim S100000x1 ![0] bcast_S100000_S100000x1_0 (degc ei)))
/-- One layer's pre-activation: a · Wlᵀ + bl + h · Wrᵀ. -/
def pre (a h : TF (F := F) S100000x64) (Wl : TF (F := F) S64x64) (bl : TF (F := F) S64) (Wr : TF (F := F) S64x64) : TF (F := F) S100000x64 :=
  addf (addf (Host.dotGeneral dot_S100000x64_S64x64_S100000x64_1_0_0_1_n_n none a (transpose S64x64 [1, 0] Wl transposes_S64x64_S64x64_1_0))
      (broadcastInDim S100000x64 ![0, 1] bcast_S1x64_S100000x64_0_1 (broadcastInDim S1x64 ![1] bcast_S64_S1x64_1 bl)))
    (Host.dotGeneral dot_S100000x64_S64x64_S100000x64_1_0_0_1_n_n none h (transpose S64x64 [1, 0] Wr transposes_S64x64_S64x64_1_0))
/-- A pre-activation over its rows' Euclidean norms (at least 1e-12), clamped at zero. -/
def normRelu (p : TF (F := F) S100000x64) : TF (F := F) S100000x64 :=
  maximumf (Host.divf p (broadcastInDim S100000x64 ![0, 1] bcast_S100000x1_S100000x64_0_1
      (maximumf (Host.sqrt (broadcastInDim S100000x1 ![0] bcast_S100000_S100000x1_0
          (Host.reduceAdd (mulf p p) (constant S_ .f32 0x00000000#32) reducesTo_S100000x64_S100000_d1 h_S_)))
        (broadcastInDim S100000x1 ![] bcast_S_S100000x1 (constant S_ .f32 0x2B8CBCCC#32)))))
    (broadcastInDim S100000x64 ![] bcast_S_S100000x64 (constant S_ .f32 0x00000000#32))
/-- One layer. -/
def layer (h : TF (F := F) S100000x64) (ei : TI (F := F) S2x1600000) (Wl : TF (F := F) S64x64) (bl : TF (F := F) S64) (Wr : TF (F := F) S64x64) : TF (F := F) S100000x64 :=
  normRelu (pre (mean h ei) h Wl bl Wr)
/-- The sum of the rows over each batch id. -/
def readout (h : TF (F := F) S100000x64) (batch : TI (F := F) S100000) : TF (F := F) S64x64 :=
  Host.scatterAdd scatter_S64x64_S100000x1_S100000x64_1_0_0_1
    (broadcastInDim S64x64 ![] bcast_S_S64x64 (constant S_ .f32 0x00000000#32))
    (broadcastInDim S100000x1 ![0] bcast_S100000_S100000x1_0 batch) h

end Cert.ReferenceIdeal.Terms

end
-- ==== Proof.MeanBridge.lean ====
/-
  Where the two programs differ in a layer: the idealized kernel's program multiplies the neighbour sum by the
  reciprocal of the clamped degree, the reference divides the neighbour sum by the clamped degree. On the extended
  reals the two agree: the clamped degree is at least one, so it is not zero, both quotients are products with its
  inverse, and 1 · d⁻¹ = d⁻¹. The neighbour sum and the degree are the same terms in both programs and stay opaque.
  Also here: the bias as a one-row array and the batch ids as a column, read at an index.
-/
import proofs.«418230_j2070174236742_2_alg».proof.Proof.KernelTerms
import proofs.«418230_j2070174236742_2_alg».proof.Proof.RefTerms
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

namespace Cert.Bridge

open Idealize.ShloMosaic Idealize.ShloMosaic.ValueIdx

/-! ## The quotient by a number that is at least one -/

/-- On the extended reals a number that is at least one is not zero. -/
theorem ne_zero_of_one_le {d : EReal} (hd : 1 ≤ d) : d ≠ 0 :=
  fun h => absurd (h ▸ hd) (not_le.mpr zero_lt_one)

/-- Times the reciprocal is the quotient, for a divisor that is at least one. -/
theorem mul_div_one_eq_div (x d : EReal) (hd : 1 ≤ d) : x * Ideal.div 1 d = Ideal.div x d := by
  have h0 : d ≠ 0 := ne_zero_of_one_le hd
  unfold Ideal.div
  rw [if_neg h0, if_neg h0, one_mul]

/-! ## The broadcasts of the degree, read at an index -/

open Cert.ReferenceIdeal in
/-- The scalar one repeated over the nodes reads one. -/
theorem ones_apply (h : S_.BroadcastsInDim S100000 (![] : Fin 0 → Fin S100000.rank)) (n : Fin 100000) :
    broadcastInDim S100000 ![] h (constant (F := Ideal) S_ .f32 0x3F800000#32) (ix1 n) = 1 := by
  refine (broadcastInDim_apply _ h _ (ix1 n) ix0 (fun a => a.elim0)).trans ?_
  rw [constant_apply, Ideal.ofBits_one_f32]

open Cert.ReferenceIdeal in
/-- A vector over the nodes, made a column and repeated over the columns, reads the vector at the node. -/
theorem colRows_apply (v : FVec Ideal S100000 .f32) (h1 : S100000.BroadcastsInDim S100000x1 (![0] : Fin 1 → Fin S100000x1.rank))
    (h2 : S100000x1.BroadcastsInDim S100000x64 (![0, 1] : Fin 2 → Fin S100000x64.rank)) (n : Fin 100000) (k : Fin 64) :
    broadcastInDim S100000x64 ![0, 1] h2 (broadcastInDim S100000x1 ![0] h1 v) (ix2 n k) = v (ix1 n) := by
  refine (broadcastInDim_apply _ h2 _ (ix2 n k) (ix2 n (0 : Fin 1)) (fun a => match a with
    | ⟨0, _⟩ => by show n.val = if (100000 : Nat) = 1 then 0 else n.val; rw [if_neg (by decide)]
    | ⟨1, _⟩ => by show 0 = if (1 : Nat) = 1 then 0 else k.val; rw [if_pos rfl])).trans ?_
  exact broadcastInDim_apply _ h1 v (ix2 n (0 : Fin 1)) (ix1 n) (fun a => match a with
    | ⟨0, _⟩ => by show n.val = if (100000 : Nat) = 1 then 0 else n.val; rw [if_neg (by decide)])

open Cert.ReferenceIdeal in
/-- The neighbour sum times the reciprocal column of a degree clamped at one is the neighbour sum over the clamped
    degree column. -/
theorem scale_eq (m : FVec Ideal S100000x64 .f32) (g : FVec Ideal S100000 .f32)
    (h0 : S_.BroadcastsInDim S100000 (![] : Fin 0 → Fin S100000.rank))
    (h1 : S100000.BroadcastsInDim S100000x1 (![0] : Fin 1 → Fin S100000x1.rank))
    (h2 : S100000x1.BroadcastsInDim S100000x64 (![0, 1] : Fin 2 → Fin S100000x64.rank)) :
    mulf m (broadcastInDim S100000x64 ![0, 1] h2 (broadcastInDim S100000x1 ![0] h1
        (Host.divf (broadcastInDim S100000 ![] h0 (constant (F := Ideal) S_ .f32 0x3F800000#32))
          (maximumf g (broadcastInDim S100000 ![] h0 (constant (F := Ideal) S_ .f32 0x3F800000#32))))))
      = Host.divf m (broadcastInDim S100000x64 ![0, 1] h2 (broadcastInDim S100000x1 ![0] h1
          (maximumf g (broadcastInDim S100000 ![] h0 (constant (F := Ideal) S_ .f32 0x3F800000#32))))) := by
  funext i
  obtain ⟨n, k, rfl⟩ : ∃ (n : Fin 100000) (k : Fin 64), i = ix2 n k := ⟨i 0, i 1, eq_ix2 i⟩
  rw [mulf_apply, colRows_apply]
  refine Eq.trans ?_ (congrArg (Ideal.div (m (ix2 n k))) (colRows_apply _ h1 h2 n k).symm)
  show m (ix2 n k) * Ideal.div (broadcastInDim S100000 ![] h0 (constant (F := Ideal) S_ .f32 0x3F800000#32) (ix1 n))
      (max (g (ix1 n)) (broadcastInDim S100000 ![] h0 (constant (F := Ideal) S_ .f32 0x3F800000#32) (ix1 n)))
    = Ideal.div (m (ix2 n k)) (max (g (ix1 n)) (broadcastInDim S100000 ![] h0 (constant (F := Ideal) S_ .f32 0x3F800000#32) (ix1 n)))
  rw [ones_apply]
  exact mul_div_one_eq_div _ _ (le_max_right _ _)

/-! ## The neighbour mean -/

/-- The neighbour sum is the same term in both programs. -/
theorem msg_eq (h : Cert.ReferenceIdeal.Terms.TF (F := Ideal) Cert.ReferenceIdeal.S100000x64)
    (ei : Cert.ReferenceIdeal.Terms.TI (F := Ideal) Cert.ReferenceIdeal.S2x1600000) :
    Cert.KernelIdeal.Terms.msgOf (F := Ideal) h (Cert.KernelIdeal.Terms.src ei) (Cert.KernelIdeal.Terms.dst ei)
      = Cert.ReferenceIdeal.Terms.msg (F := Ideal) h ei := rfl

/-- The clamped degree is the same term in both programs. -/
theorem degc_eq (ei : Cert.ReferenceIdeal.Terms.TI (F := Ideal) Cert.ReferenceIdeal.S2x1600000) :
    Cert.KernelIdeal.Terms.degcOf (F := Ideal) (Cert.KernelIdeal.Terms.dst ei)
      = Cert.ReferenceIdeal.Terms.degc (F := Ideal) ei := rfl

/-- The kernel's neighbour mean, the sum times the reciprocal of the clamped degree, is the reference's, the sum
    over the clamped degree. -/
theorem mean_eq (h : Cert.ReferenceIdeal.Terms.TF (F := Ideal) Cert.ReferenceIdeal.S100000x64) (ei : Cert.ReferenceIdeal.Terms.TI (F := Ideal) Cert.ReferenceIdeal.S2x1600000) :
    Cert.KernelIdeal.Terms.meanOf (F := Ideal) h (Cert.KernelIdeal.Terms.src ei) (Cert.KernelIdeal.Terms.dst ei) (Cert.KernelIdeal.Terms.invDegOf (Cert.KernelIdeal.Terms.dst ei))
      = Cert.ReferenceIdeal.Terms.mean (F := Ideal) h ei := by
  unfold Cert.KernelIdeal.Terms.meanOf Cert.KernelIdeal.Terms.invDegOf Cert.ReferenceIdeal.Terms.mean
  rw [msg_eq, degc_eq]
  unfold Cert.ReferenceIdeal.Terms.degc
  exact scale_eq _ _ _ _ _

/-! ## The bias row and the batch column -/

/-- The bias as a one-row array reads, at (0, j), the bias at j. -/
theorem biasRow_apply (bl : Cert.KernelIdeal.Terms.TF (F := Ideal) Cert.KernelIdeal.S64) (j : Fin 64) :
    Cert.KernelIdeal.Terms.biasRow bl (ix2 0 j) = bl (ix1 j) := by
  unfold Cert.KernelIdeal.Terms.biasRow
  exact shapeCast_a_1a_apply bl _ (0 : Fin 1) j

/-- A vector of length a viewed as a column reads, at (p, 0), the vector at p. -/
theorem shapeCast_a_a1_apply {α : Type} {a : ℕ} (v : (⟨1, ![a]⟩ : Shape).Idx → α) (h : (⟨1, ![a]⟩ : Shape).ShapeCasts ⟨2, ![a, 1]⟩)
    (p : Fin a) : shapeCast ⟨2, ![a, 1]⟩ v h (ix2 p (0 : Fin 1)) = v (ix1 p) := by
  refine shapeCast_apply v h _ _ ?_
  rw [Shape.rowMajor_val_one, Shape.rowMajor_val_two]
  show p.val = p.val * 1 + 0
  omega

/-- The batch ids as a column read, at (n, 0), the id of node n. -/
theorem batchCol_apply (b : Cert.KernelIdeal.Terms.TI (F := Ideal) Cert.KernelIdeal.S100000) (n : Fin 100000) :
    Cert.KernelIdeal.Terms.batchCol b (ix2 n 0) = b (ix1 n) := by
  unfold Cert.KernelIdeal.Terms.batchCol
  exact shapeCast_a_a1_apply b _ n

end Cert.Bridge

end
-- ==== Proof.SageRef.lean ====
/-
  One SAGE layer of the reference at the ideal instance, read at an index: the layer's row normalisation and clamp
  applied to its pre-activation, at node n and column j, is the row formula of the specification applied to row n of
  the neighbour means and of the features, the two weight matrices and the bias.
  The host's matrix products are read as sums over the contracted axis, the transposes swap the two coordinates of
  the weights, the bias is read at column j through its two broadcasts, the row sum of the squares is the initial zero
  plus the sum over the row, and the column of norms is read at its row.
-/
import proofs.«418230_j2070174236742_2_alg».proof.Proof.RefTerms
import proofs.«418230_j2070174236742_2_alg».proof.Proof.SageSpec
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.SageMath

open Cert.ReferenceIdeal Cert.ReferenceIdeal.Terms Idealize.ShloMosaic Idealize.ShloMosaic.ValueIdx

/-! ## The operand indices of the matrix product -/

/-- The left operand's row coordinate is the output's row. -/
theorem lhs_0 (i : S100000x64.Idx) (q : dot_S100000x64_S64x64_S100000x64_1_0_0_1_n_n.contr.Idx) :
    (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide), dif_pos (show (0 : Fin S100000x64.rank) ∈ dot_S100000x64_S64x64_S100000x64_1_0_0_1_n_n.lhsNonContracting by decide)]
  rfl
/-- The left operand's column coordinate is the contraction position. -/
theorem lhs_1 (i : S100000x64.Idx) (q : dot_S100000x64_S64x64_S100000x64_1_0_0_1_n_n.contr.Idx) :
    (dot_S100000x64_S64x64_S100000x64_1_0_0_1_n_n.lhsIdx i q 1).val = (q ⟨0, by decide⟩).val :=
  dot_S100000x64_S64x64_S100000x64_1_0_0_1_n_n.lhsIdx_val_of_single rfl i q
/-- The right operand's row coordinate is the contraction position. -/
theorem rhs_0 (i : S100000x64.Idx) (q : dot_S100000x64_S64x64_S100000x64_1_0_0_1_n_n.contr.Idx) :
    (dot_S100000x64_S64x64_S100000x64_1_0_0_1_n_n.rhsIdx i q 0).val = (q ⟨0, by decide⟩).val :=
  dot_S100000x64_S64x64_S100000x64_1_0_0_1_n_n.rhsIdx_val_of_single rfl i q
/-- The right operand's column coordinate is the output's column. -/
theorem rhs_1 (i : S100000x64.Idx) (q : dot_S100000x64_S64x64_S100000x64_1_0_0_1_n_n.contr.Idx) :
    (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide), dif_pos (show (1 : Fin S64x64.rank) ∈ dot_S100000x64_S64x64_S100000x64_1_0_0_1_n_n.rhsNonContracting by decide)]
  rfl

/-- An array of rows times a transposed weight matrix, at (n, j): Σ k, x n k · w j k. -/
theorem dotT_apply (x : FVec Ideal S100000x64 .f32) (w : FVec Ideal S64x64 .f32) (h : S64x64.Transposes [1, 0] S64x64)
    (n : Fin 100000) (j : Fin 64) :
    Host.dotGeneral (F := Ideal) dot_S100000x64_S64x64_S100000x64_1_0_0_1_n_n none x (transpose S64x64 [1, 0] w h) (ix2 n j)
      = ∑ k : Fin 64, x (ix2 n k) * w (ix2 j k) := by
  simp only [Host.dotGeneral]
  rw [Ideal.dotGeneral_apply, ← Equiv.sum_comp (contrEquiv1 dot_S100000x64_S64x64_S100000x64_1_0_0_1_n_n 64 rfl rfl).symm]
  refine Finset.sum_congr rfl fun k _ => ?_
  have hk := contrEquiv1_symm_val dot_S100000x64_S64x64_S100000x64_1_0_0_1_n_n 64 rfl rfl k
  have el : dot_S100000x64_S64x64_S100000x64_1_0_0_1_n_n.lhsIdx (ix2 n j) ((contrEquiv1 dot_S100000x64_S64x64_S100000x64_1_0_0_1_n_n 64 rfl rfl).symm k) = ix2 n k := funext fun a => Fin.ext (by
    match a with
    | ⟨0, _⟩ => exact lhs_0 _ _
    | ⟨1, _⟩ => exact (lhs_1 _ _).trans hk)
  have er : dot_S100000x64_S64x64_S100000x64_1_0_0_1_n_n.rhsIdx (ix2 n j) ((contrEquiv1 dot_S100000x64_S64x64_S100000x64_1_0_0_1_n_n 64 rfl rfl).symm k) = ix2 k j := funext fun a => Fin.ext (by
    match a with
    | ⟨0, _⟩ => exact (rhs_0 _ _).trans hk
    | ⟨1, _⟩ => exact rhs_1 _ _)
  rw [el, er, transpose_ix2_apply]

/-! ## The broadcasts -/

/-- The bias, made a row and repeated over the nodes, reads the bias at the column. -/
theorem biasRows_apply (b : FVec Ideal S64 .f32) (h1 : S64.BroadcastsInDim S1x64 (![1] : Fin 1 → Fin S1x64.rank))
    (h2 : S1x64.BroadcastsInDim S100000x64 (![0, 1] : Fin 2 → Fin S100000x64.rank)) (n : Fin 100000) (j : Fin 64) :
    broadcastInDim S100000x64 ![0, 1] h2 (broadcastInDim S1x64 ![1] h1 b) (ix2 n j) = b (ix1 j) := by
  refine (broadcastInDim_apply _ h2 _ (ix2 n j) (ix2 (0 : Fin 1) j) (fun a => match a with
    | ⟨0, _⟩ => by show 0 = if (1 : Nat) = 1 then 0 else n.val; rw [if_pos rfl]
    | ⟨1, _⟩ => by show j.val = if (64 : Nat) = 1 then 0 else j.val; rw [if_neg (by decide)])).trans ?_
  exact broadcastInDim_apply _ h1 b (ix2 (0 : Fin 1) j) (ix1 j) (fun a => match a with
    | ⟨0, _⟩ => by show j.val = if (64 : Nat) = 1 then 0 else j.val; rw [if_neg (by decide)])

/-- A vector over the nodes, made a column and repeated over the columns, reads the vector at the node. -/
theorem colRows_apply (v : FVec Ideal S100000x1 .f32) (h : S100000x1.BroadcastsInDim S100000x64 (![0, 1] : Fin 2 → Fin S100000x64.rank))
    (n : Fin 100000) (j : Fin 64) :
    broadcastInDim S100000x64 ![0, 1] h v (ix2 n j) = v (ix2 n (0 : Fin 1)) :=
  broadcastInDim_apply _ h v (ix2 n j) (ix2 n (0 : Fin 1)) (fun a => match a with
    | ⟨0, _⟩ => by show n.val = if (100000 : Nat) = 1 then 0 else n.val; rw [if_neg (by decide)]
    | ⟨1, _⟩ => by show 0 = if (1 : Nat) = 1 then 0 else j.val; rw [if_pos rfl])

/-- A vector over the nodes made a column reads, at (n, 0), the vector at n. -/
theorem col_apply (v : FVec Ideal S100000 .f32) (h : S100000.BroadcastsInDim S100000x1 (![0] : Fin 1 → Fin S100000x1.rank))
    (n : Fin 100000) :
    broadcastInDim S100000x1 ![0] h v (ix2 n (0 : Fin 1)) = v (ix1 n) :=
  broadcastInDim_apply _ h v (ix2 n (0 : Fin 1)) (ix1 n) (fun a => match a with
    | ⟨0, _⟩ => by show n.val = if (100000 : Nat) = 1 then 0 else n.val; rw [if_neg (by decide)])

/-- The host's row sum from the zero initial value, at node n: the sum over the row. -/
theorem rowSum_apply (v : FVec Ideal S100000x64 .f32) (h : S100000x64.ReducesTo [1] S100000) (h0 : 0 < S_.numel) (n : Fin 100000) :
    Host.reduceAdd (F := Ideal) v (constant (F := Ideal) S_ .f32 0x00000000#32) h h0 (ix1 n) = ∑ k : Fin 64, v (ix2 n k) := by
  simp only [Host.reduceAdd, Ideal.hostReduceAdd_def]
  rw [Ideal.hostReduceAdd_single h (by decide)]
  show Ideal.ofBits .f32 0x00000000#32 + _ = _
  rw [Ideal.ofBits_zero_f32, zero_add]
  refine Finset.sum_congr rfl fun k _ => ?_
  exact congrArg v (funext fun a => Fin.ext (by match a with | ⟨0, _⟩ => rfl | ⟨1, _⟩ => rfl))

/-! ## The layer at an index -/

/-- The host's quotient at an index is the quotient of the elements. -/
theorem hostDivf_apply {s : Shape} (x y : FVec Ideal s .f32) (i : s.Idx) : Host.divf x y i = Ideal.div (x i) (y i) := rfl
/-- The host's square root at an index is the square root of the element. -/
theorem hostSqrt_apply {s : Shape} (x : FVec Ideal s .f32) (i : s.Idx) : Host.sqrt x i = Ideal.sqrt (x i) := rfl

/-- The pre-activation at (n, j). -/
theorem pre_apply (a h : TF (F := Ideal) S100000x64) (Wl : TF (F := Ideal) S64x64) (bl : TF (F := Ideal) S64) (Wr : TF (F := Ideal) S64x64)
    (n : Fin 100000) (j : Fin 64) :
    pre a h Wl bl Wr (ix2 n j)
      = (∑ k : Fin 64, a (ix2 n k) * Wl (ix2 j k)) + bl (ix1 j) + (∑ k : Fin 64, h (ix2 n k) * Wr (ix2 j k)) := by
  unfold pre
  rw [addf_apply, addf_apply, dotT_apply, dotT_apply, biasRows_apply]

/-- The normalised and clamped array at (n, j). -/
theorem normRelu_apply (p : TF (F := Ideal) S100000x64) (n : Fin 100000) (j : Fin 64) :
    normRelu p (ix2 n j)
      = max (Ideal.div (p (ix2 n j)) (max (Ideal.sqrt (∑ k : Fin 64, p (ix2 n k) * p (ix2 n k))) (Ideal.ofBits .f32 0x2B8CBCCC#32)))
          (Ideal.ofBits .f32 0x00000000#32) := by
  unfold normRelu
  rw [maximumf_apply, hostDivf_apply, colRows_apply, maximumf_apply, hostSqrt_apply, col_apply, rowSum_apply]
  rfl

/-- One layer of the reference at node n and column j. -/
theorem layer_apply (a h : TF (F := Ideal) S100000x64) (Wl : TF (F := Ideal) S64x64) (bl : TF (F := Ideal) S64) (Wr : TF (F := Ideal) S64x64) (n : Fin 100000) (j : Fin 64) :
    normRelu (pre a h Wl bl Wr) (ix2 n j)
      = Cert.Spec.sageRow (fun k => a (ix2 n k)) (fun k => h (ix2 n k)) (fun j k => Wl (ix2 j k)) (fun j => bl (ix1 j)) (fun j k => Wr (ix2 j k)) j := by
  rw [normRelu_apply]
  simp only [pre_apply]
  rfl

end Cert.ReferenceIdeal.SageMath

end
-- ==== Proof.ReadoutRef.lean ====
/-
  The reference's final sum over the batch ids, on the extended reals, read at an output index (g, d).
  The program scatters the 100000 × 64 rows with addition into a 64 × 64 zero array: the update at (n, d') lands at
  (id n, d'), the id read as a signed word, and is dropped when that row is outside 0 … 63. So at (g, d) the result is
    Σ n < 100000, [id n = g] · h (n, d),
  where [id n = g] is 1 when node n's batch id is the word of g and 0 otherwise (a negative or too large id meets no g).
-/
import proofs.«418230_j2070174236742_2_alg».proof.Proof.RefTerms
import proofs.«418230_j2070174236742_2_alg».proof.Proof.SageSpec
import Idealize.ShloMosaic.PureOps.Ideal
import Idealize.ShloMosaic.PureOps.Ideal.Laws
import Idealize.ShloMosaic.Lib.ValueIdx
import Idealize.ShloMosaic.Lib.Pipeline.Value
import Mathlib.Algebra.BigOperators.Group.Finset.Basic

noncomputable section

namespace Cert.ReferenceIdeal.ReadoutMath

open Cert.ReferenceIdeal Cert.ReferenceIdeal.Terms Idealize.ShloMosaic Idealize.ShloMosaic.ValueIdx

/-! ## A signed word that is a small natural -/

/-- A 32-bit word read signed is g < 64 exactly when it is the word of g. -/
theorem toInt_eq_iff (w : BitVec 32) (g : Fin 64) : w.toInt = (g.val : ℤ) ↔ w = BitVec.ofNat 32 g.val := by
  have hg := g.isLt
  have hw := w.isLt
  constructor
  · intro h
    apply BitVec.eq_of_toNat_eq
    rw [BitVec.toNat_ofNat]
    rw [BitVec.toInt_eq_toNat_cond] at h
    split at h <;> omega
  · intro h
    rw [h, BitVec.toInt_eq_toNat_cond, BitVec.toNat_ofNat]
    split <;> omega

/-! ## Where one update lands -/

/-- The scatter's dimension numbers: the update's column axis is its window, the operand's row axis is inserted and
    is the one the index names. -/
abbrev Sc : ScatterDims S64x64 S100000x1 S100000x64 := scatter_S64x64_S100000x1_S100000x64_1_0_0_1

/-- The update at (n, d') reads its index at row n of the index column. -/
theorem siIdx_eq (n : Fin 100000) (d' : Fin 64) (c : Fin Sc.scatterDimsToOperandDims.length) :
    Sc.siIdx (ix2 n d') c = ix2 n 0 := by
  have key : ∀ X : Fin S100000x64.rank, X = 0 → ((ix2 n d' : S100000x64.Idx) X).val = n.val := by
    rintro X rfl; rfl
  -- the row coordinate: the update's own row
  have h0 : Sc.siIdx (ix2 n d') c 0 = (ix2 n 0 : S100000x1.Idx) 0 := by
    unfold ScatterDims.siIdx
    split
    · next hb => exact absurd hb (by decide)
    · unfold ScatterDims.siCoord
      apply Fin.ext
      simp only [Fin.val_cast]
      exact key _ (by decide +revert)
  -- the column coordinate: the one component of the index vector
  have h1 : Sc.siIdx (ix2 n d') c 1 = (ix2 n 0 : S100000x1.Idx) 1 := by
    unfold ScatterDims.siIdx
    split
    · apply Fin.ext
      have hc : c.val < 1 := c.isLt
      show c.val = 0
      omega
    · next hb => exact absurd rfl hb
  funext b
  match b with
  | ⟨0, _⟩ => exact h0
  | ⟨1, _⟩ => exact h1

/-- On the row axis the window starts at the id, read signed … -/
theorem start_row (idx : IVec S100000x1 32) (n : Fin 100000) (d' : Fin 64) :
    Sc.start (ix2 n d') idx 0 = (idx (ix2 n 0)).toInt := by
  unfold ScatterDims.start
  rw [dif_pos (show (0 : Fin S64x64.rank) ∈ Sc.scatterDimsToOperandDims by decide), siIdx_eq]
/-- … and on the column axis at zero. -/
theorem start_col (idx : IVec S100000x1 32) (n : Fin 100000) (d' : Fin 64) :
    Sc.start (ix2 n d') idx 1 = 0 := by
  unfold ScatterDims.start
  rw [dif_neg (show ¬(1 : Fin S64x64.rank) ∈ Sc.scatterDimsToOperandDims by decide)]
/-- The window has no extent along the rows … -/
theorem window_row (n : Fin 100000) (d' : Fin 64) : Sc.window (ix2 n d') 0 = 0 := by
  unfold ScatterDims.window
  rw [dif_neg (show ¬(0 : Fin S64x64.rank) ∈ Sc.sKept by decide)]
/-- … and along the columns its coordinate is the update's column. -/
theorem window_col (n : Fin 100000) (d' : Fin 64) : Sc.window (ix2 n d') 1 = d'.val := by
  have key : ∀ X : Fin S100000x64.rank, X = 1 → ((ix2 n d' : S100000x64.Idx) X).val = d'.val := by
    rintro X rfl; rfl
  unfold ScatterDims.window
  rw [dif_pos (show (1 : Fin S64x64.rank) ∈ Sc.sKept by decide)]
  exact key _ (by decide)

/-- The update at (n, d') lands on (g, d) exactly when node n's id, read signed, is g and d' is d. -/
theorem lands_iff (idx : IVec S100000x1 32) (n : Fin 100000) (d' g d : Fin 64) :
    Sc.resultIdx? (ix2 n d') idx = some (ix2 g d) ↔ (idx (ix2 n 0)).toInt = (g.val : ℤ) ∧ d' = d := by
  have hg := g.isLt
  have hd := d'.isLt
  unfold ScatterDims.resultIdx?
  split
  · next h =>
    rw [Option.some.injEq]
    constructor
    · intro e
      have e0 : (Sc.start (ix2 n d') idx 0 + (Sc.window (ix2 n d') 0 : ℤ)).toNat = g.val := congrArg Fin.val (congrFun e 0)
      have e1 : (Sc.start (ix2 n d') idx 1 + (Sc.window (ix2 n d') 1 : ℤ)).toNat = d.val := congrArg Fin.val (congrFun e 1)
      have h0 := (h 0).1
      rw [start_row, window_row] at e0 h0
      rw [start_col, window_col] at e1
      exact ⟨by omega, Fin.ext (by omega)⟩
    · rintro ⟨hi, rfl⟩
      funext a
      match a with
      | ⟨0, _⟩ =>
        apply Fin.ext
        show (Sc.start (ix2 n d') idx 0 + (Sc.window (ix2 n d') 0 : ℤ)).toNat = g.val
        rw [start_row, window_row]; omega
      | ⟨1, _⟩ =>
        apply Fin.ext
        show (Sc.start (ix2 n d') idx 1 + (Sc.window (ix2 n d') 1 : ℤ)).toNat = d'.val
        rw [start_col, window_col]; omega
  · next h =>
    constructor
    · intro e; cases e
    · rintro ⟨hi, rfl⟩
      exfalso
      apply h
      intro a
      match a with
      | ⟨0, _⟩ =>
        show 0 ≤ Sc.start (ix2 n d') idx 0 + (Sc.window (ix2 n d') 0 : ℤ)
          ∧ Sc.start (ix2 n d') idx 0 + (Sc.window (ix2 n d') 0 : ℤ) < ((64 : ℕ) : ℤ)
        rw [start_row, window_row]; omega
      | ⟨1, _⟩ =>
        show 0 ≤ Sc.start (ix2 n d') idx 1 + (Sc.window (ix2 n d') 1 : ℤ)
          ∧ Sc.start (ix2 n d') idx 1 + (Sc.window (ix2 n d') 1 : ℤ) < ((64 : ℕ) : ℤ)
        rw [start_col, window_col]; omega

/-! ## The sum over the batch ids at an index -/

/-- The scattered sum at (g, d): the rows of the nodes whose batch id is g, summed at column d. -/
theorem readout_apply (h : TF (F := Ideal) S100000x64) (batch : TI (F := Ideal) S100000) (g d : Fin 64) :
    readout h batch (ix2 g d) = ∑ n : Fin 100000, Cert.Spec.oneHot (batch (ix1 n)) g * h (ix2 n d) := by
  unfold readout
  simp only [Host.scatterAdd, Ideal.hostScatterAdd_def]
  unfold Ideal.hostScatterAdd
  -- the operand is the zero array
  have hx : (broadcastInDim S64x64 ![] Gen.bcast_S_S64x64 (constant (F := Ideal) S_ .f32 0x00000000#32)) (ix2 g d) = 0 :=
    Ideal.ofBits_zero_f32
  -- the index column at row n is node n's id
  have hb : ∀ n : Fin 100000, (broadcastInDim S100000x1 ![0] Gen.bcast_S100000_S100000x1_0 batch) (ix2 n 0) = batch (ix1 n) := fun n =>
    broadcastInDim_apply _ Gen.bcast_S100000_S100000x1_0 batch (ix2 n 0) (ix1 n) (fun a => match a with
      | ⟨0, _⟩ => by show n.val = if (100000 : Nat) = 1 then 0 else n.val; rw [if_neg (by decide)])
  rw [hx, zero_add, Finset.sum_filter, sum_idx2]
  refine Finset.sum_congr rfl fun n _ => ?_
  simp only [lands_iff, hb, toInt_eq_iff]
  unfold Cert.Spec.oneHot
  by_cases hw : batch (ix1 n) = BitVec.ofNat 32 g.val
  · simp only [hw, true_and, if_true, one_mul, Finset.sum_ite_eq', Finset.mem_univ]
  · simp only [hw, false_and, if_false, Finset.sum_const_zero, zero_mul]

end Cert.ReferenceIdeal.ReadoutMath

end
-- ==== Proof.Bridge.lean ====
/-
  THE BRIDGE, at the Ideal instance. On the extended reals the kernel's program and the reference compute one function of the
  arguments. Layer by layer: the kernel's region writes, at node n and column j, the row function sageRow of row n of
  the neighbour mean and of the node features, the two weight matrices and the bias; the reference's layer is the same row
  function; the neighbour mean the kernel hands its region is the neighbour sum TIMES the reciprocal of the clamped degree,
  the reference's is the sum OVER the clamped degree, and these agree because the clamped degree is at least one, hence not
  zero, so both quotients are the product with its inverse. The readout: the kernel's accumulator after the tenth tile is,
  at (g, d), the sum over all nodes of [the node's batch id is g] times the node's feature d; the reference's scatter with
  addition onto a zero array is the same sum, an id outside 0..63 adding nothing on either side.
-/
import proofs.«418230_j2070174236742_2_alg».proof.Proof.MainRun
import proofs.«418230_j2070174236742_2_alg».proof.Proof.KernelWalk
import proofs.«418230_j2070174236742_2_alg».proof.Proof.SageLayer0
import proofs.«418230_j2070174236742_2_alg».proof.Proof.SageLayer1
import proofs.«418230_j2070174236742_2_alg».proof.Proof.SageLayer2
import proofs.«418230_j2070174236742_2_alg».proof.Proof.ReadoutValue
import proofs.«418230_j2070174236742_2_alg».proof.Proof.MeanBridge
import proofs.«418230_j2070174236742_2_alg».proof.Proof.SageRef
import proofs.«418230_j2070174236742_2_alg».proof.Proof.ReadoutRef
import proofs.«418230_j2070174236742_2_alg».proof.Proof.RefTerms
import Idealize.ShloMosaic.Lib.ValueIdx

set_option maxRecDepth 16384

noncomputable section

namespace Cert.KernelIdeal.Run

open Cert.KernelIdeal Cert.KernelIdeal.Gen
open Cert.KernelIdeal.Sage0 Cert.KernelIdeal.Sage1 Cert.KernelIdeal.Sage2 Cert.KernelIdeal.Readout
open Idealize.ShloMosaic Idealize.ShloMosaic.TcCoe Idealize.SL.Sem Idealize.ShloMosaic.ValueIdx

/-- An array whose entry (n, j) is the row function of row n of M and of H, of the weights and of the bias row B, where M
    is the reference's neighbour mean of H and B's entries are the bias's, IS the reference's layer of H. -/
theorem layer_of_rows (A M H : Cert.ReferenceIdeal.Terms.TF (F := Ideal) Cert.ReferenceIdeal.S100000x64)
    (Wl Wr : Cert.ReferenceIdeal.Terms.TF (F := Ideal) Cert.ReferenceIdeal.S64x64)
    (B : Cert.KernelIdeal.Terms.TF (F := Ideal) Cert.KernelIdeal.S1x64)
    (bl : Cert.ReferenceIdeal.Terms.TF (F := Ideal) Cert.ReferenceIdeal.S64)
    (ei : Cert.ReferenceIdeal.Terms.TI (F := Ideal) Cert.ReferenceIdeal.S2x1600000)
    (hA : ∀ (n : Fin 100000) (j : Fin 64), A (ix2 n j) = Cert.Spec.sageRow (fun k => M (ix2 n k)) (fun k => H (ix2 n k))
      (fun j k => Wl (ix2 j k)) (fun j => B (ix2 0 j)) (fun j k => Wr (ix2 j k)) j)
    (hM : M = Cert.ReferenceIdeal.Terms.mean H ei) (hB : ∀ j : Fin 64, B (ix2 0 j) = bl (ix1 j)) :
    A = Cert.ReferenceIdeal.Terms.layer H ei Wl bl Wr := by
  subst hM
  have hb : (fun j : Fin 64 => B (ix2 0 j)) = fun j => bl (ix1 j) := funext hB
  funext i
  obtain ⟨n, j, rfl⟩ : ∃ (n : Fin 100000) (j : Fin 64), i = ix2 n j := ⟨i 0, i 1, eq_ix2 i⟩
  refine (hA n j).trans ?_
  rw [hb]
  exact (Cert.ReferenceIdeal.SageMath.layer_apply _ H Wl bl Wr n j).symm

variable (m : (ℓ : Loc nD τ sig) → Buf (Elt Ideal) ℓ)

/-! ## What the stretches and regions leave alone, read at the TensorCore's references -/

theorem V1_keep (c : Dev nD) (r : Ref sig .tc) (h : r ∉ hostOps0_W) : V1 m c r = m ((c : Thread nD τ).loc r) := W1_keep m c r h
theorem V2_first (c : Dev nD) (r : Ref sig .tc) (e0 : r ≠ main_v26) : V2 m c r = V1 m c r := W2_first m c r e0
theorem V3_keep (c : Dev nD) (r : Ref sig .tc) (h : r ∉ hostOps1_W) : V3 m c r = V2 m c r := W3_keep m c r h
theorem V4_first (c : Dev nD) (r : Ref sig .tc) (e0 : r ≠ main_v26) (h1 : r ∉ hostOps1_W) (e1 : r ≠ main_v40) : V4 m c r = V1 m c r :=
  W4_first m c r e0 h1 e1
theorem V5_keep (c : Dev nD) (r : Ref sig .tc) (h : r ∉ hostOps2_W) : V5 m c r = V4 m c r := W5_keep m c r h
theorem V6_first (c : Dev nD) (r : Ref sig .tc) (e0 : r ≠ main_v26) (h1 : r ∉ hostOps1_W) (e1 : r ≠ main_v40)
    (h2 : r ∉ hostOps2_W) (e2 : r ≠ main_v54) : V6 m c r = V1 m c r := W6_first m c r e0 h1 e1 h2 e2
theorem V7_keep (c : Dev nD) (r : Ref sig .tc) (h : r ∉ hostOps3_W) : V7 m c r = V6 m c r := W7_keep m c r h

/-- The reference's network over the kernel program's argument buffers on core c, layer by layer. -/
def L1 (c : Dev nD) : Cert.ReferenceIdeal.Terms.TF (F := Ideal) Cert.ReferenceIdeal.S100000x64 :=
  Cert.ReferenceIdeal.Terms.layer (m ((c : Thread nD τ).loc main_arg0)) (m ((c : Thread nD τ).loc main_arg1))
    (m ((c : Thread nD τ).loc main_arg3)) (m ((c : Thread nD τ).loc main_arg4)) (m ((c : Thread nD τ).loc main_arg5))
def L2 (c : Dev nD) : Cert.ReferenceIdeal.Terms.TF (F := Ideal) Cert.ReferenceIdeal.S100000x64 :=
  Cert.ReferenceIdeal.Terms.layer (L1 m c) (m ((c : Thread nD τ).loc main_arg1))
    (m ((c : Thread nD τ).loc main_arg6)) (m ((c : Thread nD τ).loc main_arg7)) (m ((c : Thread nD τ).loc main_arg8))
def L3 (c : Dev nD) : Cert.ReferenceIdeal.Terms.TF (F := Ideal) Cert.ReferenceIdeal.S100000x64 :=
  Cert.ReferenceIdeal.Terms.layer (L2 m c) (m ((c : Thread nD τ).loc main_arg1))
    (m ((c : Thread nD τ).loc main_arg9)) (m ((c : Thread nD τ).loc main_arg10)) (m ((c : Thread nD τ).loc main_arg11))

/-- The first region's output array is the reference's first layer. -/
theorem first_layer (c : Dev nD) : W2 m c main_v26 = L1 m c := by
  rw [W2_out]
  unfold L1
  refine layer_of_rows _ (V1 m c main_v24) (V1 m c main_arg0) (V1 m c main_arg3) (V1 m c main_arg5) (V1 m c main_v25)
    (m ((c : Thread nD τ).loc main_arg4)) (m ((c : Thread nD τ).loc main_arg1))
    (fun n j => Cert.KernelIdeal.SageLayer0.layer0_apply (V1 m) c n j) ?_ ?_ |>.trans ?_
  · exact (V1_mean m c).trans ((Cert.Bridge.mean_eq _ _).trans (by rw [V1_keep m c main_arg0 (by decide)]))
  · intro j; rw [V1_bias]; exact Cert.Bridge.biasRow_apply _ j
  · rw [V1_keep m c main_arg0 (by decide), V1_keep m c main_arg3 (by decide), V1_keep m c main_arg5 (by decide)]

/-- The second region's output array is the reference's second layer. -/
theorem second_layer (c : Dev nD) : W4 m c main_v40 = L2 m c := by
  rw [W4_out]
  unfold L2
  have hH : V3 m c main_v26 = L1 m c := (V3_keep m c main_v26 (by decide)).trans (first_layer m c)
  refine layer_of_rows _ (V3 m c main_v38) (V3 m c main_v26) (V3 m c main_arg6) (V3 m c main_arg8) (V3 m c main_v39)
    (m ((c : Thread nD τ).loc main_arg7)) (m ((c : Thread nD τ).loc main_arg1))
    (fun n j => Cert.KernelIdeal.SageLayer1.layer1_apply (V3 m) c n j) ?_ ?_ |>.trans ?_
  · rw [V3_mean_raw, V2_first m c main_v1 (by decide), V2_first m c main_v3 (by decide), V2_first m c main_v12 (by decide),
      V1_src, V1_dst, V1_inv]
    exact (Cert.Bridge.mean_eq _ _).trans (by rw [hH]; exact congrArg (fun a => Cert.ReferenceIdeal.Terms.mean a _) (first_layer m c))
  · intro j; rw [V3_bias_raw, V2_first m c main_arg7 (by decide), V1_keep m c main_arg7 (by decide)]
    exact Cert.Bridge.biasRow_apply _ j
  · rw [hH, V3_keep m c main_arg6 (by decide), V2_first m c main_arg6 (by decide), V1_keep m c main_arg6 (by decide),
      V3_keep m c main_arg8 (by decide), V2_first m c main_arg8 (by decide), V1_keep m c main_arg8 (by decide)]

/-- The third region's output array is the reference's third layer. -/
theorem third_layer (c : Dev nD) : W6 m c main_v54 = L3 m c := by
  rw [W6_out]
  unfold L3
  have hH : V5 m c main_v40 = L2 m c := (V5_keep m c main_v40 (by decide)).trans (second_layer m c)
  refine layer_of_rows _ (V5 m c main_v52) (V5 m c main_v40) (V5 m c main_arg9) (V5 m c main_arg11) (V5 m c main_v53)
    (m ((c : Thread nD τ).loc main_arg10)) (m ((c : Thread nD τ).loc main_arg1))
    (fun n j => Cert.KernelIdeal.SageLayer2.layer2_apply (V5 m) c n j) ?_ ?_ |>.trans ?_
  · rw [V5_mean_raw, V4_first m c main_v1 (by decide) (by decide) (by decide), V4_first m c main_v3 (by decide) (by decide) (by decide),
      V4_first m c main_v12 (by decide) (by decide) (by decide), V1_src, V1_dst, V1_inv]
    exact (Cert.Bridge.mean_eq _ _).trans (by rw [hH]; exact congrArg (fun a => Cert.ReferenceIdeal.Terms.mean a _) (second_layer m c))
  · intro j; rw [V5_bias_raw, V4_first m c main_arg10 (by decide) (by decide) (by decide), V1_keep m c main_arg10 (by decide)]
    exact Cert.Bridge.biasRow_apply _ j
  · rw [hH, V5_keep m c main_arg9 (by decide), V4_first m c main_arg9 (by decide) (by decide) (by decide), V1_keep m c main_arg9 (by decide),
      V5_keep m c main_arg11 (by decide), V4_first m c main_arg11 (by decide) (by decide) (by decide), V1_keep m c main_arg11 (by decide)]

/-- THE RESULT: the readout region's output array is the reference's sum over the batch ids of its third layer. -/
theorem result_eq (c : Dev nD) :
    W8 m c main_v56 = Cert.ReferenceIdeal.Terms.readout (L3 m c) (m ((c : Thread nD τ).loc main_arg2)) := by
  rw [W8_out, arr3_2]
  funext i
  obtain ⟨g, d, rfl⟩ : ∃ (g d : Fin 64), i = ix2 g d := ⟨i 0, i 1, eq_ix2 i⟩
  refine (Cert.KernelIdeal.ReadoutValue.accum_apply (V7 m) c g d).trans ?_
  refine Eq.trans ?_ (Cert.ReferenceIdeal.ReadoutMath.readout_apply _ _ g d).symm
  refine Finset.sum_congr rfl fun n _ => ?_
  have hb : V7 m c main_v55 (ix2 n 0) = m ((c : Thread nD τ).loc main_arg2) (ix1 n) := by
    rw [V7_batch_raw, V6_first m c main_arg2 (by decide) (by decide) (by decide) (by decide) (by decide), V1_keep m c main_arg2 (by decide)]
    exact Cert.Bridge.batchCol_apply _ n
  have hh : V7 m c main_v54 = L3 m c := (V7_keep m c main_v54 (by decide)).trans (third_layer m c)
  show Cert.Spec.oneHot (V7 m c main_v55 (ix2 n 0)) g * V7 m c main_v54 (ix2 n d) = _
  rw [hb, hh]

end Cert.KernelIdeal.Run

end
-- ==== Proof.RefRun.lean ====
/-
  The reference's run ends with its result at the composition of its small functions: three layers and the sum over the
  batch ids, of the launch contents of its arguments.
-/
import proofs.«418230_j2070174236742_2_alg».proof.Proof.Gen.ReferenceIdeal.Run
import proofs.«418230_j2070174236742_2_alg».proof.Proof.RefTerms

set_option maxRecDepth 16384

noncomputable section

namespace Cert.ReferenceIdeal.RefValue

open Cert.ReferenceIdeal Cert.ReferenceIdeal.Gen Cert.ReferenceIdeal.Terms Idealize.ShloMosaic Idealize.ShloMosaic.TcCoe Idealize.SL.Sem

variable {F : FTy → Type} [FloatOps F]

/-- The reference's network of its argument buffers on core c. -/
def net (m : (ℓ : Loc nD τ sig) → Buf (Elt F) ℓ) (c : Dev nD) : TF (F := F) S64x64 :=
  readout
    (layer
      (layer
        (layer (m ((c.tc : Thread nD τ).loc main_arg0)) (m ((c.tc : Thread nD τ).loc main_arg1))
          (m ((c.tc : Thread nD τ).loc main_arg3)) (m ((c.tc : Thread nD τ).loc main_arg4)) (m ((c.tc : Thread nD τ).loc main_arg5)))
        (m ((c.tc : Thread nD τ).loc main_arg1))
        (m ((c.tc : Thread nD τ).loc main_arg6)) (m ((c.tc : Thread nD τ).loc main_arg7)) (m ((c.tc : Thread nD τ).loc main_arg8)))
      (m ((c.tc : Thread nD τ).loc main_arg1))
      (m ((c.tc : Thread nD τ).loc main_arg9)) (m ((c.tc : Thread nD τ).loc main_arg10)) (m ((c.tc : Thread nD τ).loc main_arg11)))
    (m ((c.tc : Thread nD τ).loc main_arg2))

set_option maxHeartbeats 4000000 in
/-- The run's composed term is the network: the small functions unfold to the program's own operations. -/
theorem res_eq (m : (ℓ : Loc nD τ sig) → Buf (Elt F) ℓ) (c : Dev nD) : Value.res_main_v114 m c = net m c := by
  unfold Value.res_main_v114 net readout layer normRelu pre mean degc msg dstC srcW dst src
  rfl

end Cert.ReferenceIdeal.RefValue

end
-- ==== Proof.lean ====
/-
  The certificate of a three-layer SAGE network with a sum readout: the kernel's program (three tiled kernel calls for the
  dense part of each layer, a fourth that accumulates a one-hot matrix product over ten row tiles, host gathers and
  scatters between them) against the plain reference.
  FRAMES. The kernel's @main, at the word level and on the extended reals alike, is a list of eight items: a host stretch
  and a kernel region, four times. Each region's body is run at a generic grid point (the dense body: five loads, one
  whole-block store; the readout body: three cases, the first tile resetting the accumulator, the last copying it out,
  the accumulator carried between tiles in the region's invariant), and the several-regions launch composes them from
  the launch memory; every argument ends as launched because no item writes it. The reference is host operations only.
  VALUE. On the extended reals each dense region writes, row by row, the same row function the reference's layer
  computes, of a neighbour mean that is the neighbour sum times the reciprocal of the clamped degree on one side and
  the sum over the clamped degree on the other: equal because the clamped degree is at least one. The readout's
  accumulator after the tenth tile is the sum over all nodes of [id = g] times the node's row, which is what a scatter
  with addition onto zeros computes, ids outside the range adding nothing on either side. No precondition is used.
-/
import proofs.«418230_j2070174236742_2_alg».proof.Defs
import proofs.«418230_j2070174236742_2_alg».proof.Proof.Gen.Kernel
import proofs.«418230_j2070174236742_2_alg».proof.Proof.Gen.Kernel.Skeleton
import proofs.«418230_j2070174236742_2_alg».proof.Proof.Gen.Kernel.Launch
import proofs.«418230_j2070174236742_2_alg».proof.Proof.Gen.Kernel.Regions
import proofs.«418230_j2070174236742_2_alg».proof.Proof.Gen.Kernel.Points
import proofs.«418230_j2070174236742_2_alg».proof.Proof.Gen.KernelIdeal
import proofs.«418230_j2070174236742_2_alg».proof.Proof.Gen.KernelIdeal.Skeleton
import proofs.«418230_j2070174236742_2_alg».proof.Proof.Gen.KernelIdeal.Launch
import proofs.«418230_j2070174236742_2_alg».proof.Proof.Gen.KernelIdeal.Regions
import proofs.«418230_j2070174236742_2_alg».proof.Proof.Gen.KernelIdeal.Points
import proofs.«418230_j2070174236742_2_alg».proof.Proof.Gen.ReferenceIdeal
import proofs.«418230_j2070174236742_2_alg».proof.Proof.Gen.Pre_finite_inputs
import proofs.«418230_j2070174236742_2_alg».proof.Proof.Gen.ReferenceIdeal.Run
import proofs.«418230_j2070174236742_2_alg».proof.Proof.BitsMainRun
import proofs.«418230_j2070174236742_2_alg».proof.Proof.MainRun
import proofs.«418230_j2070174236742_2_alg».proof.Proof.Bridge
import proofs.«418230_j2070174236742_2_alg».proof.Proof.RefRun
import Idealize.ShloMosaic.Adequacy
import Idealize.ShloMosaic.Init

set_option maxRecDepth 16384

noncomputable section

namespace Cert.Proof

open Idealize.ShloMosaic Idealize.ShloMosaic.TcCoe Idealize.SL.Sem

/-- The word-level program runs and leaves its arguments as launched. -/
theorem frame_k : Cert.frame_Kernel := fun m ρ _ => Cert.Kernel.Run.frame_run (F := Bits) m ρ

/-- So does its reading on the extended reals. -/
theorem frame_ki : Cert.frame_KernelIdeal := fun m ρ _ => Cert.KernelIdeal.Run.frame_run (F := Ideal) m ρ

/-- The reference is host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories that agree on the arguments the two programs end with one result: the kernel's at the readout region's
    output array, which is the reference's network of the kernel's arguments (the bridge), the reference's at its network of
    its own arguments, which are the same arrays. -/
theorem algebraic : Cert.algebraic_KernelIdeal_ReferenceIdeal := by
  intro m ρ m' ρ' _ hagree
  refine ⟨fun c => Cert.KernelIdeal.Run.W8 m c Cert.KernelIdeal.main_v56, Cert.KernelIdeal.Run.value_run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  refine (Cert.ReferenceIdeal.RefValue.res_eq m' c).trans ?_
  refine Eq.trans ?_ (Cert.KernelIdeal.Run.result_eq m c).symm
  unfold Cert.ReferenceIdeal.RefValue.net Cert.KernelIdeal.Run.L3 Cert.KernelIdeal.Run.L2 Cert.KernelIdeal.Run.L1
  rw [h0, h1, h2, h3, h4, h5, h6, h7, h8, h9, h10, h11]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
